-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S64x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S2x4194304 : Shape := ⟨2, ![2, 4194304]⟩
abbrev S1x64 : Shape := ⟨2, ![1, 64]⟩
abbrev S64 : Shape := ⟨1, ![64]⟩
abbrev S64x64 : Shape := ⟨2, ![64, 64]⟩
abbrev S128x10 : Shape := ⟨2, ![128, 10]⟩
abbrev S10 : Shape := ⟨1, ![10]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S128x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S131072 .f32) (main_arg1 : IVec S2x4194304 32) (main_arg2 : IVec S131072 32) (main_arg3 : FVec F S1x64 .f32) (main_arg4 : FVec F S64 .f32) (main_arg5 : FVec F S64x64 .f32) (main_arg6 : FVec F S64 .f32) (main_arg7 : FVec F S128x10 .f32) (main_arg8 : FVec F S10 .f32) : IVec S_ 1 :=
  let main_v0 : FVec F S131072 .f32 := Host.absf main_arg0
  let main_cst : FVec F S_ .f32 := constant S_ .f32 0x7F800000#32
  let main_v1 : FVec F S131072 .f32 := broadcastInDim S131072 ![] bcast_S_S131072 main_cst
  let main_v2 : IVec S131072 1 := cmpf .olt main_v0 main_v1
  let main_c : IVec S_ 1 := constantI S_ 1 1#1
  let main_v3 : IVec S_ 1 := (fun x v => Host.reduce IntOp.andi x v reducesTo_S131072_S_d0 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S131072 : Shape := ⟨1, ![131072]⟩
abbrev S2x4194304 : Shape := ⟨2, ![2, 4194304]⟩
abbrev S1x64 : Shape := ⟨2, ![1, 64]⟩
abbrev S64 : Shape := ⟨1, ![64]⟩
abbrev S64x64 : Shape := ⟨2, ![64, 64]⟩
abbrev S128x10 : Shape := ⟨2, ![128, 10]⟩
abbrev S10 : Shape := ⟨1, ![10]⟩
abbrev S1x4194304 : Shape := ⟨2, ![1, 4194304]⟩
abbrev S4194304 : Shape := ⟨1, ![4194304]⟩
abbrev S_ : Shape := ⟨0, ![]⟩
abbrev S4194304x1 : Shape := ⟨2, ![4194304, 1]⟩
abbrev S131072x1 : Shape := ⟨2, ![131072, 1]⟩
abbrev S131072x64 : Shape := ⟨2, ![131072, 64]⟩
abbrev S4096x1 : Shape := ⟨2, ![4096, 1]⟩
abbrev S4096x64 : Shape := ⟨2, ![4096, 64]⟩
abbrev S4194304x64 : Shape := ⟨2, ![4194304, 64]⟩
abbrev S1x131072 : Shape := ⟨2, ![1, 131072]⟩
abbrev S64x128 : Shape := ⟨2, ![64, 128]⟩
abbrev S64x1 : Shape := ⟨2, ![64, 1]⟩
abbrev S1x8192 : Shape := ⟨2, ![1, 8192]⟩
abbrev S8192x64 : Shape := ⟨2, ![8192, 64]⟩
abbrev S64x8192 : Shape := ⟨2, ![64, 8192]⟩
abbrev S1x10 : Shape := ⟨2, ![1, 10]⟩
abbrev S64x10 : Shape := ⟨2, ![64, 10]⟩

abbrev nBuf : Space → Nat
  | .hbm => 94
  | .vmem => 43
  | .smem => 0
  | _ => 0

abbrev bufTy : (tb : Table) → Fin (tcTables nBuf tb) → BufTy
  | .hbm, ⟨0, _⟩ => ⟨S131072, .f32⟩
  | .hbm, ⟨1, _⟩ => ⟨S2x4194304, .i32⟩
  | .hbm, ⟨2, _⟩ => ⟨S131072, .i32⟩
  | .hbm, ⟨3, _⟩ => ⟨S1x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x10, .f32⟩
  | .hbm, ⟨8, _⟩ => ⟨S10, .f32⟩
  | .hbm, ⟨9, _⟩ => ⟨S1x4194304, .i32⟩
  | .hbm, ⟨10, _⟩ => ⟨S4194304, .i32⟩
  | .hbm, ⟨11, _⟩ => ⟨S1x4194304, .i32⟩
  | .hbm, ⟨12, _⟩ => ⟨S4194304, .i32⟩
  | .hbm, ⟨13, _⟩ => ⟨S_, .f32⟩
  | .hbm, ⟨14, _⟩ => ⟨S4194304, .f32⟩
  | .hbm, ⟨15, _⟩ => ⟨S_, .f32⟩
  | .hbm, ⟨16, _⟩ => ⟨S131072, .f32⟩
  | .hbm, ⟨17, _⟩ => ⟨S4194304x1, .i32⟩
  | .hbm, ⟨18, _⟩ => ⟨S131072, .f32⟩
  | .hbm, ⟨19, _⟩ => ⟨S_, .f32⟩
  | .hbm, ⟨20, _⟩ => ⟨S131072, .f32⟩
  | .hbm, ⟨21, _⟩ => ⟨S131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S_, .i32⟩
  | .hbm, ⟨26, _⟩ => ⟨S4194304, .i32⟩
  | .hbm, ⟨27, _⟩ => ⟨S4194304, .i1⟩
  | .hbm, ⟨28, _⟩ => ⟨S_, .i32⟩
  | .hbm, ⟨29, _⟩ => ⟨S4194304, .i32⟩
  | .hbm, ⟨30, _⟩ => ⟨S4194304, .i32⟩
  | .hbm, ⟨31, _⟩ => ⟨S4194304, .i32⟩
  | .hbm, ⟨32, _⟩ => ⟨S4194304x1, .i32⟩
  | .hbm, ⟨33, _⟩ => ⟨S4194304, .f32⟩
  | .hbm, ⟨34, _⟩ => ⟨S_, .i32⟩
  | .hbm, ⟨35, _⟩ => ⟨S4194304, .i32⟩
  | .hbm, ⟨36, _⟩ => ⟨S4194304, .i1⟩
  | .hbm, ⟨37, _⟩ => ⟨S_, .i32⟩
  | .hbm, ⟨38, _⟩ => ⟨S4194304, .i32⟩
  | .hbm, ⟨39, _⟩ => ⟨S4194304, .i32⟩
  | .hbm, ⟨40, _⟩ => ⟨S4194304, .i32⟩
  | .hbm, ⟨41, _⟩ => ⟨S4194304x1, .i32⟩
  | .hbm, ⟨42, _⟩ => ⟨S4194304, .f32⟩
  | .hbm, ⟨43, _⟩ => ⟨S4194304, .f32⟩
  | .hbm, ⟨44, _⟩ => ⟨S131072x1, .f32⟩
  | .hbm, ⟨45, _⟩ => ⟨S131072x1, .f32⟩
  | .hbm, ⟨46, _⟩ => ⟨S131072x64, .f32⟩
  | .hbm, ⟨47, _⟩ => ⟨S4194304x1, .f32⟩
  | .hbm, ⟨48, _⟩ => ⟨S_, .i32⟩
  | .hbm, ⟨49, _⟩ => ⟨S4194304, .i32⟩
  | .hbm, ⟨50, _⟩ => ⟨S4194304, .i1⟩
  | .hbm, ⟨51, _⟩ => ⟨S_, .i32⟩
  | .hbm, ⟨52, _⟩ => ⟨S4194304, .i32⟩
  | .hbm, ⟨53, _⟩ => ⟨S4194304, .i32⟩
  | .hbm, ⟨54, _⟩ => ⟨S4194304, .i32⟩
  | .hbm, ⟨55, _⟩ => ⟨S4194304x1, .i32⟩
  | .hbm, ⟨56, _⟩ => ⟨S4194304x64, .f32⟩
  | .hbm, ⟨57, _⟩ => ⟨S4194304x64, .f32⟩
  | .hbm, ⟨58, _⟩ => ⟨S4194304x64, .f32⟩
  | .hbm, ⟨59, _⟩ => ⟨S_, .f32⟩
  | .hbm, ⟨60, _⟩ => ⟨S131072x64, .f32⟩
  | .hbm, ⟨61, _⟩ => ⟨S4194304x1, .i32⟩
  | .hbm, ⟨62, _⟩ => ⟨S131072x64, .f32⟩
  | .hbm, ⟨63, _⟩ => ⟨S1x64, .f32⟩
  | .hbm, ⟨64, _⟩ => ⟨S131072x64, .f32⟩
  | .hbm, ⟨65, _⟩ => ⟨S131072x64, .f32⟩
  | .hbm, ⟨66, _⟩ => ⟨S4194304x1, .f32⟩
  | .hbm, ⟨67, _⟩ => ⟨S_, .i32⟩
  | .hbm, ⟨68, _⟩ => ⟨S4194304, .i32⟩
  | .hbm, ⟨69, _⟩ => ⟨S4194304, .i1⟩
  | .hbm, ⟨70, _⟩ => ⟨S_, .i32⟩
  | .hbm, ⟨71, _⟩ => ⟨S4194304, .i32⟩
  | .hbm, ⟨72, _⟩ => ⟨S4194304, .i32⟩
  | .hbm, ⟨73, _⟩ => ⟨S4194304, .i32⟩
  | .hbm, ⟨74, _⟩ => ⟨S4194304x1, .i32⟩
  | .hbm, ⟨75, _⟩ => ⟨S4194304x64, .f32⟩
  | .hbm, ⟨76, _⟩ => ⟨S4194304x64, .f32⟩
  | .hbm, ⟨77, _⟩ => ⟨S4194304x64, .f32⟩
  | .hbm, ⟨78, _⟩ => ⟨S_, .f32⟩
  | .hbm, ⟨79, _⟩ => ⟨S131072x64, .f32⟩
  | .hbm, ⟨80, _⟩ => ⟨S4194304x1, .i32⟩
  | .hbm, ⟨81, _⟩ => ⟨S131072x64, .f32⟩
  | .hbm, ⟨82, _⟩ => ⟨S1x64, .f32⟩
  | .hbm, ⟨83, _⟩ => ⟨S131072x64, .f32⟩
  | .hbm, ⟨84, _⟩ => ⟨S1x131072, .i32⟩
  | .hbm, ⟨85, _⟩ => ⟨S64x128, .f32⟩
  | .hbm, ⟨86, _⟩ => ⟨S64x1, .f32⟩
  | .hbm, ⟨87, _⟩ => ⟨S_, .f32⟩
  | .hbm, ⟨88, _⟩ => ⟨S64x1, .f32⟩
  | .hbm, ⟨89, _⟩ => ⟨S64x1, .f32⟩
  | .hbm, ⟨90, _⟩ => ⟨S64x128, .f32⟩
  | .hbm, ⟨91, _⟩ => ⟨S64x128, .f32⟩
  | .hbm, ⟨92, _⟩ => ⟨S1x10, .f32⟩
  | .hbm, ⟨93, _⟩ => ⟨S64x10, .f32⟩
  | .local _ .vmem, ⟨0, _⟩ => ⟨S4096x1, .f32⟩
  | .local _ .vmem, ⟨1, _⟩ => ⟨S4096x1, .f32⟩
  | .local _ .vmem, ⟨2, _⟩ => ⟨S1x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096x1, .f32⟩
  | .local _ .vmem, ⟨10, _⟩ => ⟨S4096x1, .f32⟩
  | .local _ .vmem, ⟨11, _⟩ => ⟨S1x64, .f32⟩
  | .local _ .vmem, ⟨12, _⟩ => ⟨S4096x64, .f32⟩
  | .local _ .vmem, ⟨13, _⟩ => ⟨S4096x64, .f32⟩
  | .local _ .vmem, ⟨14, _⟩ => ⟨S4096x64, .f32⟩
  | .local _ .vmem, ⟨15, _⟩ => ⟨S4096x64, .f32⟩
  | .local _ .vmem, ⟨16, _⟩ => ⟨S64x64, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | .local _ .vmem, ⟨20, _⟩ => ⟨S4096x64, .f32⟩
  | .local _ .vmem, ⟨21, _⟩ => ⟨S4096x64, .f32⟩
  | .local _ .vmem, ⟨22, _⟩ => ⟨S4096x64, .f32⟩
  | .local _ .vmem, ⟨23, _⟩ => ⟨S4096x1, .f32⟩
  | .local _ .vmem, ⟨24, _⟩ => ⟨S4096x1, .f32⟩
  | .local _ .vmem, ⟨25, _⟩ => ⟨S1x64, .f32⟩
  | .local _ .vmem, ⟨26, _⟩ => ⟨S4096x64, .f32⟩
  | .local _ .vmem, ⟨27, _⟩ => ⟨S4096x64, .f32⟩
  | .local _ .vmem, ⟨28, _⟩ => ⟨S1x8192, .i32⟩
  | .local _ .vmem, ⟨29, _⟩ => ⟨S1x8192, .i32⟩
  | .local _ .vmem, ⟨30, _⟩ => ⟨S8192x64, .f32⟩
  | .local _ .vmem, ⟨31, _⟩ => ⟨S8192x64, .f32⟩
  | .local _ .vmem, ⟨32, _⟩ => ⟨S8192x64, .f32⟩
  | .local _ .vmem, ⟨33, _⟩ => ⟨S8192x64, .f32⟩
  | .local _ .vmem, ⟨34, _⟩ => ⟨S64x128, .f32⟩
  | .local _ .vmem, ⟨35, _⟩ => ⟨S64x1, .f32⟩
  | .local _ .vmem, ⟨36, _⟩ => ⟨S64x64, .f32⟩
  | .local _ .vmem, ⟨37, _⟩ => ⟨S64x64, .f32⟩
  | .local _ .vmem, ⟨38, _⟩ => ⟨S64x1, .f32⟩
  | .local _ .vmem, ⟨39, _⟩ => ⟨S64x128, .f32⟩
  | .local _ .vmem, ⟨40, _⟩ => ⟨S128x10, .f32⟩
  | .local _ .vmem, ⟨41, _⟩ => ⟨S1x10, .f32⟩
  | .local _ .vmem, ⟨42, _⟩ => ⟨S64x10, .f32⟩
  | _, _ => ⟨S131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62_0 : Ref sig .tc := ⟨.hbm, 85, rfl⟩
abbrev main_v62_1 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg4_0 : Ref sig .tc := ⟨.vmem, 35, rfl⟩
abbrev cc4_scratch0 : Ref sig .tc := ⟨.vmem, 36, rfl⟩
abbrev cc4_scratch1 : Ref sig .tc := ⟨.vmem, 37, rfl⟩
abbrev cc4_scratch2 : Ref sig .tc := ⟨.vmem, 38, rfl⟩
abbrev cc5_stg0_0 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem4_0 : DmaSem sig := 35
abbrev cc5_sem0_0 : DmaSem sig := 36
abbrev cc5_sem1_0 : DmaSem sig := 37
abbrev cc5_sem2_0 : DmaSem sig := 38
abbrev cc5_sem3_0 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4096x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def k4_cond2 (i : grid4.Coords) : BitVec 1 :=
  let arg0 : BitVec 32 := BitVec.ofNat 32 (i 0).val
  let c15_i32 : BitVec 32 := 15#32
  let v37 : BitVec 1 := Scalar.cmpi .eq arg0 c15_i32
  let v38 : BitVec 32 := Scalar.extui v37
  let c0_i32_20 : BitVec 32 := 0#32
  let v39 : BitVec 1 := Scalar.cmpi .ne v38 c0_i32_20
  v39

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x8192 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S_S131072 : S_.BroadcastsInDim S131072 (![] : Fin 0 → Fin S131072.rank)
  bcast_S4194304_S4194304x1_0 : S4194304.BroadcastsInDim S4194304x1 (![0] : Fin 1 → Fin S4194304x1.rank)
  shapeCasts_S131072_S131072x1 : S131072.ShapeCasts S131072x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S4096x64_S4096x64_0_0 : ∀ a, (![0, 0] : Fin 2 → Nat) a + S4096x64.size a ≤ S4096x64.size a
  h_S4096x64 : 0 < S4096x64.numel
  bcast_S4194304x1_S4194304x64_0_1 : S4194304x1.BroadcastsInDim S4194304x64 (![0, 1] : Fin 2 → Fin S4194304x64.rank)
  bcast_S_S131072x64 : S_.BroadcastsInDim S131072x64 (![] : Fin 0 → Fin S131072x64.rank)
  shapeCasts_S64_S1x64 : S64.ShapeCasts S1x64
  shapeCasts_S4096x64_S4096x64 : S4096x64.ShapeCasts S4096x64
  broadcasts_S4096x1_S4096x64 : S4096x1.Broadcasts S4096x64
  shapeCasts_S1x64_S1x64 : S1x64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  shapeCasts_S131072_S1x131072 : S131072.ShapeCasts S1x131072
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S64x8192_d0_w32 : S64x8192.Iotas .tc 32 [0]
  broadcasts_S1x8192_S64x8192 : S1x8192.Broadcasts S64x8192
  natLt_1_32 : 1 < 32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S64x8192_S64 : S64x8192.Reduces [1] S64
  shapeCasts_S64_S64x1 : S64.ShapeCasts S64x1
  inb_S64x128_S64x64_0_0 : ∀ a, (![0, 0] : Fin 2 → Nat) a + S64x64.size a ≤ S64x128.size a
  inb_S64x128_S64x64_0_64 : ∀ a, (![0, 64] : Fin 2 → Nat) a + S64x64.size a ≤ S64x128.size a
  bcast_S_S64x1 : S_.BroadcastsInDim S64x1 (![] : Fin 0 → Fin S64x1.rank)
  bcast_S64x1_S64x128_0_1 : S64x1.BroadcastsInDim S64x128 (![0, 1] : Fin 2 → Fin S64x128.rank)
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S131072_S4194304x1_S4194304_n_0_0_1_wf : ScatterDims.WF S131072 S4194304x1 S4194304 [] [0] [0] 1
  gather_S131072_S4194304x1_S4194304_n_0_n_n_0_1_1_wf : GatherDims.WF S131072 S4194304x1 S4194304 [] [0] [] [0] [] 1 ![1]
  dot_S4096x1_S1x64_S4096x64_1_0_0_1_n_n_wf : DotDims.WF S4096x1 S1x64 S4096x64 [1] [0] [0] [1] [] []
  gather_S131072x64_S4194304x1_S4194304x64_1_0_n_n_0_1_164_wf : GatherDims.WF S131072x64 S4194304x1 S4194304x64 [1] [0] [] [0] [] 1 ![1, 64]
  scatter_S131072x64_S4194304x1_S4194304x64_1_0_0_1_wf : ScatterDims.WF S131072x64 S4194304x1 S4194304x64 [1] [0] [0] 1
  dot_S4096x64_S64x64_S4096x64_1_0_0_1_n_n_wf : DotDims.WF S4096x64 S64x64 S4096x64 [1] [0] [0] [1] [] []
  dot_S64x8192_S8192x64_S64x64_1_0_0_1_n_n_wf : DotDims.WF S64x8192 S8192x64 S64x64 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S131072x1.size a
  hwx0_0 : ∀ i : grid0.Coords, EltTy.bits .f32 = 32 ∨ (Rect.block (s := S131072x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S131072x64.size a
  hwx0_2 : ∀ i : grid0.Coords, EltTy.bits .f32 = 32 ∨ (Rect.block (s := S131072x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S131072x64.size a
  hwx1_0 : ∀ i : grid1.Coords, EltTy.bits .f32 = 32 ∨ (Rect.block (s := S131072x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S131072x64.size a
  hwx1_1 : ∀ i : grid1.Coords, EltTy.bits .f32 = 32 ∨ (Rect.block (s := S131072x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S131072x1.size a
  hwx1_2 : ∀ i : grid1.Coords, EltTy.bits .f32 = 32 ∨ (Rect.block (s := S131072x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S131072x64.size a
  hwx1_4 : ∀ i : grid1.Coords, EltTy.bits .f32 = 32 ∨ (Rect.block (s := S131072x64) S4096x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S131072x64.size a
  hwx2_0 : ∀ i : grid2.Coords, EltTy.bits .f32 = 32 ∨ (Rect.block (s := S131072x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S131072x64.size a
  hwx2_2 : ∀ i : grid2.Coords, EltTy.bits .f32 = 32 ∨ (Rect.block (s := S131072x64) S4096x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S131072x64.size a
  hwx3_0 : ∀ i : grid3.Coords, EltTy.bits .f32 = 32 ∨ (Rect.block (s := S131072x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S131072x64.size a
  hwx3_1 : ∀ i : grid3.Coords, EltTy.bits .f32 = 32 ∨ (Rect.block (s := S131072x64) S4096x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x1.size a ≤ S131072x1.size a
  hwx3_2 : ∀ i : grid3.Coords, EltTy.bits .f32 = 32 ∨ (Rect.block (s := S131072x1) S4096x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x64.size a ≤ S131072x64.size a
  hwx3_4 : ∀ i : grid3.Coords, EltTy.bits .f32 = 32 ∨ (Rect.block (s := S131072x64) S4096x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x8192.size a ≤ S1x131072.size a
  hwx4_0 : ∀ i : grid4.Coords, EltTy.bits .i32 = 32 ∨ (Rect.block (s := S1x131072) S1x8192.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S131072x64.size a
  hwx4_1 : ∀ i : grid4.Coords, EltTy.bits .f32 = 32 ∨ (Rect.block (s := S131072x64) S8192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S131072x64.size a
  hwx4_2 : ∀ i : grid4.Coords, EltTy.bits .f32 = 32 ∨ (Rect.block (s := S131072x64) S8192x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x128.size a ≤ S64x128.size a
  hwx5_0 : ∀ i : grid5.Coords, EltTy.bits .f32 = 32 ∨ (Rect.block (s := S64x128) S64x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x10.size a ≤ S128x10.size a
  hwx5_1 : ∀ i : grid5.Coords, EltTy.bits .f32 = 32 ∨ (Rect.block (s := S128x10) S128x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x10.size a ≤ S1x10.size a
  hwx5_2 : ∀ i : grid5.Coords, EltTy.bits .f32 = 32 ∨ (Rect.block (s := S1x10) S1x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x10.size a ≤ S64x10.size a
  hwx5_3 : ∀ i : grid5.Coords, EltTy.bits .f32 = 32 ∨ (Rect.block (s := S64x10) S64x10.size (cc5_transform_3 i) (hinb5_3 i)).WholeWords (EltTy.packing .f32)

variable [Facts₀]

def scatter_S131072_S4194304x1_S4194304_n_0_0_1 : ScatterDims S131072 S4194304x1 S4194304 where
  updateWindowDims := []
  insertedWindowDims := [0]
  scatterDimsToOperandDims := [0]
  indexVectorDim := 1
  wf := scatter_S131072_S4194304x1_S4194304_n_0_0_1_wf
def gather_S131072_S4194304x1_S4194304_n_0_n_n_0_1_1 : GatherDims S131072 S4194304x1 S4194304 where
  offsetDims := []
  collapsedSliceDims := [0]
  operandBatchingDims := []
  startIndicesBatchingDims := []
  startIndexMap := [0]
  indexVectorDim := 1
  sliceSizes := ![1]
  wf := gather_S131072_S4194304x1_S4194304_n_0_n_n_0_1_1_wf
def dot_S4096x1_S1x64_S4096x64_1_0_0_1_n_n : DotDims S4096x1 S1x64 S4096x64 where
  lhsContracting := [1]
  rhsContracting := [0]
  lhsNonContracting := [0]
  rhsNonContracting := [1]
  lhsBatch := []
  rhsBatch := []
  wf := dot_S4096x1_S1x64_S4096x64_1_0_0_1_n_n_wf
def gather_S131072x64_S4194304x1_S4194304x64_1_0_n_n_0_1_164 : GatherDims S131072x64 S4194304x1 S4194304x64 where
  offsetDims := [1]
  collapsedSliceDims := [0]
  operandBatchingDims := []
  startIndicesBatchingDims := []
  startIndexMap := [0]
  indexVectorDim := 1
  sliceSizes := ![1, 64]
  wf := gather_S131072x64_S4194304x1_S4194304x64_1_0_n_n_0_1_164_wf
def scatter_S131072x64_S4194304x1_S4194304x64_1_0_0_1 : ScatterDims S131072x64 S4194304x1 S4194304x64 where
  updateWindowDims := [1]
  insertedWindowDims := [0]
  scatterDimsToOperandDims := [0]
  indexVectorDim := 1
  wf := scatter_S131072x64_S4194304x1_S4194304x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S64x8192_S8192x64_S64x64_1_0_0_1_n_n : DotDims S64x8192 S8192x64 S64x64 where
  lhsContracting := [1]
  rhsContracting := [0]
  lhsNonContracting := [0]
  rhsNonContracting := [1]
  lhsBatch := []
  rhsBatch := []
  wf := dot_S64x8192_S8192x64_S64x64_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v28) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S4096x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S4096x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S4096x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S4096x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S1x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S8192x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S8192x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v62_0) S64x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62_1) S64x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v66) S64x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S64x10.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S131072 : Shape := ⟨1, ![131072]⟩
abbrev S2x4194304 : Shape := ⟨2, ![2, 4194304]⟩
abbrev S1x64 : Shape := ⟨2, ![1, 64]⟩
abbrev S64 : Shape := ⟨1, ![64]⟩
abbrev S64x64 : Shape := ⟨2, ![64, 64]⟩
abbrev S128x10 : Shape := ⟨2, ![128, 10]⟩
abbrev S10 : Shape := ⟨1, ![10]⟩
abbrev S1x4194304 : Shape := ⟨2, ![1, 4194304]⟩
abbrev S4194304 : Shape := ⟨1, ![4194304]⟩
abbrev S_ : Shape := ⟨0, ![]⟩
abbrev S4194304x1 : Shape := ⟨2, ![4194304, 1]⟩
abbrev S131072x1 : Shape := ⟨2, ![131072, 1]⟩
abbrev S131072x64 : Shape := ⟨2, ![131072, 64]⟩
abbrev S4194304x64 : Shape := ⟨2, ![4194304, 64]⟩
abbrev S131072x128 : Shape := ⟨2, ![131072, 128]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 141
  | .vmem => 0
  | .smem => 0
  | _ => 0

abbrev hbmTy0_0 (i : Nat) : BufTy := match i % 128 with
  | 0 => ⟨S131072, .f32⟩
  | 1 => ⟨S2x4194304, .i32⟩
  | 2 => ⟨S131072, .i32⟩
  | 3 => ⟨S1x64, .f32⟩
  | 4 => ⟨S64, .f32⟩
  | 5 => ⟨S64x64, .f32⟩
  | 6 => ⟨S64, .f32⟩
  | 7 => ⟨S128x10, .f32⟩
  | 8 => ⟨S10, .f32⟩
  | 9 => ⟨S1x4194304, .i32⟩
  | 10 => ⟨S4194304, .i32⟩
  | 11 => ⟨S1x4194304, .i32⟩
  | 12 => ⟨S4194304, .i32⟩
  | 13 => ⟨S_, .f32⟩
  | 14 => ⟨S4194304, .f32⟩
  | 15 => ⟨S_, .f32⟩
  | 16 => ⟨S131072, .f32⟩
  | 17 => ⟨S4194304x1, .i32⟩
  | 18 => ⟨S131072, .f32⟩
  | 19 => ⟨S_, .f32⟩
  | 20 => ⟨S131072, .f32⟩
  | 21 => ⟨S131072, .f32⟩
  | 22 => ⟨S_, .f32⟩
  | 23 => ⟨S131072, .f32⟩
  | 24 => ⟨S131072, .f32⟩
  | 25 => ⟨S131072x1, .f32⟩
  | 26 => ⟨S131072x64, .f32⟩
  | 27 => ⟨S_, .i32⟩
  | 28 => ⟨S4194304, .i32⟩
  | 29 => ⟨S4194304, .i1⟩
  | 30 => ⟨S_, .i32⟩
  | 31 => ⟨S4194304, .i32⟩
  | 32 => ⟨S4194304, .i32⟩
  | 33 => ⟨S4194304, .i32⟩
  | 34 => ⟨S4194304x1, .i32⟩
  | 35 => ⟨S4194304, .f32⟩
  | 36 => ⟨S_, .i32⟩
  | 37 => ⟨S4194304, .i32⟩
  | 38 => ⟨S4194304, .i1⟩
  | 39 => ⟨S_, .i32⟩
  | 40 => ⟨S4194304, .i32⟩
  | 41 => ⟨S4194304, .i32⟩
  | 42 => ⟨S4194304, .i32⟩
  | 43 => ⟨S4194304x1, .i32⟩
  | 44 => ⟨S4194304, .f32⟩
  | 45 => ⟨S4194304, .f32⟩
  | 46 => ⟨S4194304x1, .f32⟩
  | 47 => ⟨S_, .i32⟩
  | 48 => ⟨S4194304, .i32⟩
  | 49 => ⟨S4194304, .i1⟩
  | 50 => ⟨S_, .i32⟩
  | 51 => ⟨S4194304, .i32⟩
  | 52 => ⟨S4194304, .i32⟩
  | 53 => ⟨S4194304, .i32⟩
  | 54 => ⟨S4194304x1, .i32⟩
  | 55 => ⟨S4194304x64, .f32⟩
  | 56 => ⟨S4194304x64, .f32⟩
  | 57 => ⟨S4194304x64, .f32⟩
  | 58 => ⟨S_, .f32⟩
  | 59 => ⟨S131072x64, .f32⟩
  | 60 => ⟨S4194304x1, .i32⟩
  | 61 => ⟨S131072x64, .f32⟩
  | 62 => ⟨S131072, .f32⟩
  | 63 => ⟨S131072x1, .f32⟩
  | 64 => ⟨S131072x64, .f32⟩
  | 65 => ⟨S131072x64, .f32⟩
  | 66 => ⟨S131072x64, .f32⟩
  | 67 => ⟨S1x64, .f32⟩
  | 68 => ⟨S131072x64, .f32⟩
  | 69 => ⟨S131072x64, .f32⟩
  | 70 => ⟨S_, .f32⟩
  | 71 => ⟨S131072x64, .f32⟩
  | 72 => ⟨S131072x64, .f32⟩
  | 73 => ⟨S131072x64, .f32⟩
  | 74 => ⟨S_, .i32⟩
  | 75 => ⟨S4194304, .i32⟩
  | 76 => ⟨S4194304, .i1⟩
  | 77 => ⟨S_, .i32⟩
  | 78 => ⟨S4194304, .i32⟩
  | 79 => ⟨S4194304, .i32⟩
  | 80 => ⟨S4194304, .i32⟩
  | 81 => ⟨S4194304x1, .i32⟩
  | 82 => ⟨S4194304, .f32⟩
  | 83 => ⟨S_, .i32⟩
  | 84 => ⟨S4194304, .i32⟩
  | 85 => ⟨S4194304, .i1⟩
  | 86 => ⟨S_, .i32⟩
  | 87 => ⟨S4194304, .i32⟩
  | 88 => ⟨S4194304, .i32⟩
  | 89 => ⟨S4194304, .i32⟩
  | 90 => ⟨S4194304x1, .i32⟩
  | 91 => ⟨S4194304, .f32⟩
  | 92 => ⟨S4194304, .f32⟩
  | 93 => ⟨S4194304x1, .f32⟩
  | 94 => ⟨S_, .i32⟩
  | 95 => ⟨S4194304, .i32⟩
  | 96 => ⟨S4194304, .i1⟩
  | 97 => ⟨S_, .i32⟩
  | 98 => ⟨S4194304, .i32⟩
  | 99 => ⟨S4194304, .i32⟩
  | 100 => ⟨S4194304, .i32⟩
  | 101 => ⟨S4194304x1, .i32⟩
  | 102 => ⟨S4194304x64, .f32⟩
  | 103 => ⟨S4194304x64, .f32⟩
  | 104 => ⟨S4194304x64, .f32⟩
  | 105 => ⟨S_, .f32⟩
  | 106 => ⟨S131072x64, .f32⟩
  | 107 => ⟨S4194304x1, .i32⟩
  | 108 => ⟨S131072x64, .f32⟩
  | 109 => ⟨S131072, .f32⟩
  | 110 => ⟨S131072x1, .f32⟩
  | 111 => ⟨S131072x64, .f32⟩
  | 112 => ⟨S131072x64, .f32⟩
  | 113 => ⟨S131072x64, .f32⟩
  | 114 => ⟨S1x64, .f32⟩
  | 115 => ⟨S131072x64, .f32⟩
  | 116 => ⟨S131072x64, .f32⟩
  | 117 => ⟨S_, .f32⟩
  | 118 => ⟨S131072x64, .f32⟩
  | 119 => ⟨S131072x64, .f32⟩
  | 120 => ⟨S131072x128, .f32⟩
  | 121 => ⟨S_, .f32⟩
  | 122 => ⟨S64x128, .f32⟩
  | 123 => ⟨S131072x1, .i32⟩
  | 124 => ⟨S64x128, .f32⟩
  | 125 => ⟨S_, .f32⟩
  | 126 => ⟨S131072, .f32⟩
  | 127 => ⟨S_, .f32⟩
  | _ => ⟨S131072, .f32⟩

abbrev hbmTy0_1 (i : Nat) : BufTy := match i % 128 with
  | 0 => ⟨S64, .f32⟩
  | 1 => ⟨S131072x1, .i32⟩
  | 2 => ⟨S64, .f32⟩
  | 3 => ⟨S_, .f32⟩
  | 4 => ⟨S64, .f32⟩
  | 5 => ⟨S64, .f32⟩
  | 6 => ⟨S64x1, .f32⟩
  | 7 => ⟨S64x128, .f32⟩
  | 8 => ⟨S64x128, .f32⟩
  | 9 => ⟨S64x10, .f32⟩
  | 10 => ⟨S1x10, .f32⟩
  | 11 => ⟨S64x10, .f32⟩
  | 12 => ⟨S64x10, .f32⟩
  | _ => ⟨S131072, .f32⟩

abbrev hbmTy (i : Nat) : BufTy := match i / 128 with
  | 0 => hbmTy0_0 i
  | 1 => hbmTy0_1 i
  | _ => ⟨S131072, .f32⟩

abbrev bufTy : (tb : Table) → Fin (tcTables nBuf tb) → BufTy
  | .hbm, ⟨i, _⟩ => hbmTy i
  | _, _ => ⟨S131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_cst : Ref sig .tc := ⟨.hbm, 70, rfl⟩
abbrev main_call0_v0 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call1_cst : Ref sig .tc := ⟨.hbm, 117, rfl⟩
abbrev main_call1_v0 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S_S131072 : S_.BroadcastsInDim S131072 (![] : Fin 0 → Fin S131072.rank)
  bcast_S4194304_S4194304x1_0 : S4194304.BroadcastsInDim S4194304x1 (![0] : Fin 1 → Fin S4194304x1.rank)
  bcast_S131072_S131072x1_0 : S131072.BroadcastsInDim S131072x1 (![0] : Fin 1 → Fin S131072x1.rank)
  bcast_S4194304x1_S4194304x64_0_1 : S4194304x1.BroadcastsInDim S4194304x64 (![0, 1] : Fin 2 → Fin S4194304x64.rank)
  bcast_S_S131072x64 : S_.BroadcastsInDim S131072x64 (![] : Fin 0 → Fin S131072x64.rank)
  bcast_S131072x1_S131072x64_0_1 : S131072x1.BroadcastsInDim S131072x64 (![0, 1] : Fin 2 → Fin S131072x64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  concatenates_S131072x64_S131072x64_S131072x128_d1 : Shape.Concatenates [S131072x64, S131072x64] S131072x128 1
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S131072_S4194304x1_S4194304_n_0_0_1_wf : ScatterDims.WF S131072 S4194304x1 S4194304 [] [0] [0] 1
  dot_S131072x1_S1x64_S131072x64_1_0_0_1_n_n_wf : DotDims.WF S131072x1 S1x64 S131072x64 [1] [0] [0] [1] [] []
  gather_S131072_S4194304x1_S4194304_n_0_n_n_0_1_1_wf : GatherDims.WF S131072 S4194304x1 S4194304 [] [0] [] [0] [] 1 ![1]
  gather_S131072x64_S4194304x1_S4194304x64_1_0_n_n_0_1_164_wf : GatherDims.WF S131072x64 S4194304x1 S4194304x64 [1] [0] [] [0] [] 1 ![1, 64]
  scatter_S131072x64_S4194304x1_S4194304x64_1_0_0_1_wf : ScatterDims.WF S131072x64 S4194304x1 S4194304x64 [1] [0] [0] 1
  dot_S131072x64_S64x64_S131072x64_1_0_0_1_n_n_wf : DotDims.WF S131072x64 S64x64 S131072x64 [1] [0] [0] [1] [] []
  scatter_S64x128_S131072x1_S131072x128_1_0_0_1_wf : ScatterDims.WF S64x128 S131072x1 S131072x128 [1] [0] [0] 1
  scatter_S64_S131072x1_S131072_n_0_0_1_wf : ScatterDims.WF S64 S131072x1 S131072 [] [0] [0] 1
  dot_S64x128_S128x10_S64x10_1_0_0_1_n_n_wf : DotDims.WF S64x128 S128x10 S64x10 [1] [0] [0] [1] [] []

variable [Facts₀]

def scatter_S131072_S4194304x1_S4194304_n_0_0_1 : ScatterDims S131072 S4194304x1 S4194304 where
  updateWindowDims := []
  insertedWindowDims := [0]
  scatterDimsToOperandDims := [0]
  indexVectorDim := 1
  wf := scatter_S131072_S4194304x1_S4194304_n_0_0_1_wf
def dot_S131072x1_S1x64_S131072x64_1_0_0_1_n_n : DotDims S131072x1 S1x64 S131072x64 where
  lhsContracting := [1]
  rhsContracting := [0]
  lhsNonContracting := [0]
  rhsNonContracting := [1]
  lhsBatch := []
  rhsBatch := []
  wf := dot_S131072x1_S1x64_S131072x64_1_0_0_1_n_n_wf
def gather_S131072_S4194304x1_S4194304_n_0_n_n_0_1_1 : GatherDims S131072 S4194304x1 S4194304 where
  offsetDims := []
  collapsedSliceDims := [0]
  operandBatchingDims := []
  startIndicesBatchingDims := []
  startIndexMap := [0]
  indexVectorDim := 1
  sliceSizes := ![1]
  wf := gather_S131072_S4194304x1_S4194304_n_0_n_n_0_1_1_wf
def gather_S131072x64_S4194304x1_S4194304x64_1_0_n_n_0_1_164 : GatherDims S131072x64 S4194304x1 S4194304x64 where
  offsetDims := [1]
  collapsedSliceDims := [0]
  operandBatchingDims := []
  startIndicesBatchingDims := []
  startIndexMap := [0]
  indexVectorDim := 1
  sliceSizes := ![1, 64]
  wf := gather_S131072x64_S4194304x1_S4194304x64_1_0_n_n_0_1_164_wf
def scatter_S131072x64_S4194304x1_S4194304x64_1_0_0_1 : ScatterDims S131072x64 S4194304x1 S4194304x64 where
  updateWindowDims := [1]
  insertedWindowDims := [0]
  scatterDimsToOperandDims := [0]
  indexVectorDim := 1
  wf := scatter_S131072x64_S4194304x1_S4194304x64_1_0_0_1_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def scatter_S64x128_S131072x1_S131072x128_1_0_0_1 : ScatterDims S64x128 S131072x1 S131072x128 where
  updateWindowDims := [1]
  insertedWindowDims := [0]
  scatterDimsToOperandDims := [0]
  indexVectorDim := 1
  wf := scatter_S64x128_S131072x1_S131072x128_1_0_0_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.K.R0.lean ====
/- The first dense layer's linear map, one block of 4096 nodes per grid point (32 points).
   Window 0 is the block of node features (4096 x 1), window 1 the whole weight row (1 x 64), window 2 the
   block of the product (4096 x 64). At a point the body reads both inputs whole and stores the product of the
   two, a matrix product onto a zero accumulator, over the whole output block; nothing else is kept between
   points. Stated at the contents `V` the region is entered with: what each input block is, what the body
   leaves in the output block, the body's triple and the obligation at every point. -/
import proofs.«410829_j31533649887385_2_alg».proof.Proof.Gen.Kernel.Launch
import proofs.«410829_j31533649887385_2_alg».proof.Proof.Gen.Kernel.Skeleton
import proofs.«410829_j31533649887385_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight row is in its staging buffer at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S4096x1 := Rect.unit (s := S4096x1) ![0, 0] S4096x1.size inb_S4096x1_S4096x1_0_0
abbrev r0_w : Rect S1x64 := Rect.unit (s := S1x64) ![0, 0] S1x64.size inb_S1x64_S1x64_0_0
abbrev r0_o : Rect S4096x64 := Rect.unit (s := S4096x64) ![0, 0] S4096x64.size inb_S4096x64_S4096x64_0_0

/-! ## What the body leaves in the output block -/

/-- The product block: the one store, whole, of the matrix product of the two input blocks. -/
def out0_2 (x0 : Vec F S4096x1 .f32) (x1 : Vec F S1x64 .f32) : Vec F S4096x64 .f32 :=
  View.canon [⟨r0_o, k0_pay1 (View.ld x0 r0_x) (View.ld x1 r0_w)⟩]

/-- The one store covers the block. -/
theorem cover0_2 (p0 : Vec F S4096x64 .f32) (y : S4096x64.Idx) :
    ∃ pc ∈ ([⟨r0_o, p0⟩] : List (View.Piece (Elt F) S4096x64 .f32)), y ∈ pc.1.set :=
  View.cover_of_tiled [⟨r0_o, p0⟩] S4096x64.size (by rfl) y

/-! ## The body's triple -/

set_option maxHeartbeats 1000000 in
/-- On whole staging buffers, the inputs at `x0`, `x1` and the output at anything, the body ends with the inputs as
    they were and the output at the product block. -/
theorem sound_kernel0 (c : Dev nD) (E : Set ℕ) (i : grid0.Coords) (arg1 : Memref sig .tc .vmem S4096x1 .f32) (harg1 : arg1.IsWhole)
    (arg2 : Memref sig .tc .vmem S1x64 .f32) (harg2 : arg2.IsWhole) (arg3 : Memref sig .tc .vmem S4096x64 .f32) (harg3 : arg3.IsWhole)
    (x0 : Vec F S4096x1 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    output's at the product block; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- The first layer's combine step, one block of 4096 nodes per grid point (32 points). Window 0 is the block of
   transformed features (4096 x 64), window 1 the block of aggregated messages (4096 x 64), window 2 the block of
   inverse square-root degrees (4096 x 1), window 3 the bias row (1 x 64), window 4 the output block (4096 x 64).
   At a point the body stores, over the whole output block, the larger of zero and
   (messages + (degree factor squared) * features) + bias. Stated at the contents `V` the region is entered with. -/
import proofs.«410829_j31533649887385_2_alg».proof.Proof.Gen.Kernel.Launch
import proofs.«410829_j31533649887385_2_alg».proof.Proof.Gen.Kernel.Skeleton
import proofs.«410829_j31533649887385_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input block is in its staging buffer at every point (the bias row is fetched once and never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_m : Rect S4096x64 := Rect.unit (s := S4096x64) ![0, 0] S4096x64.size inb_S4096x64_S4096x64_0_0
abbrev r1_d : Rect S4096x1 := Rect.unit (s := S4096x1) ![0, 0] S4096x1.size inb_S4096x1_S4096x1_0_0
abbrev r1_b : Rect S1x64 := Rect.unit (s := S1x64) ![0, 0] S1x64.size inb_S1x64_S1x64_0_0

/-! ## What the body leaves in the output block -/

/-- The combined block: the one store, whole, over the four input blocks (features, messages, degree factors,
    bias). -/
def out1_4 (xh xa : Vec F S4096x64 .f32) (xd : Vec F S4096x1 .f32) (xb : Vec F S1x64 .f32) : Vec F S4096x64 .f32 :=
  View.canon [⟨r1_m, k1_pay1 (View.ld xd r1_d) (View.ld xh r1_m) (View.ld xa r1_m) (View.ld xb r1_b)⟩]

/-- The one store covers the block. -/
theorem cover1_4 (p0 : Vec F S4096x64 .f32) (y : S4096x64.Idx) :
    ∃ pc ∈ ([⟨r1_m, p0⟩] : List (View.Piece (Elt F) S4096x64 .f32)), y ∈ pc.1.set :=
  View.cover_of_tiled [⟨r1_m, p0⟩] S4096x64.size (by rfl) y

/-! ## The body's triple -/

set_option maxHeartbeats 1000000 in
/-- On whole staging buffers, the inputs at their contents and the output at anything, the body ends with the
    inputs as they were and the output at the combined block. -/
theorem sound_kernel1 (c : Dev nD) (E : Set ℕ) (i : grid1.Coords) (arg1 : Memref sig .tc .vmem S4096x64 .f32) (harg1 : arg1.IsWhole)
    (arg2 : Memref sig .tc .vmem S4096x64 .f32) (harg2 : arg2.IsWhole) (arg3 : Memref sig .tc .vmem S4096x1 .f32) (harg3 : arg3.IsWhole)
    (arg4 : Memref sig .tc .vmem S1x64 .f32) (harg4 : arg4.IsWhole) (arg5 : Memref sig .tc .vmem S4096x64 .f32) (harg5 : arg5.IsWhole)
    (xh xa : Vec F S4096x64 .f32) (xd : Vec F S4096x1 .f32) (xb : Vec F S1x64 .f32) (K : PUnit → sProp 𝕄) :
    iprop(owns (c : Thread nD τ) arg1 fullShare xh ∗ owns (c : Thread nD τ) arg2 fullShare xa ∗ owns (c : Thread nD τ) arg3 fullShare xd
        ∗ owns (c : Thread nD τ) arg4 fullShare xb ∗ (∃ d, owns (c : Thread nD τ) arg5 fullShare d)
        ∗ (iprop(owns (c : Thread nD τ) arg1 fullShare xh ∗ owns (c : Thread nD τ) arg2 fullShare xa ∗ owns (c : Thread nD τ) arg3 fullShare xd
            ∗ owns (c : Thread nD τ) arg4 fullShare xb ∗ owns (c : Thread nD τ) arg5 fullShare (out1_4 xh xa xd xb)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The arrays as the region finds them; after the body at point `t` each input's buffer at its block and the
    output's at the combined block; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- The second dense layer's linear map, one block of 4096 nodes per grid point (32 points).
   Window 0 is the block of first-layer features (4096 x 64), window 1 the whole weight matrix (64 x 64), window 2 the
   block of the product (4096 x 64). At a point the body reads both inputs whole and stores the product of the
   two, a matrix product onto a zero accumulator, over the whole output block; nothing else is kept between
   points. Stated at the contents `V` the region is entered with: what each input block is, what the body
   leaves in the output block, the body's triple and the obligation at every point. -/
import proofs.«410829_j31533649887385_2_alg».proof.Proof.Gen.Kernel.Launch
import proofs.«410829_j31533649887385_2_alg».proof.Proof.Gen.Kernel.Skeleton
import proofs.«410829_j31533649887385_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature block is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix is in its staging buffer at every point: fetched once, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S4096x64 := Rect.unit (s := S4096x64) ![0, 0] S4096x64.size inb_S4096x64_S4096x64_0_0
abbrev r2_w : Rect S64x64 := Rect.unit (s := S64x64) ![0, 0] S64x64.size inb_S64x64_S64x64_0_0
abbrev r2_o : Rect S4096x64 := Rect.unit (s := S4096x64) ![0, 0] S4096x64.size inb_S4096x64_S4096x64_0_0

/-! ## What the body leaves in the output block -/

/-- The product block: the one store, whole, of the matrix product of the two input blocks. -/
def out2_2 (x0 : Vec F S4096x64 .f32) (x1 : Vec F S64x64 .f32) : Vec F S4096x64 .f32 :=
  View.canon [⟨r2_o, k2_pay1 (View.ld x0 r2_x) (View.ld x1 r2_w)⟩]

/-- The one store covers the block. -/
theorem cover2_2 (p0 : Vec F S4096x64 .f32) (y : S4096x64.Idx) :
    ∃ pc ∈ ([⟨r2_o, p0⟩] : List (View.Piece (Elt F) S4096x64 .f32)), y ∈ pc.1.set :=
  View.cover_of_tiled [⟨r2_o, p0⟩] S4096x64.size (by rfl) y

/-! ## The body's triple -/

set_option maxHeartbeats 1000000 in
/-- On whole staging buffers, the inputs at `x0`, `x1` and the output at anything, the body ends with the inputs as
    they were and the output at the product block. -/
theorem sound_kernel2 (c : Dev nD) (E : Set ℕ) (i : grid2.Coords) (arg1 : Memref sig .tc .vmem S4096x64 .f32) (harg1 : arg1.IsWhole)
    (arg2 : Memref sig .tc .vmem S64x64 .f32) (harg2 : arg2.IsWhole) (arg3 : Memref sig .tc .vmem S4096x64 .f32) (harg3 : arg3.IsWhole)
    (x0 : Vec F S4096x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__transform_kernel i arg1 harg1 arg2 harg2 arg3 harg3) K := by
  simp only [cc2__transform_kernel_eq_skeleton]; unfold cc2__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each input's buffer at its block and the
    output's at the product block; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/- The second layer's combine step, one block of 4096 nodes per grid point (32 points). Window 0 is the block of
   transformed features (4096 x 64), window 1 the block of aggregated messages (4096 x 64), window 2 the block of
   inverse square-root degrees (4096 x 1), window 3 the bias row (1 x 64), window 4 the output block (4096 x 64).
   At a point the body stores, over the whole output block, the larger of zero and
   (messages + (degree factor squared) * features) + bias. Stated at the contents `V` the region is entered with. -/
import proofs.«410829_j31533649887385_2_alg».proof.Proof.Gen.Kernel.Launch
import proofs.«410829_j31533649887385_2_alg».proof.Proof.Gen.Kernel.Skeleton
import proofs.«410829_j31533649887385_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input block is in its staging buffer at every point (the bias row is fetched once and never moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_m : Rect S4096x64 := Rect.unit (s := S4096x64) ![0, 0] S4096x64.size inb_S4096x64_S4096x64_0_0
abbrev r3_d : Rect S4096x1 := Rect.unit (s := S4096x1) ![0, 0] S4096x1.size inb_S4096x1_S4096x1_0_0
abbrev r3_b : Rect S1x64 := Rect.unit (s := S1x64) ![0, 0] S1x64.size inb_S1x64_S1x64_0_0

/-! ## What the body leaves in the output block -/

/-- The combined block: the one store, whole, over the four input blocks (features, messages, degree factors,
    bias). -/
def out3_4 (xh xa : Vec F S4096x64 .f32) (xd : Vec F S4096x1 .f32) (xb : Vec F S1x64 .f32) : Vec F S4096x64 .f32 :=
  View.canon [⟨r3_m, k3_pay1 (View.ld xd r3_d) (View.ld xh r3_m) (View.ld xa r3_m) (View.ld xb r3_b)⟩]

/-- The one store covers the block. -/
theorem cover3_4 (p0 : Vec F S4096x64 .f32) (y : S4096x64.Idx) :
    ∃ pc ∈ ([⟨r3_m, p0⟩] : List (View.Piece (Elt F) S4096x64 .f32)), y ∈ pc.1.set :=
  View.cover_of_tiled [⟨r3_m, p0⟩] S4096x64.size (by rfl) y

/-! ## The body's triple -/

set_option maxHeartbeats 1000000 in
/-- On whole staging buffers, the inputs at their contents and the output at anything, the body ends with the
    inputs as they were and the output at the combined block. -/
theorem sound_kernel3 (c : Dev nD) (E : Set ℕ) (i : grid3.Coords) (arg1 : Memref sig .tc .vmem S4096x64 .f32) (harg1 : arg1.IsWhole)
    (arg2 : Memref sig .tc .vmem S4096x64 .f32) (harg2 : arg2.IsWhole) (arg3 : Memref sig .tc .vmem S4096x1 .f32) (harg3 : arg3.IsWhole)
    (arg4 : Memref sig .tc .vmem S1x64 .f32) (harg4 : arg4.IsWhole) (arg5 : Memref sig .tc .vmem S4096x64 .f32) (harg5 : arg5.IsWhole)
    (xh xa : Vec F S4096x64 .f32) (xd : Vec F S4096x1 .f32) (xb : Vec F S1x64 .f32) (K : PUnit → sProp 𝕄) :
    iprop(owns (c : Thread nD τ) arg1 fullShare xh ∗ owns (c : Thread nD τ) arg2 fullShare xa ∗ owns (c : Thread nD τ) arg3 fullShare xd
        ∗ owns (c : Thread nD τ) arg4 fullShare xb ∗ (∃ d, owns (c : Thread nD τ) arg5 fullShare d)
        ∗ (iprop(owns (c : Thread nD τ) arg1 fullShare xh ∗ owns (c : Thread nD τ) arg2 fullShare xa ∗ owns (c : Thread nD τ) arg3 fullShare xd
            ∗ owns (c : Thread nD τ) arg4 fullShare xb ∗ owns (c : Thread nD τ) arg5 fullShare (out3_4 xh xa xd xb)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The arrays as the region finds them; after the body at point `t` each input's buffer at its block and the
    output's at the combined block; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/- The pooling reduction: 16 grid points, each a block of 8192 nodes. Window 0 is the block of graph ids
   (1 x 8192), windows 1 and 2 the blocks of the two layers' node features (8192 x 64), window 3 the pooled sums
   (64 x 128) and window 4 the per-graph counts (64 x 1); both outputs are stored, and written back, at the last
   point only. Three scratch buffers carry the running sums between points: the first point clears them, every
   point adds its block's one-hot products (and the one-hot row sums) to them, the last point copies them into the
   two output blocks. Stated at the contents `V` the region is entered with. -/
import proofs.«410829_j31533649887385_2_alg».proof.Proof.Gen.Kernel.Launch
import proofs.«410829_j31533649887385_2_alg».proof.Proof.Gen.Kernel.Skeleton
import proofs.«410829_j31533649887385_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The scratch buffers and the running sums -/

/-- The three scratch buffers: the two layers' running sums and the running counts. -/
abbrev scM4_0 : Memref sig .tc .vmem S64x64 .f32 := Memref.whole cc4_scratch0
abbrev scM4_1 : Memref sig .tc .vmem S64x64 .f32 := Memref.whole cc4_scratch1
abbrev scM4_2 : Memref sig .tc .vmem S64x1 .f32 := Memref.whole cc4_scratch2

/-- The three running sums together. -/
abbrev Acc4 (F : FTy → Type) [FloatOps F] : Type := Vec F S64x64 .f32 × Vec F S64x64 .f32 × Vec F S64x1 .f32

/-- What the first point's clearing leaves: zeros. -/
def zero4 : Acc4 F := (k4_pay2, k4_pay3, k4_pay4)

/-- One point's update: each running sum plus the one-hot product of the point's id block with the point's
    feature block; the running counts plus the one-hot rows' sums. -/
def step4 (b : Vec F S1x8192 .i32) (x1 x2 : Vec F S8192x64 .f32) (p : Acc4 F) : Acc4 F :=
  (k4_pay6 b p.1 x1, k4_pay7 b p.2.1 x2, k4_pay1 (k4_pay8 b p.2.2))

/-- The running sums after point `n`: the first point starts from zeros, every later one from what the point
    before left. -/
def accs (c : Dev nD) : (n : ℕ) → n < cfg4.N → Acc4 F
  | 0, hn => step4 (iblk4 V c 0 ⟨0, hn⟩) (iblk4 V c 1 ⟨0, hn⟩) (iblk4 V c 2 ⟨0, hn⟩) zero4
  | n + 1, hn => step4 (iblk4 V c 0 ⟨n + 1, hn⟩) (iblk4 V c 1 ⟨n + 1, hn⟩) (iblk4 V c 2 ⟨n + 1, hn⟩) (accs c n (Nat.lt_of_succ_lt hn))

theorem accs_zero (c : Dev nD) (hn : 0 < cfg4.N) :
    accs V c 0 hn = step4 (iblk4 V c 0 ⟨0, hn⟩) (iblk4 V c 1 ⟨0, hn⟩) (iblk4 V c 2 ⟨0, hn⟩) zero4 := rfl
theorem accs_succ (c : Dev nD) (n : ℕ) (hn : n + 1 < cfg4.N) :
    accs V c (n + 1) hn = step4 (iblk4 V c 0 ⟨n + 1, hn⟩) (iblk4 V c 1 ⟨n + 1, hn⟩) (iblk4 V c 2 ⟨n + 1, hn⟩) (accs V c n (Nat.lt_of_succ_lt hn)) := rfl

/-! ## What the last point leaves in the two output blocks -/

abbrev r4_lo : Rect S64x128 := Rect.unit (s := S64x128) ![0, 0] S64x64.size inb_S64x128_S64x64_0_0
abbrev r4_hi : Rect S64x128 := Rect.unit (s := S64x128) ![0, 64] S64x64.size inb_S64x128_S64x64_0_64
abbrev r4_c : Rect S64x1 := Rect.unit (s := S64x1) ![0, 0] S64x1.size inb_S64x1_S64x1_0_0

/-- The pooled sums' block: the first layer's sums in columns 0..63, the second's in columns 64..127 (the later
    store first). -/
def out4_3 (a1 a2 : Vec F S64x64 .f32) : Vec F S64x128 .f32 :=
  View.canon [⟨r4_hi, a2⟩, ⟨r4_lo, a1⟩]
/-- The counts' block. -/
def out4_4 (ac : Vec F S64x1 .f32) : Vec F S64x1 .f32 :=
  View.canon [⟨r4_c, ac⟩]

/-! ## The invariant between points, and the proof data -/

/-- Before the first point the scratch buffers hold anything; after point `n` they hold the running sums. -/
def Phi4 (c : Dev nD) : (n : ℕ) → n ≤ cfg4.N → sProp 𝕄
  | 0, _ => Pipeline.ΦA spec4 c
  | n + 1, hn => iprop(owns (c : Thread nD τ) scM4_0 fullShare (accs V c n hn).1
      ∗ owns (c : Thread nD τ) scM4_1 fullShare (accs V c n hn).2.1
      ∗ owns (c : Thread nD τ) scM4_2 fullShare (accs V c n hn).2.2
      ∗ Pipeline.scopedRestBut (Ix := Unit) (Name := ℕ) (U := UR sig nD τ) (Lvl := ℕ) (Val := Elt F) spec4 c [cc4_scratch0, cc4_scratch1, cc4_scratch2]
      ∗ (∃ r, prngReg c r))

theorem Phi4_zero (c : Dev nD) (h : 0 ≤ cfg4.N) : Phi4 V c 0 h = Pipeline.ΦA spec4 c := rfl
theorem Phi4_succ (c : Dev nD) (n : ℕ) (hn : n < cfg4.N) :
    Phi4 V c (n + 1) hn = iprop(owns (c : Thread nD τ) scM4_0 fullShare (accs V c n hn).1
      ∗ owns (c : Thread nD τ) scM4_1 fullShare (accs V c n hn).2.1
      ∗ owns (c : Thread nD τ) scM4_2 fullShare (accs V c n hn).2.2
      ∗ Pipeline.scopedRestBut (Ix := Unit) (Name := ℕ) (U := UR sig nD τ) (Lvl := ℕ) (Val := Elt F) spec4 c [cc4_scratch0, cc4_scratch1, cc4_scratch2]
      ∗ (∃ r, prngReg c r)) := rfl

/-- The arrays as the region finds them; after the body at point `t` each input's buffer at its block, the two
    outputs' at the running sums laid out (read at the last point only); the invariant the running sums'. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (accs V c t.val t.isLt).1 (accs V c t.val t.isLt).2.1
    | ⟨4, _⟩ => out4_4 (accs V c t.val t.isLt).2.2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (accs V c t.val t.isLt).1 (accs V c t.val t.isLt).2.1 := by dsimp only [dat4]
theorem after4_4 (c : Dev nD) (t : Fin cfg4.N) : (dat4 V c).after 4 t = out4_4 (accs V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## Whole-buffer loads and stores -/

theorem hz4 : (![0, 0] : Fin 2 → Nat) = fun _ => 0 := funext fun a => by fin_cases a <;> rfl

/-- A load through the whole rectangle reads the contents. -/
theorem readAt_whole4 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a last store through the whole rectangle the buffer reads that store's payload. -/
theorem read_store_whole4 {κ : Kind} {sp : Space} {S : Shape} {e : EltTy} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-- The two column halves tile the pooled sums' block, whatever they carry. -/
theorem cover4_3 (p1 p2 : Vec F S64x64 .f32) (y : S64x128.Idx) :
    ∃ pc ∈ ([⟨r4_hi, p2⟩, ⟨r4_lo, p1⟩] : List (View.Piece (Elt F) S64x128 .f32)), y ∈ pc.1.set :=
  View.cover_of_tiledL [⟨r4_hi, p2⟩, ⟨r4_lo, p1⟩] S64x64.size (by sl_kernel_rfl) y

/-- The counts' block is one store. -/
theorem cover4_4 (p : Vec F S64x1 .f32) (y : S64x1.Idx) :
    ∃ pc ∈ ([⟨r4_c, p⟩] : List (View.Piece (Elt F) S64x1 .f32)), y ∈ pc.1.set :=
  View.cover_of_tiledL [⟨r4_c, p⟩] S64x1.size (by sl_kernel_rfl) y

/-- The two column stores, over anything, leave the pooled sums' block. -/
theorem read_store4_3 {κ : Kind} {sp : Space} (v : View sig κ sp S64x128 .f32) (f : v.ty.Contents (Elt F)) (p1 p2 : Vec F S64x64 .f32) :
    v.read (Elt F) (v.writes (Elt F) f [⟨r4_hi, p2⟩, ⟨r4_lo, p1⟩]) = out4_3 p1 p2 :=
  View.read_writes_eq_canon _ _ _ (cover4_3 p1 p2)

/-- The one store, over anything, leaves the counts' block. -/
theorem read_store4_4 {κ : Kind} {sp : Space} (v : View sig κ sp S64x1 .f32) (f : v.ty.Contents (Elt F)) (p : Vec F S64x1 .f32) :
    v.read (Elt F) (v.writes (Elt F) f [⟨r4_c, p⟩]) = out4_4 p :=
  View.read_writes_eq_canon _ _ _ (cover4_4 p)

/-! ## The two conditions of the body, over the grid -/

/-- The first `scf.if`: the point is the first. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 16 = 0 :=
  (by decide +kernel : ∀ t : Fin grid4.N, cond4_0 (grid4.coords t) ↔ t.val % 16 = 0)

/-- The second `scf.if`: the point is the last. -/
abbrev cond4_1 (i : grid4.Coords) : Prop := k4_cond2 i = 1#1
theorem hcond4_1 : ∀ t : Fin cfg4.N, cond4_1 (grid4.coords t) ↔ t.val % 16 = 15 :=
  (by decide +kernel : ∀ t : Fin grid4.N, cond4_1 (grid4.coords t) ↔ t.val % 16 = 15)

/-- The inputs are never idle; the two outputs are idle, and not written back, exactly off the last point. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem idleAt4_4 : ∀ t : Fin cfg4.N, ¬cond4_1 (grid4.coords t) → cfg4.idle 4 (grid4.coords t) = true := by decide +kernel
theorem noFlush4_3 : ∀ t : Fin cfg4.N, ¬cond4_1 (grid4.coords t) → (cfg4.win 3).flush t = false := by decide +kernel
theorem noFlush4_4 : ∀ t : Fin cfg4.N, ¬cond4_1 (grid4.coords t) → (cfg4.win 4).flush t = false := by decide +kernel
theorem liveAt4_3 : ∀ t : Fin cfg4.N, cond4_1 (grid4.coords t) → cfg4.idle 3 (grid4.coords t) = false := by decide +kernel
theorem liveAt4_4 : ∀ t : Fin cfg4.N, cond4_1 (grid4.coords t) → cfg4.idle 4 (grid4.coords t) = false := by decide +kernel

/-! ## The body's triple, per control case -/

set_option maxHeartbeats 1000000 in
/-- The first point: the three scratch buffers hold anything; they are cleared, then one update is added. The two
    output buffers are not touched. -/
theorem sound_kernel4_A (c : Dev nD) (E : Set ℕ) (i : grid4.Coords) (arg1 : Memref sig .tc .vmem S1x8192 .i32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole)
    (hc0 : cond4_0 i) (hc1 : ¬cond4_1 i)
    (b : Vec F S1x8192 .i32) (x1 x2 : Vec F S8192x64 .f32) (K : PUnit → sProp 𝕄) :
    iprop(owns (c : Thread nD τ) arg1 fullShare b ∗ owns (c : Thread nD τ) arg2 fullShare x1 ∗ owns (c : Thread nD τ) arg3 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare b ∗ owns (c : Thread nD τ) arg2 fullShare x1 ∗ owns (c : Thread nD τ) arg3 fullShare x2
            ∗ owns (c : Thread nD τ) arg6 fullShare (step4 b x1 x2 zero4).1 ∗ owns (c : Thread nD τ) arg7 fullShare (step4 b x1 x2 zero4).2.1
            ∗ owns (c : Thread nD τ) arg8 fullShare (step4 b x1 x2 zero4).2.2) -∗ K ⟨⟩))
      ⊢ wp frame (wpE (defs₀ (F := F)) Variants.none c none) E (cc4__grouped_sum_kernel i arg1 harg1 arg2 harg2 arg3 harg3 arg4 harg4 arg5 harg5 arg6 harg6 arg7 harg7 arg8 harg8) K := by
  simp only [cc4__grouped_sum_kernel_eq_skeleton]; unfold cc4__grouped_sum_kernel_skel
  simp only [k4_part1_eq_skeleton]; unfold k4_part1_skel
  unfold owns step4 zero4
  iintro ⟨⟨%f1, %hf1, H1⟩, ⟨%f2, %hf2, H2⟩, ⟨%f3, %hf3, H3⟩, ⟨%d6, %f6, -, H6⟩, ⟨%d7, %f7, -, H7⟩, ⟨%d8, %f8, -, H8⟩, Hk⟩
  subst hf1; subst hf2; subst hf3
  sl_exec (disch := first | exact hc0 | exact hc1)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4, View.readCov_unit_zero (S := S64x64) _ hz4, View.readCov_unit_zero (S := S64x1) _ hz4]
  isplitl [H7]
  · iexists _; isplitr
    swap; · iexact H7
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4, View.readCov_unit_zero (S := S64x64) _ hz4, View.readCov_unit_zero (S := S64x1) _ hz4]
  iexists _; isplitr
  swap; · iexact H8
  ipureintro
  rw [read_store_whole4 (S := S64x1) _ _ hz4]
  simp only [readAt_whole4 (S := S1x8192) _ _ hz4, readAt_whole4 (S := S8192x64) _ _ hz4, readAt_whole4 (S := S64x64) _ _ hz4, readAt_whole4 (S := S64x1) _ _ hz4, View.readCov_unit_zero (S := S64x64) _ hz4, View.readCov_unit_zero (S := S64x1) _ hz4]

set_option maxHeartbeats 1000000 in
/-- A middle point: one update is added to what the point before left. The two output buffers are not touched. -/
theorem sound_kernel4_B (c : Dev nD) (E : Set ℕ) (i : grid4.Coords) (arg1 : Memref sig .tc .vmem S1x8192 .i32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole)
    (hc0 : ¬cond4_0 i) (hc1 : ¬cond4_1 i)
    (b : Vec F S1x8192 .i32) (x1 x2 : Vec F S8192x64 .f32) (p : Acc4 F) (K : PUnit → sProp 𝕄) :
    iprop(owns (c : Thread nD τ) arg1 fullShare b ∗ owns (c : Thread nD τ) arg2 fullShare x1 ∗ owns (c : Thread nD τ) arg3 fullShare x2
        ∗ owns (c : Thread nD τ) arg6 fullShare p.1 ∗ owns (c : Thread nD τ) arg7 fullShare p.2.1 ∗ owns (c : Thread nD τ) arg8 fullShare p.2.2
        ∗ (iprop(owns (c : Thread nD τ) arg1 fullShare b ∗ owns (c : Thread nD τ) arg2 fullShare x1 ∗ owns (c : Thread nD τ) arg3 fullShare x2
            ∗ owns (c : Thread nD τ) arg6 fullShare (step4 b x1 x2 p).1 ∗ owns (c : Thread nD τ) arg7 fullShare (step4 b x1 x2 p).2.1
            ∗ owns (c : Thread nD τ) arg8 fullShare (step4 b x1 x2 p).2.2) -∗ K ⟨⟩))
      ⊢ wp frame (wpE (defs₀ (F := F)) Variants.none c none) E (cc4__grouped_sum_kernel i arg1 harg1 arg2 harg2 arg3 harg3 arg4 harg4 arg5 harg5 arg6 harg6 arg7 harg7 arg8 harg8) K := by
  obtain ⟨a1, a2, ac⟩ := p
  simp only [cc4__grouped_sum_kernel_eq_skeleton]; unfold cc4__grouped_sum_kernel_skel
  simp only [k4_part1_eq_skeleton]; unfold k4_part1_skel
  unfold owns step4
  iintro ⟨⟨%f1, %hf1, H1⟩, ⟨%f2, %hf2, H2⟩, ⟨%f3, %hf3, H3⟩, ⟨%f6, %hf6, H6⟩, ⟨%f7, %hf7, H7⟩, ⟨%f8, %hf8, H8⟩, Hk⟩
  subst hf1; subst hf2; subst hf3; subst hf6; subst hf7; subst hf8
  sl_exec (disch := first | exact hc0 | exact hc1)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4]
  isplitl [H7]
  · iexists _; isplitr
    swap; · iexact H7
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4]
  iexists _; isplitr
  swap; · iexact H8
  ipureintro
  rw [read_store_whole4 (S := S64x1) _ _ hz4]
  simp only [readAt_whole4 (S := S1x8192) _ _ hz4, readAt_whole4 (S := S8192x64) _ _ hz4, readAt_whole4 (S := S64x64) _ _ hz4, readAt_whole4 (S := S64x1) _ _ hz4]

set_option maxHeartbeats 1000000 in
/-- The last point: one update is added to what the point before left, then the three running sums are copied into
    the two output buffers, which held anything. -/
theorem sound_kernel4_C (c : Dev nD) (E : Set ℕ) (i : grid4.Coords) (arg1 : Memref sig .tc .vmem S1x8192 .i32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole)
    (hc0 : ¬cond4_0 i) (hc1 : cond4_1 i)
    (b : Vec F S1x8192 .i32) (x1 x2 : Vec F S8192x64 .f32) (p : Acc4 F) (K : PUnit → sProp 𝕄) :
    iprop(owns (c : Thread nD τ) arg1 fullShare b ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare p.1 ∗ owns (c : Thread nD τ) arg7 fullShare p.2.1 ∗ owns (c : Thread nD τ) arg8 fullShare p.2.2
        ∗ (iprop(owns (c : Thread nD τ) arg1 fullShare b ∗ owns (c : Thread nD τ) arg2 fullShare x1 ∗ owns (c : Thread nD τ) arg3 fullShare x2
            ∗ owns (c : Thread nD τ) arg4 fullShare (out4_3 (step4 b x1 x2 p).1 (step4 b x1 x2 p).2.1) ∗ owns (c : Thread nD τ) arg5 fullShare (out4_4 (step4 b x1 x2 p).2.2)
            ∗ owns (c : Thread nD τ) arg6 fullShare (step4 b x1 x2 p).1 ∗ owns (c : Thread nD τ) arg7 fullShare (step4 b x1 x2 p).2.1
            ∗ owns (c : Thread nD τ) arg8 fullShare (step4 b x1 x2 p).2.2) -∗ K ⟨⟩))
      ⊢ wp frame (wpE (defs₀ (F := F)) Variants.none c none) E (cc4__grouped_sum_kernel i arg1 harg1 arg2 harg2 arg3 harg3 arg4 harg4 arg5 harg5 arg6 harg6 arg7 harg7 arg8 harg8) K := by
  obtain ⟨a1, a2, ac⟩ := p
  simp only [cc4__grouped_sum_kernel_eq_skeleton]; unfold cc4__grouped_sum_kernel_skel
  simp only [k4_part1_eq_skeleton]; unfold k4_part1_skel
  unfold owns step4
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
  subst hf1; subst hf2; subst hf3; subst hf6; subst hf7; subst hf8
  sl_exec (disch := first | exact hc0 | exact hc1)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    simp only [readAt_whole4 (S := S1x8192) _ _ hz4, readAt_whole4 (S := S8192x64) _ _ hz4, readAt_whole4 (S := S64x64) _ _ hz4, readAt_whole4 (S := S64x1) _ _ hz4, View.readCov_unit_zero (S := S64x64) _ hz4, View.readCov_unit_zero (S := S64x1) _ hz4]
    exact read_store4_3 _ _ _ _
  isplitl [H5]
  · iexists _; isplitr
    swap; · iexact H5
    ipureintro
    simp only [readAt_whole4 (S := S1x8192) _ _ hz4, readAt_whole4 (S := S8192x64) _ _ hz4, readAt_whole4 (S := S64x64) _ _ hz4, readAt_whole4 (S := S64x1) _ _ hz4, View.readCov_unit_zero (S := S64x64) _ hz4, View.readCov_unit_zero (S := S64x1) _ hz4]
    exact read_store4_4 _ _ _
  isplitl [H6]
  · iexists _; isplitr
    swap; · iexact H6
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4]
  isplitl [H7]
  · iexists _; isplitr
    swap; · iexact H7
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4]
  iexists _; isplitr
  swap; · iexact H8
  ipureintro
  rw [read_store_whole4 (S := S64x1) _ _ hz4]
  simp only [readAt_whole4 (S := S1x8192) _ _ hz4, readAt_whole4 (S := S8192x64) _ _ hz4, readAt_whole4 (S := S64x64) _ _ hz4, readAt_whole4 (S := S64x1) _ _ hz4]

/-! ## The running sums and the invariant at a point -/

theorem accs_first (c : Dev nD) (t : Fin cfg4.N) (h0 : t.val = 0) :
    accs V c t.val t.isLt = step4 (iblk4 V c 0 t) (iblk4 V c 1 t) (iblk4 V c 2 t) zero4 := by
  obtain ⟨n, hn⟩ := t
  cases n with
  | zero => rfl
  | succ n => exact absurd h0 (Nat.succ_ne_zero n)

theorem accs_pos (c : Dev nD) (t : Fin cfg4.N) (h0 : t.val ≠ 0) :
    accs V c t.val t.isLt = step4 (iblk4 V c 0 t) (iblk4 V c 1 t) (iblk4 V c 2 t)
      (accs V c (t.val - 1) (Nat.lt_of_le_of_lt (Nat.sub_le _ _) t.isLt)) := by
  obtain ⟨n, hn⟩ := t
  cases n with
  | zero => exact absurd rfl h0
  | succ n => rfl

theorem Phi4_first (c : Dev nD) (n : ℕ) (h : n ≤ cfg4.N) (hz : n = 0) : Phi4 V c n h = Pipeline.ΦA spec4 c := by
  subst hz; rfl

/-- Before a point that is not the first: the scratch buffers at what the point before left. -/
theorem Phi4_pos (c : Dev nD) (n : ℕ) (h : n ≤ cfg4.N) (hz : n ≠ 0) :
    Phi4 V c n h = iprop(owns (c : Thread nD τ) scM4_0 fullShare (accs V c (n - 1) (by omega)).1
      ∗ owns (c : Thread nD τ) scM4_1 fullShare (accs V c (n - 1) (by omega)).2.1
      ∗ owns (c : Thread nD τ) scM4_2 fullShare (accs V c (n - 1) (by omega)).2.2
      ∗ Pipeline.scopedRestBut (Ix := Unit) (Name := ℕ) (U := UR sig nD τ) (Lvl := ℕ) (Val := Elt F) spec4 c [cc4_scratch0, cc4_scratch1, cc4_scratch2]
      ∗ (∃ r, prngReg c r)) := by
  cases n with
  | zero => exact absurd rfl hz
  | succ n => rfl

theorem Phi4_castSucc (c : Dev nD) (t : Fin cfg4.N) :
    (dat4 V c).Φ t.castSucc = Phi4 V c t.val (Nat.le_of_lt t.isLt) := by
  dsimp only [dat4]; simp only [Fin.coe_castSucc]

/-- What the launch hands the region, with the three scratch buffers split out as memrefs owned at anything. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)
            ∗ (∃ d, owns (c : Thread nD τ) scM4_2 fullShare d))
          ∗ Pipeline.scopedRestBut (Ix := Unit) (Name := ℕ) (U := UR sig nD τ) (Lvl := ℕ) (Val := Elt F) spec4 c [cc4_scratch0, cc4_scratch1, cc4_scratch2])
        ∗ (∃ r, prngReg c r)) := by
  unfold Pipeline.ΦA; rw [scopedRest4_split]; simp only [scM4_0, scM4_1, scM4_2, owns_whole]; try rfl

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in
/-- The body at any point: the inputs' buffers hold their blocks; the closed forms of the two conditions say which
    case the point is in; the invariant hands the body the scratch buffers at what the point before left (at anything
    at the first point) and takes them back at this point's running sums; off the last point the two outputs'
    buffers go back as they came, at the last they hold the running sums laid out. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  have hN : t.val < 16 := lt_of_lt_of_eq t.isLt (show cfg4.N = 16 from N_4)
  by_cases h0 : t.val = 0
  · have hc0 : cond4_0 (grid4.coords t) := (hcond4_0 t).mpr (by omega)
    have hc1 : ¬cond4_1 (grid4.coords t) := fun h => by have := (hcond4_1 t).mp h; omega
    rw [Dat.leavesExact_idle (dat4 V c) 3 t (idleAt4_3 t hc1) (noFlush4_3 t hc1),
      Dat.leavesExact_idle (dat4 V c) 4 t (idleAt4_4 t hc1) (noFlush4_4 t hc1)]
    rw [accs_first V c t h0, Phi4_castSucc V c t, Phi4_first V c _ _ h0, PhiA4_eq]
    iintro ⟨⟨⟨⟨HS0, HS1, HS2⟩, HR⟩, Hg⟩, Ho, ⟨%d0, H0⟩, ⟨%d1, H1⟩, ⟨%d2, H2⟩, ⟨%d3, H3⟩, ⟨%d4, H4⟩⟩
    iapply (sound_kernel4_A c Set.univ (grid4.coords t) _ _ _ _ _ _ _ _ _ _ _ _ _ _ _ _ hc0 hc1 (iblk4 V c 0 t) (iblk4 V c 1 t) (iblk4 V c 2 t) _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HR Hg]
    · isplitl [HS0]; · iexact HS0
      isplitl [HS1]; · iexact HS1
      isplitl [HS2]; · iexact HS2
      isplitl [HR]; · iexact HR
      iexact Hg
    isplitl [Ho]; · iexact Ho
    isplitl [H0]; · iexact H0
    isplitl [H1]; · iexact H1
    isplitl [H2]; · iexact H2
    isplitl [H3]; · iexists d3; iexact H3
    iexists d4; iexact H4
  · have hc0 : ¬cond4_0 (grid4.coords t) := fun h => by have := (hcond4_0 t).mp h; omega
    rw [accs_pos V c t h0, Phi4_castSucc V c t, Phi4_pos V c _ _ h0]
    by_cases h1 : t.val = 15
    · have hc1 : cond4_1 (grid4.coords t) := (hcond4_1 t).mpr (by omega)
      rw [show (dat4 V c).leavesExact 3 t = owns (c : Thread nD τ) (st4_3 t) fullShare ((dat4 V c).after 3 t) from by
        unfold Dat.leavesExact; rw [liveAt4_3 t hc1], after4_3]
      rw [show (dat4 V c).leavesExact 4 t = owns (c : Thread nD τ) (st4_4 t) fullShare ((dat4 V c).after 4 t) from by
        unfold Dat.leavesExact; rw [liveAt4_4 t hc1], after4_4]
      rw [accs_pos V c t h0]
      iintro ⟨⟨HS0, HS1, HS2, HR, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ _ _ _ _ hc0 hc1 (iblk4 V c 0 t) (iblk4 V c 1 t) (iblk4 V c 2 t) _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => by have := (hcond4_1 t).mp h; omega
      rw [Dat.leavesExact_idle (dat4 V c) 3 t (idleAt4_3 t hc1) (noFlush4_3 t hc1),
        Dat.leavesExact_idle (dat4 V c) 4 t (idleAt4_4 t hc1) (noFlush4_4 t hc1)]
      iintro ⟨⟨HS0, HS1, HS2, HR, Hg⟩, Ho, ⟨%d0, H0⟩, ⟨%d1, H1⟩, ⟨%d2, H2⟩, ⟨%d3, H3⟩, ⟨%d4, H4⟩⟩
      iapply (sound_kernel4_B c Set.univ (grid4.coords t) _ _ _ _ _ _ _ _ _ _ _ _ _ _ _ _ hc0 hc1 (iblk4 V c 0 t) (iblk4 V c 1 t) (iblk4 V c 2 t) _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexact H2
      isplitl [H3]; · iexists d3; iexact H3
      iexists d4; iexact H4

/-! ## The three obligations -/

/-- The body at every point: from the invariant before the point and the windows' buffers, to the invariant
    after it and the buffers as the proof data say. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = Phi4 V c 0 (Nat.zero_le _) from rfl, Phi4_zero]

/-- After the last point the invariant gives the scoped rest back whole. -/
theorem hout4 (c : Dev nD) : (dat4 V c).Φ (Fin.last cfg4.N) ⊢ (Pipeline.ΦA spec4 c : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 16 := N_4; omega), PhiA4_eq]
  iintro ⟨HS0, HS1, HS2, HR, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end Cert.Kernel.Hand

end
-- ==== Proof.K.R5.lean ====
/- The linear head, one grid point. Window 0 is the pooled features (64 x 128), window 1 the head's weights
   (128 x 10), window 2 the head's bias row (1 x 10), window 3 the result (64 x 10). The body stores, over the whole
   result block, the matrix product of the two (onto a zero accumulator) plus the bias row on every row. Stated at
   the contents `V` the region is entered with. -/
import proofs.«410829_j31533649887385_2_alg».proof.Proof.Gen.Kernel.Launch
import proofs.«410829_j31533649887385_2_alg».proof.Proof.Gen.Kernel.Skeleton
import proofs.«410829_j31533649887385_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input block is in its staging buffer at the one point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_p : Rect S64x128 := Rect.unit (s := S64x128) ![0, 0] S64x128.size inb_S64x128_S64x128_0_0
abbrev r5_w : Rect S128x10 := Rect.unit (s := S128x10) ![0, 0] S128x10.size inb_S128x10_S128x10_0_0
abbrev r5_b : Rect S1x10 := Rect.unit (s := S1x10) ![0, 0] S1x10.size inb_S1x10_S1x10_0_0
abbrev r5_o : Rect S64x10 := Rect.unit (s := S64x10) ![0, 0] S64x10.size inb_S64x10_S64x10_0_0

/-! ## What the body leaves in the result block -/

/-- The result block: the one store, whole, over the three input blocks. -/
def out5_3 (xp : Vec F S64x128 .f32) (xw : Vec F S128x10 .f32) (xb : Vec F S1x10 .f32) : Vec F S64x10 .f32 :=
  View.canon [⟨r5_o, k5_pay1 (View.ld xp r5_p) (View.ld xw r5_w) (View.ld xb r5_b)⟩]

/-- The one store covers the block. -/
theorem cover5_3 (p0 : Vec F S64x10 .f32) (y : S64x10.Idx) :
    ∃ pc ∈ ([⟨r5_o, p0⟩] : List (View.Piece (Elt F) S64x10 .f32)), y ∈ pc.1.set :=
  View.cover_of_tiled [⟨r5_o, p0⟩] S64x10.size (by rfl) y

/-! ## The body's triple -/

set_option maxHeartbeats 1000000 in
/-- On whole staging buffers, the inputs at their contents and the result at anything, the body ends with the
    inputs as they were and the result at the result block. -/
theorem sound_kernel5 (c : Dev nD) (E : Set ℕ) (i : grid5.Coords) (arg1 : Memref sig .tc .vmem S64x128 .f32) (harg1 : arg1.IsWhole)
    (arg2 : Memref sig .tc .vmem S128x10 .f32) (harg2 : arg2.IsWhole) (arg3 : Memref sig .tc .vmem S1x10 .f32) (harg3 : arg3.IsWhole)
    (arg4 : Memref sig .tc .vmem S64x10 .f32) (harg4 : arg4.IsWhole)
    (xp : Vec F S64x128 .f32) (xw : Vec F S128x10 .f32) (xb : Vec F S1x10 .f32) (K : PUnit → sProp 𝕄) :
    iprop(owns (c : Thread nD τ) arg1 fullShare xp ∗ owns (c : Thread nD τ) arg2 fullShare xw ∗ owns (c : Thread nD τ) arg3 fullShare xb
        ∗ (∃ d, owns (c : Thread nD τ) arg4 fullShare d)
        ∗ (iprop(owns (c : Thread nD τ) arg1 fullShare xp ∗ owns (c : Thread nD τ) arg2 fullShare xw ∗ owns (c : Thread nD τ) arg3 fullShare xb
            ∗ owns (c : Thread nD τ) arg4 fullShare (out5_3 xp xw xb)) -∗ K ⟨⟩))
      ⊢ wp frame (wpE (defs₀ (F := F)) Variants.none c none) E (cc5__final_kernel i arg1 harg1 arg2 harg2 arg3 harg3 arg4 harg4) K := by
  simp only [cc5__final_kernel_eq_skeleton]; unfold cc5__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The arrays as the region finds them; after the body each input's buffer at its block and the result's at the
    result block; the scoped rest and the generator register untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at the one point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Fold.lean ====
/- The contents of every unscoped buffer at each boundary between the eleven items of the program: five stretches
   of host operations and six kernel regions. A host stretch replaces the buffers it writes by its operations'
   results; a region replaces each of its arrays by what its write-backs leave (an input array is never written,
   so it stays) and touches nothing else. What each boundary holds at a buffer that the item before it does not
   write is what the boundary before held. -/
import proofs.«410829_j31533649887385_2_alg».proof.Proof.K.R0
import proofs.«410829_j31533649887385_2_alg».proof.Proof.K.R1
import proofs.«410829_j31533649887385_2_alg».proof.Proof.K.R2
import proofs.«410829_j31533649887385_2_alg».proof.Proof.K.R3
import proofs.«410829_j31533649887385_2_alg».proof.Proof.K.R4
import proofs.«410829_j31533649887385_2_alg».proof.Proof.K.R5
import proofs.«410829_j31533649887385_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h

/-- After region 0: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Region 0 changes none of its input arrays: each is never written back. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- After the host stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) : W3 m c r = W2 m c r :=
  StableHlo.after_of_writes_sub hostOps1 _ hostOps1_writes h

/-- After region 1: its arrays at what the write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Region 1 changes none of its input arrays: each is never written back. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-- After region 2: its arrays at what the write-backs leave, every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- Region 2 changes none of its input arrays: each is never written back. -/
theorem W5_in (c : Dev nD) (w : Fin cfg2.W) (hw : (cfg2.win w).isOut = false) :
    W5 m c (Proc.devRef .tc (Pipeline.arrRef spec2 w)) = W4 m c (Proc.devRef .tc (Pipeline.arrRef spec2 w)) :=
  (W5_arr m c w).trans (((dat2 (V4 m) c).arrAt_in w hw _).trans (A_eq2 (V4 m) c w))

/-- After the host stretch `hostOps3`. -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b
theorem W6_of (c : Dev nD) (r : Ref sig .tc) (h : r ∉ hostOps3_W) : W6 m c r = W5 m c r :=
  StableHlo.after_of_writes_sub hostOps3 _ hostOps3_writes h

/-- After region 3: its arrays at what the write-backs leave, every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)
/-- Region 3 changes none of its input arrays: each is never written back. -/
theorem W7_in (c : Dev nD) (w : Fin cfg3.W) (hw : (cfg3.win w).isOut = false) :
    W7 m c (Proc.devRef .tc (Pipeline.arrRef spec3 w)) = W6 m c (Proc.devRef .tc (Pipeline.arrRef spec3 w)) :=
  (W7_arr m c w).trans (((dat3 (V6 m) c).arrAt_in w hw _).trans (A_eq3 (V6 m) c w))

/-- After the host stretch `hostOps4`. -/
abbrev W8 : Dev nD → Valuation τ sig (Elt F) := fun c => StableHlo.after hostOps4 (W7 m c)
abbrev V8 : (c : Dev nD) → (b : Ref sig .tc) → Buf (Elt F) ((c : Thread nD τ).loc b) := fun c b => W8 m c b
theorem W8_of (c : Dev nD) (r : Ref sig .tc) (h : r ∉ hostOps4_W) : W8 m c r = W7 m c r :=
  StableHlo.after_of_writes_sub hostOps4 _ hostOps4_writes h

/-- After region 4: its arrays at what the write-backs leave, every other buffer as entered. -/
def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)
/-- Region 4 changes none of its input arrays: each is never written back. -/
theorem W9_in (c : Dev nD) (w : Fin cfg4.W) (hw : (cfg4.win w).isOut = false) :
    W9 m c (Proc.devRef .tc (Pipeline.arrRef spec4 w)) = W8 m c (Proc.devRef .tc (Pipeline.arrRef spec4 w)) :=
  (W9_arr m c w).trans (((dat4 (V8 m) c).arrAt_in w hw _).trans (A_eq4 (V8 m) c w))

/-- After the host stretch `hostOps5`. -/
abbrev W10 : Dev nD → Valuation τ sig (Elt F) := fun c => StableHlo.after hostOps5 (W9 m c)
abbrev V10 : (c : Dev nD) → (b : Ref sig .tc) → Buf (Elt F) ((c : Thread nD τ).loc b) := fun c b => W10 m c b
theorem W10_of (c : Dev nD) (r : Ref sig .tc) (h : r ∉ hostOps5_W) : W10 m c r = W9 m c r :=
  StableHlo.after_of_writes_sub hostOps5 _ hostOps5_writes h

/-- After region 5: its arrays at what the write-backs leave, every other buffer as entered. -/
def W11 (c : Dev nD) : Valuation τ sig (Elt F) :=
  Pipeline.withArrays spec5 c (W10 m c) fun w => (dat5 (V10 m) c).arrAt w cfg5.N
theorem W11_arr (c : Dev nD) (w : Fin cfg5.W) :
    W11 m c (Proc.devRef .tc (Pipeline.arrRef spec5 w)) = (dat5 (V10 m) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb
abbrev V11 : (c : Dev nD) → (b : Ref sig .tc) → Buf (Elt F) ((c : Thread nD τ).loc b) := fun c b => W11 m c b
theorem hF5 (c : Dev nD) (w : Fin cfg5.W) : (dat5 (V10 m) c).arrAt w cfg5.N = V11 m c (Pipeline.arrRef spec5 w) :=
  (W11_arr m c w).symm
theorem hrest5 (c : Dev nD) : ∀ b, b ∉ Finset.univ.image (Pipeline.arrRef spec5) → V11 m c b = V10 m c b :=
  fun b hb => W11_of_ne m c b fun w e => hb (Finset.mem_image.mpr ⟨w, Finset.mem_univ _, e⟩)
/-- Region 5 changes none of its input arrays: each is never written back. -/
theorem W11_in (c : Dev nD) (w : Fin cfg5.W) (hw : (cfg5.win w).isOut = false) :
    W11 m c (Proc.devRef .tc (Pipeline.arrRef spec5 w)) = W10 m c (Proc.devRef .tc (Pipeline.arrRef spec5 w)) :=
  (W11_arr m c w).trans (((dat5 (V10 m) c).arrAt_in w hw _).trans (A_eq5 (V10 m) c w))

end Cert.Kernel.Hand

end
-- ==== Proof.K.Launch.lean ====
/- The program's run: @main as eleven segments, a host segment per stretch from its boundary's contents and a
   region segment per kernel call, each region entered from every unscoped buffer at the boundary before it and left
   at the boundary after it; its arrays split out of the unscoped buffers at entry and put back at exit; the
   generator register and the scoped rest into the region's invariant and out; nothing owed anywhere. Every weakly
   fair execution terminates with every unscoped buffer at the last boundary's contents: the arguments as launched
   (no item writes one) and the result buffer at what the last region's write-back leaves. -/
import proofs.«410829_j31533649887385_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the six pipelines, and what rides beside the buffers -/

/-- Every pipeline's proof data, each at the contents its region is entered with. -/
def pdats : (p : Fin 6) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
  | ⟨3, _⟩ => fun c => dat3 (V6 m) c
  | ⟨4, _⟩ => fun c => dat4 (V8 m) c
  | ⟨5, _⟩ => fun c => dat5 (V10 m) c

abbrev 𝒱₀ : Variants := Variants.none
/-- No core owes another anything, so no pair carries a level. -/
abbrev L : GSem nD τ sig → Finset Unit := fun _ => ∅
abbrev lv : GSem nD τ sig → Unit → ℕ := fun _ _ => 0

/-- Beside its buffers a core carries through every item its generator register, at some state, and its dues,
    which are none. -/
abbrev beside (c : Dev nD) : sProp 𝕄 :=
  iprop((∃ r, prngReg c r) ∗ ∃ W, owes (c : Thread nD τ) (0 : CellTallies nD τ sig Unit) W)

/-! ## Three small facts, at any pipeline -/

/-- No pipeline of this program prefetches a table: the tables held are nothing. -/
theorem noTables (p : Fin 6) (c : Dev nD) :
    (Pipeline.prefHeld (pcfgs (F := F) p).pre c (fun _ => fullShare) (adm p).1 : sProp 𝕄) = BI.emp := by
  unfold Pipeline.prefHeld
  rw [show (Finset.univ : Finset (Fin 0)) = ∅ from rfl, BI.bigSep_empty]

section Owing

variable {cfg : Cfg sig Λ₀} {c : Dev nD} (dat : Dat τ (Elt F) Unit ℕ (UR sig nD τ) ℕ cfg c)

/-- A core with no dues holds what a proof data owing nothing before point `t`, and bounding its recorded pairs
    by everything, asks there. -/
theorem owes_enter (t : Fin (cfg.N + 1)) (h0 : dat.owed t = 0) (hrec : ∀ x, x ∈ dat.recorded t) :
    (iprop(∃ W, owes (c : Thread nD τ) (0 : CellTallies nD τ sig Unit) W) : sProp 𝕄) ⊢ dat.owesAt () t := by
  unfold Pipeline.Dat.owesAt Pipeline.owesWithin
  rw [h0]
  iintro ⟨%W, Hdue⟩
  iexists W
  isplitr
  · ipureintro; exact fun x _ => Or.inl (hrec x)
  iexact Hdue

/-- And back: owing nothing before point `t`, the core has no dues. -/
theorem owes_leave (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, Hdue⟩
  iexists W
  iexact Hdue

end Owing

/-! ## A kernel region as a segment, at any pipeline

Pipeline `p`'s region is entered holding every unscoped buffer at contents `Win` and left holding them at `Wout`,
the generator register and the absent dues beside them both times. What is asked of `p`: its arrays are distinct
whole buffers (`lf`); its proof data read their entry contents off `Win` (`hA`), hold every array whole (`hq`),
owe nothing (`h0`, `hrec`) and meet the body's obligation (`hbody`); its invariant before the first point follows
from the scoped rest and the register, and gives them back after the last (`hΦin`, `hΦout`); and `Wout` is `Win`
with the arrays at what the write-backs leave (`hF`, `hrest`). -/

-- a library lemma stated over `pin pcs a p` is matched against this program's configurations only when unification
-- may unfold plain definitions in a metavariable's type
set_option backward.isDefEq.respectTransparency.types false in
def region (p : Fin 6) (lf : Pipeline.LaunchFacts (nD := nD) (τ := τ) cfgs p)
    (Win Wout : Dev nD → Valuation τ sig (Elt F))
    (hA : ∀ c w, (pdats m p c).A w = Win c (Proc.devRef .tc (Pipeline.arrRef (Pipeline.pin (pcfgs (F := F)) adm p).spec w)))
    (hq : ∀ c w, (pdats m p c).q w = fullShare)
    (h0 : ∀ c t, (pdats m p c).owed t = 0)
    (hrec : ∀ c t x, x ∈ (pdats m p c).recorded t)
    (hbody : ∀ c, BodyObligation (pdats m p c) (defs₀ (F := F)) Variants.none () Set.univ)
    (hΦin : ∀ c, (Pipeline.ΦA (Pipeline.pin (pcfgs (F := F)) adm p).spec c : sProp 𝕄) ⊢ (pdats m p c).Φ 0)
    (hΦout : ∀ c, (pdats m p c).Φ (Fin.last (Pipeline.pin (pcfgs (F := F)) adm p).N)
      ⊢ (Pipeline.ΦA (Pipeline.pin (pcfgs (F := F)) adm p).spec c : sProp 𝕄))
    (hF : ∀ c w, (pdats m p c).arrAt w (Pipeline.pin (pcfgs (F := F)) adm p).N
      = Wout c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec)
      → Wout c (Proc.devRef .tc b) = Win c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (Win c) ∗ beside c)
  post c := iprop(StableHlo.held (c : Thread nD τ) (Pipeline.ucRefs τ sig) (Wout c) ∗ beside c)
  X c := iprop(∃ r, prngReg c r)
  Y c := iprop(∃ r, prngReg c r)
  Z c := Pipeline.unscopedRest (Ix := Unit) (Name := ℕ) (U := UR sig nD τ) (Lvl := ℕ)
    (Pipeline.pin (pcfgs (F := F)) adm p).spec c (fun b => Win c (Proc.devRef .tc b))
  hentry c := by
    -- the unscoped buffers at `Win` are the arrays at their entry contents and the buffers off the arrays
    have hsplit := Pipeline.arrays_of_unscopedBufs (p := p) (pcfgs (F := F)) adm (pdats m) lf.win lf.arr_whole c
      ((pdats m p c).share_full (hq c)) (fun b => Win c (Proc.devRef .tc b)) (hA c)
    rw [Pipeline.unscopedBufs_held] at hsplit
    rw [Pipeline.ownSems0_none, noTables]
    iintro ⟨⟨Hbufs, Hreg, Hdue⟩, -, -⟩
    ihave Hparts := hsplit $$ Hbufs
    icases Hparts with ⟨Harr, Hoff⟩
    imodintro
    isplitl [Harr]; · iexact Harr
    isplitr; · iempintro
    isplitl [Hdue]
    · iapply (owes_enter (pdats m p c) 0 (h0 c 0) (hrec c 0)); iexact Hdue
    isplitl [Hreg]; · iexact Hreg
    iexact Hoff
  hin c := by
    refine .trans ?_ (hΦin c)
    unfold Pipeline.ΦA
    iintro ⟨Hreg, -, Hsc⟩
    isplitl [Hsc]; · iexact Hsc
    iexact Hreg
  hout c := by
    rw [Pipeline.ownSems0_none]
    refine (hΦout c).trans ?_
    unfold Pipeline.ΦA
    iintro ⟨Hsc, Hreg⟩
    isplitl [Hreg]; · iexact Hreg
    isplitr; · iempintro
    iexact Hsc
  hexit c := by
    -- the arrays at what the write-backs leave and the buffers off the arrays, as entered, are the unscoped buffers at `Wout`
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c (Proc.devRef .tc b)) (fun b => Wout c (Proc.devRef .tc b))
      ((pdats m p c).arrAt · (Pipeline.pin (pcfgs (F := F)) adm p).N) (hF c) (hrest c)
    rw [Pipeline.unscopedBufs_held] at hjoin
    iintro ⟨Harr, Hdue, Hreg, Hoff⟩
    imodintro
    isplitl [Harr Hoff]
    · iapply hjoin; isplitl [Harr] <;> iassumption
    isplitl [Hreg]; · iexact Hreg
    iapply (owes_leave (pdats m p c) _ (h0 c _)); iexact Hdue

set_option backward.isDefEq.respectTransparency.types false in
/-- Region 0: entered after the first host stretch, left at the second boundary. -/
def reg0 : Pipeline.RegionSeg (pcfgs (F := F)) adm (pdats m) () defs₀ 𝒱₀ L lv 0 :=
  region m 0 launch0 (W1 m) (W2 m) (fun _ _ => rfl) (fun _ _ => rfl) (fun _ _ => rfl) (fun _ _ _ => trivial)
    (body_obligation0 (V1 m)) (fun _ => .rfl) (fun _ => .rfl) (hF0 m) (hrest0 m)

set_option backward.isDefEq.respectTransparency.types false in
/-- Region 1: entered after the second host stretch. -/
def reg1 : Pipeline.RegionSeg (pcfgs (F := F)) adm (pdats m) () defs₀ 𝒱₀ L lv 1 :=
  region m 1 launch1 (W3 m) (W4 m) (fun _ _ => rfl) (fun _ _ => rfl) (fun _ _ => rfl) (fun _ _ _ => trivial)
    (body_obligation1 (V3 m)) (fun _ => .rfl) (fun _ => .rfl) (hF1 m) (hrest1 m)

set_option backward.isDefEq.respectTransparency.types false in
/-- Region 2: entered where region 1 is left, no host stretch between them. -/
def reg2 : Pipeline.RegionSeg (pcfgs (F := F)) adm (pdats m) () defs₀ 𝒱₀ L lv 2 :=
  region m 2 launch2 (W4 m) (W5 m) (fun _ _ => rfl) (fun _ _ => rfl) (fun _ _ => rfl) (fun _ _ _ => trivial)
    (body_obligation2 (V4 m)) (fun _ => .rfl) (fun _ => .rfl) (hF2 m) (hrest2 m)

set_option backward.isDefEq.respectTransparency.types false in
/-- Region 3: entered after the third host stretch. -/
def reg3 : Pipeline.RegionSeg (pcfgs (F := F)) adm (pdats m) () defs₀ 𝒱₀ L lv 3 :=
  region m 3 launch3 (W6 m) (W7 m) (fun _ _ => rfl) (fun _ _ => rfl) (fun _ _ => rfl) (fun _ _ _ => trivial)
    (body_obligation3 (V6 m)) (fun _ => .rfl) (fun _ => .rfl) (hF3 m) (hrest3 m)

set_option backward.isDefEq.respectTransparency.types false in
/-- Region 4: entered after the fourth host stretch. Its invariant carries the running sums in three scratch
    buffers, so it is reached from the scoped rest and the register, and gives them back, by the region's own two
    entailments. -/
def reg4 : Pipeline.RegionSeg (pcfgs (F := F)) adm (pdats m) () defs₀ 𝒱₀ L lv 4 :=
  region m 4 launch4 (W8 m) (W9 m) (fun _ _ => rfl) (fun _ _ => rfl) (fun _ _ => rfl) (fun _ _ _ => trivial)
    (body_obligation4 (V8 m)) (hin4 (V8 m)) (hout4 (V8 m)) (hF4 m) (hrest4 m)

set_option backward.isDefEq.respectTransparency.types false in
/-- Region 5: entered after the fifth host stretch, left at the last boundary. -/
def reg5 : Pipeline.RegionSeg (pcfgs (F := F)) adm (pdats m) () defs₀ 𝒱₀ L lv 5 :=
  region m 5 launch5 (W10 m) (W11 m) (fun _ _ => rfl) (fun _ _ => rfl) (fun _ _ => rfl) (fun _ _ _ => trivial)
    (body_obligation5 (V10 m)) (fun _ => .rfl) (fun _ => .rfl) (hF5 m) (hrest5 m)

/-! ## A buffer no item changes ends as launched -/

/-- A buffer that no host stretch writes, and that each region either has among none of its arrays or only reads,
    holds at the last boundary what the launch memory holds: the fold walks back through the eleven items. -/
theorem kept (c : Dev nD) (a : Ref sig .tc)
    (s0 : a ∉ hostOps0_W) (s1 : a ∉ hostOps1_W) (s3 : a ∉ hostOps3_W) (s4 : a ∉ hostOps4_W) (s5 : a ∉ hostOps5_W)
    (r0 : (∀ w, Pipeline.arrRef spec0 w ≠ a) ∨ ∃ w : Fin cfg0.W, Pipeline.arrRef spec0 w = a ∧ (cfg0.win w).isOut = false)
    (r1 : (∀ w, Pipeline.arrRef spec1 w ≠ a) ∨ ∃ w : Fin cfg1.W, Pipeline.arrRef spec1 w = a ∧ (cfg1.win w).isOut = false)
    (r2 : (∀ w, Pipeline.arrRef spec2 w ≠ a) ∨ ∃ w : Fin cfg2.W, Pipeline.arrRef spec2 w = a ∧ (cfg2.win w).isOut = false)
    (r3 : (∀ w, Pipeline.arrRef spec3 w ≠ a) ∨ ∃ w : Fin cfg3.W, Pipeline.arrRef spec3 w = a ∧ (cfg3.win w).isOut = false)
    (r4 : (∀ w, Pipeline.arrRef spec4 w ≠ a) ∨ ∃ w : Fin cfg4.W, Pipeline.arrRef spec4 w = a ∧ (cfg4.win w).isOut = false)
    (r5 : (∀ w, Pipeline.arrRef spec5 w ≠ a) ∨ ∃ w : Fin cfg5.W, Pipeline.arrRef spec5 w = a ∧ (cfg5.win w).isOut = false) :
    W11 m c (Proc.devRef .tc a) = m ((c : Thread nD τ).loc a) := by
  have e0 : W2 m c (Proc.devRef .tc a) = W1 m c (Proc.devRef .tc a) := by
    rcases r0 with h | ⟨w, rfl, hw⟩
    · exact W2_of_ne m c a h
    · exact W2_in m c w hw
  have e1 : W4 m c (Proc.devRef .tc a) = W3 m c (Proc.devRef .tc a) := by
    rcases r1 with h | ⟨w, rfl, hw⟩
    · exact W4_of_ne m c a h
    · exact W4_in m c w hw
  have e2 : W5 m c (Proc.devRef .tc a) = W4 m c (Proc.devRef .tc a) := by
    rcases r2 with h | ⟨w, rfl, hw⟩
    · exact W5_of_ne m c a h
    · exact W5_in m c w hw
  have e3 : W7 m c (Proc.devRef .tc a) = W6 m c (Proc.devRef .tc a) := by
    rcases r3 with h | ⟨w, rfl, hw⟩
    · exact W7_of_ne m c a h
    · exact W7_in m c w hw
  have e4 : W9 m c (Proc.devRef .tc a) = W8 m c (Proc.devRef .tc a) := by
    rcases r4 with h | ⟨w, rfl, hw⟩
    · exact W9_of_ne m c a h
    · exact W9_in m c w hw
  have e5 : W11 m c (Proc.devRef .tc a) = W10 m c (Proc.devRef .tc a) := by
    rcases r5 with h | ⟨w, rfl, hw⟩
    · exact W11_of_ne m c a h
    · exact W11_in m c w hw
  calc W11 m c (Proc.devRef .tc a)
    _ = W10 m c (Proc.devRef .tc a) := e5
    _ = W9 m c (Proc.devRef .tc a) := W10_of m c a s5
    _ = W8 m c (Proc.devRef .tc a) := e4
    _ = W7 m c (Proc.devRef .tc a) := W8_of m c a s4
    _ = W6 m c (Proc.devRef .tc a) := e3
    _ = W5 m c (Proc.devRef .tc a) := W6_of m c a s3
    _ = W4 m c (Proc.devRef .tc a) := e2
    _ = W3 m c (Proc.devRef .tc a) := e1
    _ = W2 m c (Proc.devRef .tc a) := W3_of m c a s1
    _ = W1 m c (Proc.devRef .tc a) := e0
    _ = W0 m c (Proc.devRef .tc a) := W1_of m c a s0
    _ = m ((c : Thread nD τ).loc a) := rfl

/-- Each argument ends as launched: no host stretch writes one, and a region that has one among its arrays reads it
    through an input window. -/
theorem W11_main_arg0 (c : Dev nD) : W11 m c (Proc.devRef .tc main_arg0) = m ((c : Thread nD τ).loc main_arg0) :=
  kept m c main_arg0 (by decide) (by decide) (by decide) (by decide) (by decide)
    (by decide) (by decide) (by decide) (by decide) (by decide) (by decide)
theorem W11_main_arg1 (c : Dev nD) : W11 m c (Proc.devRef .tc main_arg1) = m ((c : Thread nD τ).loc main_arg1) :=
  kept m c main_arg1 (by decide) (by decide) (by decide) (by decide) (by decide)
    (by decide) (by decide) (by decide) (by decide) (by decide) (by decide)
theorem W11_main_arg2 (c : Dev nD) : W11 m c (Proc.devRef .tc main_arg2) = m ((c : Thread nD τ).loc main_arg2) :=
  kept m c main_arg2 (by decide) (by decide) (by decide) (by decide) (by decide)
    (by decide) (by decide) (by decide) (by decide) (by decide) (by decide)
theorem W11_main_arg3 (c : Dev nD) : W11 m c (Proc.devRef .tc main_arg3) = m ((c : Thread nD τ).loc main_arg3) :=
  kept m c main_arg3 (by decide) (by decide) (by decide) (by decide) (by decide)
    (by decide) (by decide) (by decide) (by decide) (by decide) (by decide)
theorem W11_main_arg4 (c : Dev nD) : W11 m c (Proc.devRef .tc main_arg4) = m ((c : Thread nD τ).loc main_arg4) :=
  kept m c main_arg4 (by decide) (by decide) (by decide) (by decide) (by decide)
    (by decide) (by decide) (by decide) (by decide) (by decide) (by decide)
theorem W11_main_arg5 (c : Dev nD) : W11 m c (Proc.devRef .tc main_arg5) = m ((c : Thread nD τ).loc main_arg5) :=
  kept m c main_arg5 (by decide) (by decide) (by decide) (by decide) (by decide)
    (by decide) (by decide) (by decide) (by decide) (by decide) (by decide)
theorem W11_main_arg6 (c : Dev nD) : W11 m c (Proc.devRef .tc main_arg6) = m ((c : Thread nD τ).loc main_arg6) :=
  kept m c main_arg6 (by decide) (by decide) (by decide) (by decide) (by decide)
    (by decide) (by decide) (by decide) (by decide) (by decide) (by decide)
theorem W11_main_arg7 (c : Dev nD) : W11 m c (Proc.devRef .tc main_arg7) = m ((c : Thread nD τ).loc main_arg7) :=
  kept m c main_arg7 (by decide) (by decide) (by decide) (by decide) (by decide)
    (by decide) (by decide) (by decide) (by decide) (by decide) (by decide)
theorem W11_main_arg8 (c : Dev nD) : W11 m c (Proc.devRef .tc main_arg8) = m ((c : Thread nD τ).loc main_arg8) :=
  kept m c main_arg8 (by decide) (by decide) (by decide) (by decide) (by decide)
    (by decide) (by decide) (by decide) (by decide) (by decide) (by decide)

/-! ## @main as eleven segments, and the launch -/

/-- A host stretch as a segment over the unscoped buffers from contents `W`, left at `StableHlo.after ops (W c)`,
    the register and the absent dues riding along. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- @main's eleven items in order, each entered from the boundary the one before it leaves. -/
abbrev items : List (Pipeline.Seg (pcfgs (F := F)) adm (pdats m) () defs₀ 𝒱₀ L lv) :=
  [ .host (host hostOps0 hostOps0_sub hostOps0_fresh (W0 m)),
    .region (reg0 m),
    .host (host hostOps1 hostOps1_sub hostOps1_fresh (W2 m)),
    .region (reg1 m),
    .region (reg2 m),
    .host (host hostOps3 hostOps3_sub hostOps3_fresh (W5 m)),
    .region (reg3 m),
    .host (host hostOps4 hostOps4_sub hostOps4_fresh (W7 m)),
    .region (reg4 m),
    .host (host hostOps5 hostOps5_sub hostOps5_fresh (W9 m)),
    .region (reg5 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- Every weakly fair execution terminates, nothing faulting, with the result buffer at the last boundary's
    contents and every argument as launched. -/
theorem run_result : θ_run defs (onTc (τ := τ) (main (F := F))) ⟨m, fun _ => 0, ρ⟩ (fun r => ∀ c : Dev nD,
      r.2.mem ((c.tc : Thread nD τ).loc main_v68) = W11 m c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (items m)
    (fun c Q => by
      -- @main is the chain of its eleven items, and so is the segments' run
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        -- the last boundary, regrouped: the buffers and the register, beside the absent dues
        show (iprop(StableHlo.held (c : Thread nD τ) (Pipeline.ucRefs τ sig) (W11 m c)
            ∗ (∃ r, prngReg c r) ∗ ∃ W, owes (c : Thread nD τ) (0 : CellTallies nD τ sig Unit) W) : sProp 𝕄) ⊢ _
        iintro ⟨Hbufs, Hreg, Hdue⟩
        isplitr [Hdue]
        · isplitl [Hbufs]; · iexact Hbufs
          iexact Hreg
        iexact Hdue⟩)
    (hinit := by
      -- each core makes its first thread state from what the launch deals it
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem (((c : Thread nD τ)).1, b) = W11 m c b)
    (hfin := fun c s' => by
      -- the last thread state, read against a final state: every unscoped buffer holds the last boundary's contents
      iintro ⟨⟨Hbufs, -⟩, HSI⟩
      unfold StableHlo.held
      imodintro
      iapply (pointsTo_read_all (Pipeline.ucRefs τ sig) (fun b => (((c : Thread nD τ)).1, b)) (W11 m c) s')
      isplitl [Hbufs] <;> iassumption)
    (hQ := fun s h c =>
      ⟨h c _ (mem_uc main_v68 (by decide)),
       (h c _ (mem_uc main_arg0 (by decide))).trans (W11_main_arg0 m c),
       (h c _ (mem_uc main_arg1 (by decide))).trans (W11_main_arg1 m c),
       (h c _ (mem_uc main_arg2 (by decide))).trans (W11_main_arg2 m c),
       (h c _ (mem_uc main_arg3 (by decide))).trans (W11_main_arg3 m c),
       (h c _ (mem_uc main_arg4 (by decide))).trans (W11_main_arg4 m c),
       (h c _ (mem_uc main_arg5 (by decide))).trans (W11_main_arg5 m c),
       (h c _ (mem_uc main_arg6 (by decide))).trans (W11_main_arg6 m c),
       (h c _ (mem_uc main_arg7 (by decide))).trans (W11_main_arg7 m c),
       (h c _ (mem_uc main_arg8 (by decide))).trans (W11_main_arg8 m c)⟩)

/-- The frame: the same run, the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_result m ρ)

end Cert.Kernel.Hand

end
-- ==== Proof.KI.R0.lean ====
/- The first dense layer's linear map, one block of 4096 nodes per grid point (32 points).
   Window 0 is the block of node features (4096 x 1), window 1 the whole weight row (1 x 64), window 2 the
   block of the product (4096 x 64). At a point the body reads both inputs whole and stores the product of the
   two, a matrix product onto a zero accumulator, over the whole output block; nothing else is kept between
   points. Stated at the contents `V` the region is entered with: what each input block is, what the body
   leaves in the output block, the body's triple and the obligation at every point. -/
import proofs.«410829_j31533649887385_2_alg».proof.Proof.Gen.KernelIdeal.Launch
import proofs.«410829_j31533649887385_2_alg».proof.Proof.Gen.KernelIdeal.Skeleton
import proofs.«410829_j31533649887385_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight row is in its staging buffer at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S4096x1 := Rect.unit (s := S4096x1) ![0, 0] S4096x1.size inb_S4096x1_S4096x1_0_0
abbrev r0_w : Rect S1x64 := Rect.unit (s := S1x64) ![0, 0] S1x64.size inb_S1x64_S1x64_0_0
abbrev r0_o : Rect S4096x64 := Rect.unit (s := S4096x64) ![0, 0] S4096x64.size inb_S4096x64_S4096x64_0_0

/-! ## What the body leaves in the output block -/

/-- The product block: the one store, whole, of the matrix product of the two input blocks. -/
def out0_2 (x0 : Vec F S4096x1 .f32) (x1 : Vec F S1x64 .f32) : Vec F S4096x64 .f32 :=
  View.canon [⟨r0_o, k0_pay1 (View.ld x0 r0_x) (View.ld x1 r0_w)⟩]

/-- The one store covers the block. -/
theorem cover0_2 (p0 : Vec F S4096x64 .f32) (y : S4096x64.Idx) :
    ∃ pc ∈ ([⟨r0_o, p0⟩] : List (View.Piece (Elt F) S4096x64 .f32)), y ∈ pc.1.set :=
  View.cover_of_tiled [⟨r0_o, p0⟩] S4096x64.size (by rfl) y

/-! ## The body's triple -/

set_option maxHeartbeats 1000000 in
/-- On whole staging buffers, the inputs at `x0`, `x1` and the output at anything, the body ends with the inputs as
    they were and the output at the product block. -/
theorem sound_kernel0 (c : Dev nD) (E : Set ℕ) (i : grid0.Coords) (arg1 : Memref sig .tc .vmem S4096x1 .f32) (harg1 : arg1.IsWhole)
    (arg2 : Memref sig .tc .vmem S1x64 .f32) (harg2 : arg2.IsWhole) (arg3 : Memref sig .tc .vmem S4096x64 .f32) (harg3 : arg3.IsWhole)
    (x0 : Vec F S4096x1 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    output's at the product block; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- The first layer's combine step, one block of 4096 nodes per grid point (32 points). Window 0 is the block of
   transformed features (4096 x 64), window 1 the block of aggregated messages (4096 x 64), window 2 the block of
   inverse square-root degrees (4096 x 1), window 3 the bias row (1 x 64), window 4 the output block (4096 x 64).
   At a point the body stores, over the whole output block, the larger of zero and
   (messages + (degree factor squared) * features) + bias. Stated at the contents `V` the region is entered with. -/
import proofs.«410829_j31533649887385_2_alg».proof.Proof.Gen.KernelIdeal.Launch
import proofs.«410829_j31533649887385_2_alg».proof.Proof.Gen.KernelIdeal.Skeleton
import proofs.«410829_j31533649887385_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input block is in its staging buffer at every point (the bias row is fetched once and never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_m : Rect S4096x64 := Rect.unit (s := S4096x64) ![0, 0] S4096x64.size inb_S4096x64_S4096x64_0_0
abbrev r1_d : Rect S4096x1 := Rect.unit (s := S4096x1) ![0, 0] S4096x1.size inb_S4096x1_S4096x1_0_0
abbrev r1_b : Rect S1x64 := Rect.unit (s := S1x64) ![0, 0] S1x64.size inb_S1x64_S1x64_0_0

/-! ## What the body leaves in the output block -/

/-- The combined block: the one store, whole, over the four input blocks (features, messages, degree factors,
    bias). -/
def out1_4 (xh xa : Vec F S4096x64 .f32) (xd : Vec F S4096x1 .f32) (xb : Vec F S1x64 .f32) : Vec F S4096x64 .f32 :=
  View.canon [⟨r1_m, k1_pay1 (View.ld xd r1_d) (View.ld xh r1_m) (View.ld xa r1_m) (View.ld xb r1_b)⟩]

/-- The one store covers the block. -/
theorem cover1_4 (p0 : Vec F S4096x64 .f32) (y : S4096x64.Idx) :
    ∃ pc ∈ ([⟨r1_m, p0⟩] : List (View.Piece (Elt F) S4096x64 .f32)), y ∈ pc.1.set :=
  View.cover_of_tiled [⟨r1_m, p0⟩] S4096x64.size (by rfl) y

/-! ## The body's triple -/

set_option maxHeartbeats 1000000 in
/-- On whole staging buffers, the inputs at their contents and the output at anything, the body ends with the
    inputs as they were and the output at the combined block. -/
theorem sound_kernel1 (c : Dev nD) (E : Set ℕ) (i : grid1.Coords) (arg1 : Memref sig .tc .vmem S4096x64 .f32) (harg1 : arg1.IsWhole)
    (arg2 : Memref sig .tc .vmem S4096x64 .f32) (harg2 : arg2.IsWhole) (arg3 : Memref sig .tc .vmem S4096x1 .f32) (harg3 : arg3.IsWhole)
    (arg4 : Memref sig .tc .vmem S1x64 .f32) (harg4 : arg4.IsWhole) (arg5 : Memref sig .tc .vmem S4096x64 .f32) (harg5 : arg5.IsWhole)
    (xh xa : Vec F S4096x64 .f32) (xd : Vec F S4096x1 .f32) (xb : Vec F S1x64 .f32) (K : PUnit → sProp 𝕄) :
    iprop(owns (c : Thread nD τ) arg1 fullShare xh ∗ owns (c : Thread nD τ) arg2 fullShare xa ∗ owns (c : Thread nD τ) arg3 fullShare xd
        ∗ owns (c : Thread nD τ) arg4 fullShare xb ∗ (∃ d, owns (c : Thread nD τ) arg5 fullShare d)
        ∗ (iprop(owns (c : Thread nD τ) arg1 fullShare xh ∗ owns (c : Thread nD τ) arg2 fullShare xa ∗ owns (c : Thread nD τ) arg3 fullShare xd
            ∗ owns (c : Thread nD τ) arg4 fullShare xb ∗ owns (c : Thread nD τ) arg5 fullShare (out1_4 xh xa xd xb)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The arrays as the region finds them; after the body at point `t` each input's buffer at its block and the
    output's at the combined block; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- The second dense layer's linear map, one block of 4096 nodes per grid point (32 points).
   Window 0 is the block of first-layer features (4096 x 64), window 1 the whole weight matrix (64 x 64), window 2 the
   block of the product (4096 x 64). At a point the body reads both inputs whole and stores the product of the
   two, a matrix product onto a zero accumulator, over the whole output block; nothing else is kept between
   points. Stated at the contents `V` the region is entered with: what each input block is, what the body
   leaves in the output block, the body's triple and the obligation at every point. -/
import proofs.«410829_j31533649887385_2_alg».proof.Proof.Gen.KernelIdeal.Launch
import proofs.«410829_j31533649887385_2_alg».proof.Proof.Gen.KernelIdeal.Skeleton
import proofs.«410829_j31533649887385_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature block is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix is in its staging buffer at every point: fetched once, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S4096x64 := Rect.unit (s := S4096x64) ![0, 0] S4096x64.size inb_S4096x64_S4096x64_0_0
abbrev r2_w : Rect S64x64 := Rect.unit (s := S64x64) ![0, 0] S64x64.size inb_S64x64_S64x64_0_0
abbrev r2_o : Rect S4096x64 := Rect.unit (s := S4096x64) ![0, 0] S4096x64.size inb_S4096x64_S4096x64_0_0

/-! ## What the body leaves in the output block -/

/-- The product block: the one store, whole, of the matrix product of the two input blocks. -/
def out2_2 (x0 : Vec F S4096x64 .f32) (x1 : Vec F S64x64 .f32) : Vec F S4096x64 .f32 :=
  View.canon [⟨r2_o, k2_pay1 (View.ld x0 r2_x) (View.ld x1 r2_w)⟩]

/-- The one store covers the block. -/
theorem cover2_2 (p0 : Vec F S4096x64 .f32) (y : S4096x64.Idx) :
    ∃ pc ∈ ([⟨r2_o, p0⟩] : List (View.Piece (Elt F) S4096x64 .f32)), y ∈ pc.1.set :=
  View.cover_of_tiled [⟨r2_o, p0⟩] S4096x64.size (by rfl) y

/-! ## The body's triple -/

set_option maxHeartbeats 1000000 in
/-- On whole staging buffers, the inputs at `x0`, `x1` and the output at anything, the body ends with the inputs as
    they were and the output at the product block. -/
theorem sound_kernel2 (c : Dev nD) (E : Set ℕ) (i : grid2.Coords) (arg1 : Memref sig .tc .vmem S4096x64 .f32) (harg1 : arg1.IsWhole)
    (arg2 : Memref sig .tc .vmem S64x64 .f32) (harg2 : arg2.IsWhole) (arg3 : Memref sig .tc .vmem S4096x64 .f32) (harg3 : arg3.IsWhole)
    (x0 : Vec F S4096x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__transform_kernel i arg1 harg1 arg2 harg2 arg3 harg3) K := by
  simp only [cc2__transform_kernel_eq_skeleton]; unfold cc2__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each input's buffer at its block and the
    output's at the product block; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/- The second layer's combine step, one block of 4096 nodes per grid point (32 points). Window 0 is the block of
   transformed features (4096 x 64), window 1 the block of aggregated messages (4096 x 64), window 2 the block of
   inverse square-root degrees (4096 x 1), window 3 the bias row (1 x 64), window 4 the output block (4096 x 64).
   At a point the body stores, over the whole output block, the larger of zero and
   (messages + (degree factor squared) * features) + bias. Stated at the contents `V` the region is entered with. -/
import proofs.«410829_j31533649887385_2_alg».proof.Proof.Gen.KernelIdeal.Launch
import proofs.«410829_j31533649887385_2_alg».proof.Proof.Gen.KernelIdeal.Skeleton
import proofs.«410829_j31533649887385_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input block is in its staging buffer at every point (the bias row is fetched once and never moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_m : Rect S4096x64 := Rect.unit (s := S4096x64) ![0, 0] S4096x64.size inb_S4096x64_S4096x64_0_0
abbrev r3_d : Rect S4096x1 := Rect.unit (s := S4096x1) ![0, 0] S4096x1.size inb_S4096x1_S4096x1_0_0
abbrev r3_b : Rect S1x64 := Rect.unit (s := S1x64) ![0, 0] S1x64.size inb_S1x64_S1x64_0_0

/-! ## What the body leaves in the output block -/

/-- The combined block: the one store, whole, over the four input blocks (features, messages, degree factors,
    bias). -/
def out3_4 (xh xa : Vec F S4096x64 .f32) (xd : Vec F S4096x1 .f32) (xb : Vec F S1x64 .f32) : Vec F S4096x64 .f32 :=
  View.canon [⟨r3_m, k3_pay1 (View.ld xd r3_d) (View.ld xh r3_m) (View.ld xa r3_m) (View.ld xb r3_b)⟩]

/-- The one store covers the block. -/
theorem cover3_4 (p0 : Vec F S4096x64 .f32) (y : S4096x64.Idx) :
    ∃ pc ∈ ([⟨r3_m, p0⟩] : List (View.Piece (Elt F) S4096x64 .f32)), y ∈ pc.1.set :=
  View.cover_of_tiled [⟨r3_m, p0⟩] S4096x64.size (by rfl) y

/-! ## The body's triple -/

set_option maxHeartbeats 1000000 in
/-- On whole staging buffers, the inputs at their contents and the output at anything, the body ends with the
    inputs as they were and the output at the combined block. -/
theorem sound_kernel3 (c : Dev nD) (E : Set ℕ) (i : grid3.Coords) (arg1 : Memref sig .tc .vmem S4096x64 .f32) (harg1 : arg1.IsWhole)
    (arg2 : Memref sig .tc .vmem S4096x64 .f32) (harg2 : arg2.IsWhole) (arg3 : Memref sig .tc .vmem S4096x1 .f32) (harg3 : arg3.IsWhole)
    (arg4 : Memref sig .tc .vmem S1x64 .f32) (harg4 : arg4.IsWhole) (arg5 : Memref sig .tc .vmem S4096x64 .f32) (harg5 : arg5.IsWhole)
    (xh xa : Vec F S4096x64 .f32) (xd : Vec F S4096x1 .f32) (xb : Vec F S1x64 .f32) (K : PUnit → sProp 𝕄) :
    iprop(owns (c : Thread nD τ) arg1 fullShare xh ∗ owns (c : Thread nD τ) arg2 fullShare xa ∗ owns (c : Thread nD τ) arg3 fullShare xd
        ∗ owns (c : Thread nD τ) arg4 fullShare xb ∗ (∃ d, owns (c : Thread nD τ) arg5 fullShare d)
        ∗ (iprop(owns (c : Thread nD τ) arg1 fullShare xh ∗ owns (c : Thread nD τ) arg2 fullShare xa ∗ owns (c : Thread nD τ) arg3 fullShare xd
            ∗ owns (c : Thread nD τ) arg4 fullShare xb ∗ owns (c : Thread nD τ) arg5 fullShare (out3_4 xh xa xd xb)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The arrays as the region finds them; after the body at point `t` each input's buffer at its block and the
    output's at the combined block; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/- The pooling reduction: 16 grid points, each a block of 8192 nodes. Window 0 is the block of graph ids
   (1 x 8192), windows 1 and 2 the blocks of the two layers' node features (8192 x 64), window 3 the pooled sums
   (64 x 128) and window 4 the per-graph counts (64 x 1); both outputs are stored, and written back, at the last
   point only. Three scratch buffers carry the running sums between points: the first point clears them, every
   point adds its block's one-hot products (and the one-hot row sums) to them, the last point copies them into the
   two output blocks. Stated at the contents `V` the region is entered with. -/
import proofs.«410829_j31533649887385_2_alg».proof.Proof.Gen.KernelIdeal.Launch
import proofs.«410829_j31533649887385_2_alg».proof.Proof.Gen.KernelIdeal.Skeleton
import proofs.«410829_j31533649887385_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The scratch buffers and the running sums -/

/-- The three scratch buffers: the two layers' running sums and the running counts. -/
abbrev scM4_0 : Memref sig .tc .vmem S64x64 .f32 := Memref.whole cc4_scratch0
abbrev scM4_1 : Memref sig .tc .vmem S64x64 .f32 := Memref.whole cc4_scratch1
abbrev scM4_2 : Memref sig .tc .vmem S64x1 .f32 := Memref.whole cc4_scratch2

/-- The three running sums together. -/
abbrev Acc4 (F : FTy → Type) [FloatOps F] : Type := Vec F S64x64 .f32 × Vec F S64x64 .f32 × Vec F S64x1 .f32

/-- What the first point's clearing leaves: zeros. -/
def zero4 : Acc4 F := (k4_pay2, k4_pay3, k4_pay4)

/-- One point's update: each running sum plus the one-hot product of the point's id block with the point's
    feature block; the running counts plus the one-hot rows' sums. -/
def step4 (b : Vec F S1x8192 .i32) (x1 x2 : Vec F S8192x64 .f32) (p : Acc4 F) : Acc4 F :=
  (k4_pay7 b p.1 x1, k4_pay8 b p.2.1 x2, k4_pay1 (k4_pay9 b p.2.2))

/-- The running sums after point `n`: the first point starts from zeros, every later one from what the point
    before left. -/
def accs (c : Dev nD) : (n : ℕ) → n < cfg4.N → Acc4 F
  | 0, hn => step4 (iblk4 V c 0 ⟨0, hn⟩) (iblk4 V c 1 ⟨0, hn⟩) (iblk4 V c 2 ⟨0, hn⟩) zero4
  | n + 1, hn => step4 (iblk4 V c 0 ⟨n + 1, hn⟩) (iblk4 V c 1 ⟨n + 1, hn⟩) (iblk4 V c 2 ⟨n + 1, hn⟩) (accs c n (Nat.lt_of_succ_lt hn))

theorem accs_zero (c : Dev nD) (hn : 0 < cfg4.N) :
    accs V c 0 hn = step4 (iblk4 V c 0 ⟨0, hn⟩) (iblk4 V c 1 ⟨0, hn⟩) (iblk4 V c 2 ⟨0, hn⟩) zero4 := rfl
theorem accs_succ (c : Dev nD) (n : ℕ) (hn : n + 1 < cfg4.N) :
    accs V c (n + 1) hn = step4 (iblk4 V c 0 ⟨n + 1, hn⟩) (iblk4 V c 1 ⟨n + 1, hn⟩) (iblk4 V c 2 ⟨n + 1, hn⟩) (accs V c n (Nat.lt_of_succ_lt hn)) := rfl

/-! ## What the last point leaves in the two output blocks -/

abbrev r4_lo : Rect S64x128 := Rect.unit (s := S64x128) ![0, 0] S64x64.size inb_S64x128_S64x64_0_0
abbrev r4_hi : Rect S64x128 := Rect.unit (s := S64x128) ![0, 64] S64x64.size inb_S64x128_S64x64_0_64
abbrev r4_c : Rect S64x1 := Rect.unit (s := S64x1) ![0, 0] S64x1.size inb_S64x1_S64x1_0_0

/-- The pooled sums' block: the first layer's sums in columns 0..63, the second's in columns 64..127 (the later
    store first). -/
def out4_3 (a1 a2 : Vec F S64x64 .f32) : Vec F S64x128 .f32 :=
  View.canon [⟨r4_hi, a2⟩, ⟨r4_lo, a1⟩]
/-- The counts' block. -/
def out4_4 (ac : Vec F S64x1 .f32) : Vec F S64x1 .f32 :=
  View.canon [⟨r4_c, ac⟩]

/-! ## The invariant between points, and the proof data -/

/-- Before the first point the scratch buffers hold anything; after point `n` they hold the running sums. -/
def Phi4 (c : Dev nD) : (n : ℕ) → n ≤ cfg4.N → sProp 𝕄
  | 0, _ => Pipeline.ΦA spec4 c
  | n + 1, hn => iprop(owns (c : Thread nD τ) scM4_0 fullShare (accs V c n hn).1
      ∗ owns (c : Thread nD τ) scM4_1 fullShare (accs V c n hn).2.1
      ∗ owns (c : Thread nD τ) scM4_2 fullShare (accs V c n hn).2.2
      ∗ Pipeline.scopedRestBut (Ix := Unit) (Name := ℕ) (U := UR sig nD τ) (Lvl := ℕ) (Val := Elt F) spec4 c [cc4_scratch0, cc4_scratch1, cc4_scratch2]
      ∗ (∃ r, prngReg c r))

theorem Phi4_zero (c : Dev nD) (h : 0 ≤ cfg4.N) : Phi4 V c 0 h = Pipeline.ΦA spec4 c := rfl
theorem Phi4_succ (c : Dev nD) (n : ℕ) (hn : n < cfg4.N) :
    Phi4 V c (n + 1) hn = iprop(owns (c : Thread nD τ) scM4_0 fullShare (accs V c n hn).1
      ∗ owns (c : Thread nD τ) scM4_1 fullShare (accs V c n hn).2.1
      ∗ owns (c : Thread nD τ) scM4_2 fullShare (accs V c n hn).2.2
      ∗ Pipeline.scopedRestBut (Ix := Unit) (Name := ℕ) (U := UR sig nD τ) (Lvl := ℕ) (Val := Elt F) spec4 c [cc4_scratch0, cc4_scratch1, cc4_scratch2]
      ∗ (∃ r, prngReg c r)) := rfl

/-- The arrays as the region finds them; after the body at point `t` each input's buffer at its block, the two
    outputs' at the running sums laid out (read at the last point only); the invariant the running sums'. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (accs V c t.val t.isLt).1 (accs V c t.val t.isLt).2.1
    | ⟨4, _⟩ => out4_4 (accs V c t.val t.isLt).2.2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (accs V c t.val t.isLt).1 (accs V c t.val t.isLt).2.1 := by dsimp only [dat4]
theorem after4_4 (c : Dev nD) (t : Fin cfg4.N) : (dat4 V c).after 4 t = out4_4 (accs V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## Whole-buffer loads and stores -/

theorem hz4 : (![0, 0] : Fin 2 → Nat) = fun _ => 0 := funext fun a => by fin_cases a <;> rfl

/-- A load through the whole rectangle reads the contents. -/
theorem readAt_whole4 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a last store through the whole rectangle the buffer reads that store's payload. -/
theorem read_store_whole4 {κ : Kind} {sp : Space} {S : Shape} {e : EltTy} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-- The two column halves tile the pooled sums' block, whatever they carry. -/
theorem cover4_3 (p1 p2 : Vec F S64x64 .f32) (y : S64x128.Idx) :
    ∃ pc ∈ ([⟨r4_hi, p2⟩, ⟨r4_lo, p1⟩] : List (View.Piece (Elt F) S64x128 .f32)), y ∈ pc.1.set :=
  View.cover_of_tiledL [⟨r4_hi, p2⟩, ⟨r4_lo, p1⟩] S64x64.size (by sl_kernel_rfl) y

/-- The counts' block is one store. -/
theorem cover4_4 (p : Vec F S64x1 .f32) (y : S64x1.Idx) :
    ∃ pc ∈ ([⟨r4_c, p⟩] : List (View.Piece (Elt F) S64x1 .f32)), y ∈ pc.1.set :=
  View.cover_of_tiledL [⟨r4_c, p⟩] S64x1.size (by sl_kernel_rfl) y

/-- The two column stores, over anything, leave the pooled sums' block. -/
theorem read_store4_3 {κ : Kind} {sp : Space} (v : View sig κ sp S64x128 .f32) (f : v.ty.Contents (Elt F)) (p1 p2 : Vec F S64x64 .f32) :
    v.read (Elt F) (v.writes (Elt F) f [⟨r4_hi, p2⟩, ⟨r4_lo, p1⟩]) = out4_3 p1 p2 :=
  View.read_writes_eq_canon _ _ _ (cover4_3 p1 p2)

/-- The one store, over anything, leaves the counts' block. -/
theorem read_store4_4 {κ : Kind} {sp : Space} (v : View sig κ sp S64x1 .f32) (f : v.ty.Contents (Elt F)) (p : Vec F S64x1 .f32) :
    v.read (Elt F) (v.writes (Elt F) f [⟨r4_c, p⟩]) = out4_4 p :=
  View.read_writes_eq_canon _ _ _ (cover4_4 p)

/-! ## The two conditions of the body, over the grid -/

/-- The first `scf.if`: the point is the first. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 16 = 0 :=
  (by decide +kernel : ∀ t : Fin grid4.N, cond4_0 (grid4.coords t) ↔ t.val % 16 = 0)

/-- The second `scf.if`: the point is the last. -/
abbrev cond4_1 (i : grid4.Coords) : Prop := k4_cond2 i = 1#1
theorem hcond4_1 : ∀ t : Fin cfg4.N, cond4_1 (grid4.coords t) ↔ t.val % 16 = 15 :=
  (by decide +kernel : ∀ t : Fin grid4.N, cond4_1 (grid4.coords t) ↔ t.val % 16 = 15)

/-- The inputs are never idle; the two outputs are idle, and not written back, exactly off the last point. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem idleAt4_4 : ∀ t : Fin cfg4.N, ¬cond4_1 (grid4.coords t) → cfg4.idle 4 (grid4.coords t) = true := by decide +kernel
theorem noFlush4_3 : ∀ t : Fin cfg4.N, ¬cond4_1 (grid4.coords t) → (cfg4.win 3).flush t = false := by decide +kernel
theorem noFlush4_4 : ∀ t : Fin cfg4.N, ¬cond4_1 (grid4.coords t) → (cfg4.win 4).flush t = false := by decide +kernel
theorem liveAt4_3 : ∀ t : Fin cfg4.N, cond4_1 (grid4.coords t) → cfg4.idle 3 (grid4.coords t) = false := by decide +kernel
theorem liveAt4_4 : ∀ t : Fin cfg4.N, cond4_1 (grid4.coords t) → cfg4.idle 4 (grid4.coords t) = false := by decide +kernel

/-! ## The body's triple, per control case -/

set_option maxHeartbeats 1000000 in
/-- The first point: the three scratch buffers hold anything; they are cleared, then one update is added. The two
    output buffers are not touched. -/
theorem sound_kernel4_A (c : Dev nD) (E : Set ℕ) (i : grid4.Coords) (arg1 : Memref sig .tc .vmem S1x8192 .i32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole)
    (hc0 : cond4_0 i) (hc1 : ¬cond4_1 i)
    (b : Vec F S1x8192 .i32) (x1 x2 : Vec F S8192x64 .f32) (K : PUnit → sProp 𝕄) :
    iprop(owns (c : Thread nD τ) arg1 fullShare b ∗ owns (c : Thread nD τ) arg2 fullShare x1 ∗ owns (c : Thread nD τ) arg3 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare b ∗ owns (c : Thread nD τ) arg2 fullShare x1 ∗ owns (c : Thread nD τ) arg3 fullShare x2
            ∗ owns (c : Thread nD τ) arg6 fullShare (step4 b x1 x2 zero4).1 ∗ owns (c : Thread nD τ) arg7 fullShare (step4 b x1 x2 zero4).2.1
            ∗ owns (c : Thread nD τ) arg8 fullShare (step4 b x1 x2 zero4).2.2) -∗ K ⟨⟩))
      ⊢ wp frame (wpE (defs₀ (F := F)) Variants.none c none) E (cc4__grouped_sum_kernel i arg1 harg1 arg2 harg2 arg3 harg3 arg4 harg4 arg5 harg5 arg6 harg6 arg7 harg7 arg8 harg8) K := by
  simp only [cc4__grouped_sum_kernel_eq_skeleton]; unfold cc4__grouped_sum_kernel_skel
  simp only [k4_part1_eq_skeleton]; unfold k4_part1_skel
  unfold owns step4 zero4
  iintro ⟨⟨%f1, %hf1, H1⟩, ⟨%f2, %hf2, H2⟩, ⟨%f3, %hf3, H3⟩, ⟨%d6, %f6, -, H6⟩, ⟨%d7, %f7, -, H7⟩, ⟨%d8, %f8, -, H8⟩, Hk⟩
  subst hf1; subst hf2; subst hf3
  sl_exec (disch := first | exact hc0 | exact hc1)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4, View.readCov_unit_zero (S := S64x64) _ hz4, View.readCov_unit_zero (S := S64x1) _ hz4]
  isplitl [H7]
  · iexists _; isplitr
    swap; · iexact H7
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4, View.readCov_unit_zero (S := S64x64) _ hz4, View.readCov_unit_zero (S := S64x1) _ hz4]
  iexists _; isplitr
  swap; · iexact H8
  ipureintro
  rw [read_store_whole4 (S := S64x1) _ _ hz4]
  simp only [readAt_whole4 (S := S1x8192) _ _ hz4, readAt_whole4 (S := S8192x64) _ _ hz4, readAt_whole4 (S := S64x64) _ _ hz4, readAt_whole4 (S := S64x1) _ _ hz4, View.readCov_unit_zero (S := S64x64) _ hz4, View.readCov_unit_zero (S := S64x1) _ hz4]

set_option maxHeartbeats 1000000 in
/-- A middle point: one update is added to what the point before left. The two output buffers are not touched. -/
theorem sound_kernel4_B (c : Dev nD) (E : Set ℕ) (i : grid4.Coords) (arg1 : Memref sig .tc .vmem S1x8192 .i32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole)
    (hc0 : ¬cond4_0 i) (hc1 : ¬cond4_1 i)
    (b : Vec F S1x8192 .i32) (x1 x2 : Vec F S8192x64 .f32) (p : Acc4 F) (K : PUnit → sProp 𝕄) :
    iprop(owns (c : Thread nD τ) arg1 fullShare b ∗ owns (c : Thread nD τ) arg2 fullShare x1 ∗ owns (c : Thread nD τ) arg3 fullShare x2
        ∗ owns (c : Thread nD τ) arg6 fullShare p.1 ∗ owns (c : Thread nD τ) arg7 fullShare p.2.1 ∗ owns (c : Thread nD τ) arg8 fullShare p.2.2
        ∗ (iprop(owns (c : Thread nD τ) arg1 fullShare b ∗ owns (c : Thread nD τ) arg2 fullShare x1 ∗ owns (c : Thread nD τ) arg3 fullShare x2
            ∗ owns (c : Thread nD τ) arg6 fullShare (step4 b x1 x2 p).1 ∗ owns (c : Thread nD τ) arg7 fullShare (step4 b x1 x2 p).2.1
            ∗ owns (c : Thread nD τ) arg8 fullShare (step4 b x1 x2 p).2.2) -∗ K ⟨⟩))
      ⊢ wp frame (wpE (defs₀ (F := F)) Variants.none c none) E (cc4__grouped_sum_kernel i arg1 harg1 arg2 harg2 arg3 harg3 arg4 harg4 arg5 harg5 arg6 harg6 arg7 harg7 arg8 harg8) K := by
  obtain ⟨a1, a2, ac⟩ := p
  simp only [cc4__grouped_sum_kernel_eq_skeleton]; unfold cc4__grouped_sum_kernel_skel
  simp only [k4_part1_eq_skeleton]; unfold k4_part1_skel
  unfold owns step4
  iintro ⟨⟨%f1, %hf1, H1⟩, ⟨%f2, %hf2, H2⟩, ⟨%f3, %hf3, H3⟩, ⟨%f6, %hf6, H6⟩, ⟨%f7, %hf7, H7⟩, ⟨%f8, %hf8, H8⟩, Hk⟩
  subst hf1; subst hf2; subst hf3; subst hf6; subst hf7; subst hf8
  sl_exec (disch := first | exact hc0 | exact hc1)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4]
  isplitl [H7]
  · iexists _; isplitr
    swap; · iexact H7
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4]
  iexists _; isplitr
  swap; · iexact H8
  ipureintro
  rw [read_store_whole4 (S := S64x1) _ _ hz4]
  simp only [readAt_whole4 (S := S1x8192) _ _ hz4, readAt_whole4 (S := S8192x64) _ _ hz4, readAt_whole4 (S := S64x64) _ _ hz4, readAt_whole4 (S := S64x1) _ _ hz4]

set_option maxHeartbeats 1000000 in
/-- The last point: one update is added to what the point before left, then the three running sums are copied into
    the two output buffers, which held anything. -/
theorem sound_kernel4_C (c : Dev nD) (E : Set ℕ) (i : grid4.Coords) (arg1 : Memref sig .tc .vmem S1x8192 .i32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x1 .f32) (harg8 : arg8.IsWhole)
    (hc0 : ¬cond4_0 i) (hc1 : cond4_1 i)
    (b : Vec F S1x8192 .i32) (x1 x2 : Vec F S8192x64 .f32) (p : Acc4 F) (K : PUnit → sProp 𝕄) :
    iprop(owns (c : Thread nD τ) arg1 fullShare b ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare p.1 ∗ owns (c : Thread nD τ) arg7 fullShare p.2.1 ∗ owns (c : Thread nD τ) arg8 fullShare p.2.2
        ∗ (iprop(owns (c : Thread nD τ) arg1 fullShare b ∗ owns (c : Thread nD τ) arg2 fullShare x1 ∗ owns (c : Thread nD τ) arg3 fullShare x2
            ∗ owns (c : Thread nD τ) arg4 fullShare (out4_3 (step4 b x1 x2 p).1 (step4 b x1 x2 p).2.1) ∗ owns (c : Thread nD τ) arg5 fullShare (out4_4 (step4 b x1 x2 p).2.2)
            ∗ owns (c : Thread nD τ) arg6 fullShare (step4 b x1 x2 p).1 ∗ owns (c : Thread nD τ) arg7 fullShare (step4 b x1 x2 p).2.1
            ∗ owns (c : Thread nD τ) arg8 fullShare (step4 b x1 x2 p).2.2) -∗ K ⟨⟩))
      ⊢ wp frame (wpE (defs₀ (F := F)) Variants.none c none) E (cc4__grouped_sum_kernel i arg1 harg1 arg2 harg2 arg3 harg3 arg4 harg4 arg5 harg5 arg6 harg6 arg7 harg7 arg8 harg8) K := by
  obtain ⟨a1, a2, ac⟩ := p
  simp only [cc4__grouped_sum_kernel_eq_skeleton]; unfold cc4__grouped_sum_kernel_skel
  simp only [k4_part1_eq_skeleton]; unfold k4_part1_skel
  unfold owns step4
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
  subst hf1; subst hf2; subst hf3; subst hf6; subst hf7; subst hf8
  sl_exec (disch := first | exact hc0 | exact hc1)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    simp only [readAt_whole4 (S := S1x8192) _ _ hz4, readAt_whole4 (S := S8192x64) _ _ hz4, readAt_whole4 (S := S64x64) _ _ hz4, readAt_whole4 (S := S64x1) _ _ hz4, View.readCov_unit_zero (S := S64x64) _ hz4, View.readCov_unit_zero (S := S64x1) _ hz4]
    exact read_store4_3 _ _ _ _
  isplitl [H5]
  · iexists _; isplitr
    swap; · iexact H5
    ipureintro
    simp only [readAt_whole4 (S := S1x8192) _ _ hz4, readAt_whole4 (S := S8192x64) _ _ hz4, readAt_whole4 (S := S64x64) _ _ hz4, readAt_whole4 (S := S64x1) _ _ hz4, View.readCov_unit_zero (S := S64x64) _ hz4, View.readCov_unit_zero (S := S64x1) _ hz4]
    exact read_store4_4 _ _ _
  isplitl [H6]
  · iexists _; isplitr
    swap; · iexact H6
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4]
  isplitl [H7]
  · iexists _; isplitr
    swap; · iexact H7
    ipureintro
    rw [read_store_whole4 (S := S64x64) _ _ hz4]
    simp only [readAt_whole4 (S := S1x8192) _ _ hz4, readAt_whole4 (S := S8192x64) _ _ hz4, readAt_whole4 (S := S64x64) _ _ hz4, readAt_whole4 (S := S64x1) _ _ hz4]
  iexists _; isplitr
  swap; · iexact H8
  ipureintro
  rw [read_store_whole4 (S := S64x1) _ _ hz4]
  simp only [readAt_whole4 (S := S1x8192) _ _ hz4, readAt_whole4 (S := S8192x64) _ _ hz4, readAt_whole4 (S := S64x64) _ _ hz4, readAt_whole4 (S := S64x1) _ _ hz4]

/-! ## The running sums and the invariant at a point -/

theorem accs_first (c : Dev nD) (t : Fin cfg4.N) (h0 : t.val = 0) :
    accs V c t.val t.isLt = step4 (iblk4 V c 0 t) (iblk4 V c 1 t) (iblk4 V c 2 t) zero4 := by
  obtain ⟨n, hn⟩ := t
  cases n with
  | zero => rfl
  | succ n => exact absurd h0 (Nat.succ_ne_zero n)

theorem accs_pos (c : Dev nD) (t : Fin cfg4.N) (h0 : t.val ≠ 0) :
    accs V c t.val t.isLt = step4 (iblk4 V c 0 t) (iblk4 V c 1 t) (iblk4 V c 2 t)
      (accs V c (t.val - 1) (Nat.lt_of_le_of_lt (Nat.sub_le _ _) t.isLt)) := by
  obtain ⟨n, hn⟩ := t
  cases n with
  | zero => exact absurd rfl h0
  | succ n => rfl

theorem Phi4_first (c : Dev nD) (n : ℕ) (h : n ≤ cfg4.N) (hz : n = 0) : Phi4 V c n h = Pipeline.ΦA spec4 c := by
  subst hz; rfl

/-- Before a point that is not the first: the scratch buffers at what the point before left. -/
theorem Phi4_pos (c : Dev nD) (n : ℕ) (h : n ≤ cfg4.N) (hz : n ≠ 0) :
    Phi4 V c n h = iprop(owns (c : Thread nD τ) scM4_0 fullShare (accs V c (n - 1) (by omega)).1
      ∗ owns (c : Thread nD τ) scM4_1 fullShare (accs V c (n - 1) (by omega)).2.1
      ∗ owns (c : Thread nD τ) scM4_2 fullShare (accs V c (n - 1) (by omega)).2.2
      ∗ Pipeline.scopedRestBut (Ix := Unit) (Name := ℕ) (U := UR sig nD τ) (Lvl := ℕ) (Val := Elt F) spec4 c [cc4_scratch0, cc4_scratch1, cc4_scratch2]
      ∗ (∃ r, prngReg c r)) := by
  cases n with
  | zero => exact absurd rfl hz
  | succ n => rfl

theorem Phi4_castSucc (c : Dev nD) (t : Fin cfg4.N) :
    (dat4 V c).Φ t.castSucc = Phi4 V c t.val (Nat.le_of_lt t.isLt) := by
  dsimp only [dat4]; simp only [Fin.coe_castSucc]

/-- What the launch hands the region, with the three scratch buffers split out as memrefs owned at anything. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)
            ∗ (∃ d, owns (c : Thread nD τ) scM4_2 fullShare d))
          ∗ Pipeline.scopedRestBut (Ix := Unit) (Name := ℕ) (U := UR sig nD τ) (Lvl := ℕ) (Val := Elt F) spec4 c [cc4_scratch0, cc4_scratch1, cc4_scratch2])
        ∗ (∃ r, prngReg c r)) := by
  unfold Pipeline.ΦA; rw [scopedRest4_split]; simp only [scM4_0, scM4_1, scM4_2, owns_whole]; try rfl

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in
/-- The body at any point: the inputs' buffers hold their blocks; the closed forms of the two conditions say which
    case the point is in; the invariant hands the body the scratch buffers at what the point before left (at anything
    at the first point) and takes them back at this point's running sums; off the last point the two outputs'
    buffers go back as they came, at the last they hold the running sums laid out. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  have hN : t.val < 16 := lt_of_lt_of_eq t.isLt (show cfg4.N = 16 from N_4)
  by_cases h0 : t.val = 0
  · have hc0 : cond4_0 (grid4.coords t) := (hcond4_0 t).mpr (by omega)
    have hc1 : ¬cond4_1 (grid4.coords t) := fun h => by have := (hcond4_1 t).mp h; omega
    rw [Dat.leavesExact_idle (dat4 V c) 3 t (idleAt4_3 t hc1) (noFlush4_3 t hc1),
      Dat.leavesExact_idle (dat4 V c) 4 t (idleAt4_4 t hc1) (noFlush4_4 t hc1)]
    rw [accs_first V c t h0, Phi4_castSucc V c t, Phi4_first V c _ _ h0, PhiA4_eq]
    iintro ⟨⟨⟨⟨HS0, HS1, HS2⟩, HR⟩, Hg⟩, Ho, ⟨%d0, H0⟩, ⟨%d1, H1⟩, ⟨%d2, H2⟩, ⟨%d3, H3⟩, ⟨%d4, H4⟩⟩
    iapply (sound_kernel4_A c Set.univ (grid4.coords t) _ _ _ _ _ _ _ _ _ _ _ _ _ _ _ _ hc0 hc1 (iblk4 V c 0 t) (iblk4 V c 1 t) (iblk4 V c 2 t) _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HR Hg]
    · isplitl [HS0]; · iexact HS0
      isplitl [HS1]; · iexact HS1
      isplitl [HS2]; · iexact HS2
      isplitl [HR]; · iexact HR
      iexact Hg
    isplitl [Ho]; · iexact Ho
    isplitl [H0]; · iexact H0
    isplitl [H1]; · iexact H1
    isplitl [H2]; · iexact H2
    isplitl [H3]; · iexists d3; iexact H3
    iexists d4; iexact H4
  · have hc0 : ¬cond4_0 (grid4.coords t) := fun h => by have := (hcond4_0 t).mp h; omega
    rw [accs_pos V c t h0, Phi4_castSucc V c t, Phi4_pos V c _ _ h0]
    by_cases h1 : t.val = 15
    · have hc1 : cond4_1 (grid4.coords t) := (hcond4_1 t).mpr (by omega)
      rw [show (dat4 V c).leavesExact 3 t = owns (c : Thread nD τ) (st4_3 t) fullShare ((dat4 V c).after 3 t) from by
        unfold Dat.leavesExact; rw [liveAt4_3 t hc1], after4_3]
      rw [show (dat4 V c).leavesExact 4 t = owns (c : Thread nD τ) (st4_4 t) fullShare ((dat4 V c).after 4 t) from by
        unfold Dat.leavesExact; rw [liveAt4_4 t hc1], after4_4]
      rw [accs_pos V c t h0]
      iintro ⟨⟨HS0, HS1, HS2, HR, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ _ _ _ _ hc0 hc1 (iblk4 V c 0 t) (iblk4 V c 1 t) (iblk4 V c 2 t) _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => by have := (hcond4_1 t).mp h; omega
      rw [Dat.leavesExact_idle (dat4 V c) 3 t (idleAt4_3 t hc1) (noFlush4_3 t hc1),
        Dat.leavesExact_idle (dat4 V c) 4 t (idleAt4_4 t hc1) (noFlush4_4 t hc1)]
      iintro ⟨⟨HS0, HS1, HS2, HR, Hg⟩, Ho, ⟨%d0, H0⟩, ⟨%d1, H1⟩, ⟨%d2, H2⟩, ⟨%d3, H3⟩, ⟨%d4, H4⟩⟩
      iapply (sound_kernel4_B c Set.univ (grid4.coords t) _ _ _ _ _ _ _ _ _ _ _ _ _ _ _ _ hc0 hc1 (iblk4 V c 0 t) (iblk4 V c 1 t) (iblk4 V c 2 t) _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR Hg]
      · isplitl [HS0]; · iexact HS0
        isplitl [HS1]; · iexact HS1
        isplitl [HS2]; · iexact HS2
        isplitl [HR]; · iexact HR
        iexact Hg
      isplitl [Ho]; · iexact Ho
      isplitl [H0]; · iexact H0
      isplitl [H1]; · iexact H1
      isplitl [H2]; · iexact H2
      isplitl [H3]; · iexists d3; iexact H3
      iexists d4; iexact H4

/-! ## The three obligations -/

/-- The body at every point: from the invariant before the point and the windows' buffers, to the invariant
    after it and the buffers as the proof data say. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = Phi4 V c 0 (Nat.zero_le _) from rfl, Phi4_zero]

/-- After the last point the invariant gives the scoped rest back whole. -/
theorem hout4 (c : Dev nD) : (dat4 V c).Φ (Fin.last cfg4.N) ⊢ (Pipeline.ΦA spec4 c : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 16 := N_4; omega), PhiA4_eq]
  iintro ⟨HS0, HS1, HS2, HR, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end Cert.KernelIdeal.Hand

end
-- ==== Proof.KI.R5.lean ====
/- The linear head, one grid point. Window 0 is the pooled features (64 x 128), window 1 the head's weights
   (128 x 10), window 2 the head's bias row (1 x 10), window 3 the result (64 x 10). The body stores, over the whole
   result block, the matrix product of the two (onto a zero accumulator) plus the bias row on every row. Stated at
   the contents `V` the region is entered with. -/
import proofs.«410829_j31533649887385_2_alg».proof.Proof.Gen.KernelIdeal.Launch
import proofs.«410829_j31533649887385_2_alg».proof.Proof.Gen.KernelIdeal.Skeleton
import proofs.«410829_j31533649887385_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input block is in its staging buffer at the one point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_p : Rect S64x128 := Rect.unit (s := S64x128) ![0, 0] S64x128.size inb_S64x128_S64x128_0_0
abbrev r5_w : Rect S128x10 := Rect.unit (s := S128x10) ![0, 0] S128x10.size inb_S128x10_S128x10_0_0
abbrev r5_b : Rect S1x10 := Rect.unit (s := S1x10) ![0, 0] S1x10.size inb_S1x10_S1x10_0_0
abbrev r5_o : Rect S64x10 := Rect.unit (s := S64x10) ![0, 0] S64x10.size inb_S64x10_S64x10_0_0

/-! ## What the body leaves in the result block -/

/-- The result block: the one store, whole, over the three input blocks. -/
def out5_3 (xp : Vec F S64x128 .f32) (xw : Vec F S128x10 .f32) (xb : Vec F S1x10 .f32) : Vec F S64x10 .f32 :=
  View.canon [⟨r5_o, k5_pay1 (View.ld xp r5_p) (View.ld xw r5_w) (View.ld xb r5_b)⟩]

/-- The one store covers the block. -/
theorem cover5_3 (p0 : Vec F S64x10 .f32) (y : S64x10.Idx) :
    ∃ pc ∈ ([⟨r5_o, p0⟩] : List (View.Piece (Elt F) S64x10 .f32)), y ∈ pc.1.set :=
  View.cover_of_tiled [⟨r5_o, p0⟩] S64x10.size (by rfl) y

/-! ## The body's triple -/

set_option maxHeartbeats 1000000 in
/-- On whole staging buffers, the inputs at their contents and the result at anything, the body ends with the
    inputs as they were and the result at the result block. -/
theorem sound_kernel5 (c : Dev nD) (E : Set ℕ) (i : grid5.Coords) (arg1 : Memref sig .tc .vmem S64x128 .f32) (harg1 : arg1.IsWhole)
    (arg2 : Memref sig .tc .vmem S128x10 .f32) (harg2 : arg2.IsWhole) (arg3 : Memref sig .tc .vmem S1x10 .f32) (harg3 : arg3.IsWhole)
    (arg4 : Memref sig .tc .vmem S64x10 .f32) (harg4 : arg4.IsWhole)
    (xp : Vec F S64x128 .f32) (xw : Vec F S128x10 .f32) (xb : Vec F S1x10 .f32) (K : PUnit → sProp 𝕄) :
    iprop(owns (c : Thread nD τ) arg1 fullShare xp ∗ owns (c : Thread nD τ) arg2 fullShare xw ∗ owns (c : Thread nD τ) arg3 fullShare xb
        ∗ (∃ d, owns (c : Thread nD τ) arg4 fullShare d)
        ∗ (iprop(owns (c : Thread nD τ) arg1 fullShare xp ∗ owns (c : Thread nD τ) arg2 fullShare xw ∗ owns (c : Thread nD τ) arg3 fullShare xb
            ∗ owns (c : Thread nD τ) arg4 fullShare (out5_3 xp xw xb)) -∗ K ⟨⟩))
      ⊢ wp frame (wpE (defs₀ (F := F)) Variants.none c none) E (cc5__final_kernel i arg1 harg1 arg2 harg2 arg3 harg3 arg4 harg4) K := by
  simp only [cc5__final_kernel_eq_skeleton]; unfold cc5__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The arrays as the region finds them; after the body each input's buffer at its block and the result's at the
    result block; the scoped rest and the generator register untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at the one point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Fold.lean ====
/- The contents of every unscoped buffer at each boundary between the eleven items of the program: five stretches
   of host operations and six kernel regions. A host stretch replaces the buffers it writes by its operations'
   results; a region replaces each of its arrays by what its write-backs leave (an input array is never written,
   so it stays) and touches nothing else. What each boundary holds at a buffer that the item before it does not
   write is what the boundary before held. -/
import proofs.«410829_j31533649887385_2_alg».proof.Proof.KI.R0
import proofs.«410829_j31533649887385_2_alg».proof.Proof.KI.R1
import proofs.«410829_j31533649887385_2_alg».proof.Proof.KI.R2
import proofs.«410829_j31533649887385_2_alg».proof.Proof.KI.R3
import proofs.«410829_j31533649887385_2_alg».proof.Proof.KI.R4
import proofs.«410829_j31533649887385_2_alg».proof.Proof.KI.R5
import proofs.«410829_j31533649887385_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h

/-- After region 0: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Region 0 changes none of its input arrays: each is never written back. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- After the host stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) : W3 m c r = W2 m c r :=
  StableHlo.after_of_writes_sub hostOps1 _ hostOps1_writes h

/-- After region 1: its arrays at what the write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Region 1 changes none of its input arrays: each is never written back. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-- After region 2: its arrays at what the write-backs leave, every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- Region 2 changes none of its input arrays: each is never written back. -/
theorem W5_in (c : Dev nD) (w : Fin cfg2.W) (hw : (cfg2.win w).isOut = false) :
    W5 m c (Proc.devRef .tc (Pipeline.arrRef spec2 w)) = W4 m c (Proc.devRef .tc (Pipeline.arrRef spec2 w)) :=
  (W5_arr m c w).trans (((dat2 (V4 m) c).arrAt_in w hw _).trans (A_eq2 (V4 m) c w))

/-- After the host stretch `hostOps3`. -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b
theorem W6_of (c : Dev nD) (r : Ref sig .tc) (h : r ∉ hostOps3_W) : W6 m c r = W5 m c r :=
  StableHlo.after_of_writes_sub hostOps3 _ hostOps3_writes h

/-- After region 3: its arrays at what the write-backs leave, every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)
/-- Region 3 changes none of its input arrays: each is never written back. -/
theorem W7_in (c : Dev nD) (w : Fin cfg3.W) (hw : (cfg3.win w).isOut = false) :
    W7 m c (Proc.devRef .tc (Pipeline.arrRef spec3 w)) = W6 m c (Proc.devRef .tc (Pipeline.arrRef spec3 w)) :=
  (W7_arr m c w).trans (((dat3 (V6 m) c).arrAt_in w hw _).trans (A_eq3 (V6 m) c w))

/-- After the host stretch `hostOps4`. -/
abbrev W8 : Dev nD → Valuation τ sig (Elt F) := fun c => StableHlo.after hostOps4 (W7 m c)
abbrev V8 : (c : Dev nD) → (b : Ref sig .tc) → Buf (Elt F) ((c : Thread nD τ).loc b) := fun c b => W8 m c b
theorem W8_of (c : Dev nD) (r : Ref sig .tc) (h : r ∉ hostOps4_W) : W8 m c r = W7 m c r :=
  StableHlo.after_of_writes_sub hostOps4 _ hostOps4_writes h

/-- After region 4: its arrays at what the write-backs leave, every other buffer as entered. -/
def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)
/-- Region 4 changes none of its input arrays: each is never written back. -/
theorem W9_in (c : Dev nD) (w : Fin cfg4.W) (hw : (cfg4.win w).isOut = false) :
    W9 m c (Proc.devRef .tc (Pipeline.arrRef spec4 w)) = W8 m c (Proc.devRef .tc (Pipeline.arrRef spec4 w)) :=
  (W9_arr m c w).trans (((dat4 (V8 m) c).arrAt_in w hw _).trans (A_eq4 (V8 m) c w))

/-- After the host stretch `hostOps5`. -/
abbrev W10 : Dev nD → Valuation τ sig (Elt F) := fun c => StableHlo.after hostOps5 (W9 m c)
abbrev V10 : (c : Dev nD) → (b : Ref sig .tc) → Buf (Elt F) ((c : Thread nD τ).loc b) := fun c b => W10 m c b
theorem W10_of (c : Dev nD) (r : Ref sig .tc) (h : r ∉ hostOps5_W) : W10 m c r = W9 m c r :=
  StableHlo.after_of_writes_sub hostOps5 _ hostOps5_writes h

/-- After region 5: its arrays at what the write-backs leave, every other buffer as entered. -/
def W11 (c : Dev nD) : Valuation τ sig (Elt F) :=
  Pipeline.withArrays spec5 c (W10 m c) fun w => (dat5 (V10 m) c).arrAt w cfg5.N
theorem W11_arr (c : Dev nD) (w : Fin cfg5.W) :
    W11 m c (Proc.devRef .tc (Pipeline.arrRef spec5 w)) = (dat5 (V10 m) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb
abbrev V11 : (c : Dev nD) → (b : Ref sig .tc) → Buf (Elt F) ((c : Thread nD τ).loc b) := fun c b => W11 m c b
theorem hF5 (c : Dev nD) (w : Fin cfg5.W) : (dat5 (V10 m) c).arrAt w cfg5.N = V11 m c (Pipeline.arrRef spec5 w) :=
  (W11_arr m c w).symm
theorem hrest5 (c : Dev nD) : ∀ b, b ∉ Finset.univ.image (Pipeline.arrRef spec5) → V11 m c b = V10 m c b :=
  fun b hb => W11_of_ne m c b fun w e => hb (Finset.mem_image.mpr ⟨w, Finset.mem_univ _, e⟩)
/-- Region 5 changes none of its input arrays: each is never written back. -/
theorem W11_in (c : Dev nD) (w : Fin cfg5.W) (hw : (cfg5.win w).isOut = false) :
    W11 m c (Proc.devRef .tc (Pipeline.arrRef spec5 w)) = W10 m c (Proc.devRef .tc (Pipeline.arrRef spec5 w)) :=
  (W11_arr m c w).trans (((dat5 (V10 m) c).arrAt_in w hw _).trans (A_eq5 (V10 m) c w))

end Cert.KernelIdeal.Hand

end
-- ==== Proof.KI.Launch.lean ====
/- The program's run: @main as eleven segments, a host segment per stretch from its boundary's contents and a
   region segment per kernel call, each region entered from every unscoped buffer at the boundary before it and left
   at the boundary after it; its arrays split out of the unscoped buffers at entry and put back at exit; the
   generator register and the scoped rest into the region's invariant and out; nothing owed anywhere. Every weakly
   fair execution terminates with every unscoped buffer at the last boundary's contents: the arguments as launched
   (no item writes one) and the result buffer at what the last region's write-back leaves. -/
import proofs.«410829_j31533649887385_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the six pipelines, and what rides beside the buffers -/

/-- Every pipeline's proof data, each at the contents its region is entered with. -/
def pdats : (p : Fin 6) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
  | ⟨3, _⟩ => fun c => dat3 (V6 m) c
  | ⟨4, _⟩ => fun c => dat4 (V8 m) c
  | ⟨5, _⟩ => fun c => dat5 (V10 m) c

abbrev 𝒱₀ : Variants := Variants.none
/-- No core owes another anything, so no pair carries a level. -/
abbrev L : GSem nD τ sig → Finset Unit := fun _ => ∅
abbrev lv : GSem nD τ sig → Unit → ℕ := fun _ _ => 0

/-- Beside its buffers a core carries through every item its generator register, at some state, and its dues,
    which are none. -/
abbrev beside (c : Dev nD) : sProp 𝕄 :=
  iprop((∃ r, prngReg c r) ∗ ∃ W, owes (c : Thread nD τ) (0 : CellTallies nD τ sig Unit) W)

/-! ## Three small facts, at any pipeline -/

/-- No pipeline of this program prefetches a table: the tables held are nothing. -/
theorem noTables (p : Fin 6) (c : Dev nD) :
    (Pipeline.prefHeld (pcfgs (F := F) p).pre c (fun _ => fullShare) (adm p).1 : sProp 𝕄) = BI.emp := by
  unfold Pipeline.prefHeld
  rw [show (Finset.univ : Finset (Fin 0)) = ∅ from rfl, BI.bigSep_empty]

section Owing

variable {cfg : Cfg sig Λ₀} {c : Dev nD} (dat : Dat τ (Elt F) Unit ℕ (UR sig nD τ) ℕ cfg c)

/-- A core with no dues holds what a proof data owing nothing before point `t`, and bounding its recorded pairs
    by everything, asks there. -/
theorem owes_enter (t : Fin (cfg.N + 1)) (h0 : dat.owed t = 0) (hrec : ∀ x, x ∈ dat.recorded t) :
    (iprop(∃ W, owes (c : Thread nD τ) (0 : CellTallies nD τ sig Unit) W) : sProp 𝕄) ⊢ dat.owesAt () t := by
  unfold Pipeline.Dat.owesAt Pipeline.owesWithin
  rw [h0]
  iintro ⟨%W, Hdue⟩
  iexists W
  isplitr
  · ipureintro; exact fun x _ => Or.inl (hrec x)
  iexact Hdue

/-- And back: owing nothing before point `t`, the core has no dues. -/
theorem owes_leave (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, Hdue⟩
  iexists W
  iexact Hdue

end Owing

/-! ## A kernel region as a segment, at any pipeline

Pipeline `p`'s region is entered holding every unscoped buffer at contents `Win` and left holding them at `Wout`,
the generator register and the absent dues beside them both times. What is asked of `p`: its arrays are distinct
whole buffers (`lf`); its proof data read their entry contents off `Win` (`hA`), hold every array whole (`hq`),
owe nothing (`h0`, `hrec`) and meet the body's obligation (`hbody`); its invariant before the first point follows
from the scoped rest and the register, and gives them back after the last (`hΦin`, `hΦout`); and `Wout` is `Win`
with the arrays at what the write-backs leave (`hF`, `hrest`). -/

-- a library lemma stated over `pin pcs a p` is matched against this program's configurations only when unification
-- may unfold plain definitions in a metavariable's type
set_option backward.isDefEq.respectTransparency.types false in
def region (p : Fin 6) (lf : Pipeline.LaunchFacts (nD := nD) (τ := τ) cfgs p)
    (Win Wout : Dev nD → Valuation τ sig (Elt F))
    (hA : ∀ c w, (pdats m p c).A w = Win c (Proc.devRef .tc (Pipeline.arrRef (Pipeline.pin (pcfgs (F := F)) adm p).spec w)))
    (hq : ∀ c w, (pdats m p c).q w = fullShare)
    (h0 : ∀ c t, (pdats m p c).owed t = 0)
    (hrec : ∀ c t x, x ∈ (pdats m p c).recorded t)
    (hbody : ∀ c, BodyObligation (pdats m p c) (defs₀ (F := F)) Variants.none () Set.univ)
    (hΦin : ∀ c, (Pipeline.ΦA (Pipeline.pin (pcfgs (F := F)) adm p).spec c : sProp 𝕄) ⊢ (pdats m p c).Φ 0)
    (hΦout : ∀ c, (pdats m p c).Φ (Fin.last (Pipeline.pin (pcfgs (F := F)) adm p).N)
      ⊢ (Pipeline.ΦA (Pipeline.pin (pcfgs (F := F)) adm p).spec c : sProp 𝕄))
    (hF : ∀ c w, (pdats m p c).arrAt w (Pipeline.pin (pcfgs (F := F)) adm p).N
      = Wout c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec)
      → Wout c (Proc.devRef .tc b) = Win c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (Win c) ∗ beside c)
  post c := iprop(StableHlo.held (c : Thread nD τ) (Pipeline.ucRefs τ sig) (Wout c) ∗ beside c)
  X c := iprop(∃ r, prngReg c r)
  Y c := iprop(∃ r, prngReg c r)
  Z c := Pipeline.unscopedRest (Ix := Unit) (Name := ℕ) (U := UR sig nD τ) (Lvl := ℕ)
    (Pipeline.pin (pcfgs (F := F)) adm p).spec c (fun b => Win c (Proc.devRef .tc b))
  hentry c := by
    -- the unscoped buffers at `Win` are the arrays at their entry contents and the buffers off the arrays
    have hsplit := Pipeline.arrays_of_unscopedBufs (p := p) (pcfgs (F := F)) adm (pdats m) lf.win lf.arr_whole c
      ((pdats m p c).share_full (hq c)) (fun b => Win c (Proc.devRef .tc b)) (hA c)
    rw [Pipeline.unscopedBufs_held] at hsplit
    rw [Pipeline.ownSems0_none, noTables]
    iintro ⟨⟨Hbufs, Hreg, Hdue⟩, -, -⟩
    ihave Hparts := hsplit $$ Hbufs
    icases Hparts with ⟨Harr, Hoff⟩
    imodintro
    isplitl [Harr]; · iexact Harr
    isplitr; · iempintro
    isplitl [Hdue]
    · iapply (owes_enter (pdats m p c) 0 (h0 c 0) (hrec c 0)); iexact Hdue
    isplitl [Hreg]; · iexact Hreg
    iexact Hoff
  hin c := by
    refine .trans ?_ (hΦin c)
    unfold Pipeline.ΦA
    iintro ⟨Hreg, -, Hsc⟩
    isplitl [Hsc]; · iexact Hsc
    iexact Hreg
  hout c := by
    rw [Pipeline.ownSems0_none]
    refine (hΦout c).trans ?_
    unfold Pipeline.ΦA
    iintro ⟨Hsc, Hreg⟩
    isplitl [Hreg]; · iexact Hreg
    isplitr; · iempintro
    iexact Hsc
  hexit c := by
    -- the arrays at what the write-backs leave and the buffers off the arrays, as entered, are the unscoped buffers at `Wout`
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c (Proc.devRef .tc b)) (fun b => Wout c (Proc.devRef .tc b))
      ((pdats m p c).arrAt · (Pipeline.pin (pcfgs (F := F)) adm p).N) (hF c) (hrest c)
    rw [Pipeline.unscopedBufs_held] at hjoin
    iintro ⟨Harr, Hdue, Hreg, Hoff⟩
    imodintro
    isplitl [Harr Hoff]
    · iapply hjoin; isplitl [Harr] <;> iassumption
    isplitl [Hreg]; · iexact Hreg
    iapply (owes_leave (pdats m p c) _ (h0 c _)); iexact Hdue

set_option backward.isDefEq.respectTransparency.types false in
/-- Region 0: entered after the first host stretch, left at the second boundary. -/
def reg0 : Pipeline.RegionSeg (pcfgs (F := F)) adm (pdats m) () defs₀ 𝒱₀ L lv 0 :=
  region m 0 launch0 (W1 m) (W2 m) (fun _ _ => rfl) (fun _ _ => rfl) (fun _ _ => rfl) (fun _ _ _ => trivial)
    (body_obligation0 (V1 m)) (fun _ => .rfl) (fun _ => .rfl) (hF0 m) (hrest0 m)

set_option backward.isDefEq.respectTransparency.types false in
/-- Region 1: entered after the second host stretch. -/
def reg1 : Pipeline.RegionSeg (pcfgs (F := F)) adm (pdats m) () defs₀ 𝒱₀ L lv 1 :=
  region m 1 launch1 (W3 m) (W4 m) (fun _ _ => rfl) (fun _ _ => rfl) (fun _ _ => rfl) (fun _ _ _ => trivial)
    (body_obligation1 (V3 m)) (fun _ => .rfl) (fun _ => .rfl) (hF1 m) (hrest1 m)

set_option backward.isDefEq.respectTransparency.types false in
/-- Region 2: entered where region 1 is left, no host stretch between them. -/
def reg2 : Pipeline.RegionSeg (pcfgs (F := F)) adm (pdats m) () defs₀ 𝒱₀ L lv 2 :=
  region m 2 launch2 (W4 m) (W5 m) (fun _ _ => rfl) (fun _ _ => rfl) (fun _ _ => rfl) (fun _ _ _ => trivial)
    (body_obligation2 (V4 m)) (fun _ => .rfl) (fun _ => .rfl) (hF2 m) (hrest2 m)

set_option backward.isDefEq.respectTransparency.types false in
/-- Region 3: entered after the third host stretch. -/
def reg3 : Pipeline.RegionSeg (pcfgs (F := F)) adm (pdats m) () defs₀ 𝒱₀ L lv 3 :=
  region m 3 launch3 (W6 m) (W7 m) (fun _ _ => rfl) (fun _ _ => rfl) (fun _ _ => rfl) (fun _ _ _ => trivial)
    (body_obligation3 (V6 m)) (fun _ => .rfl) (fun _ => .rfl) (hF3 m) (hrest3 m)

set_option backward.isDefEq.respectTransparency.types false in
/-- Region 4: entered after the fourth host stretch. Its invariant carries the running sums in three scratch
    buffers, so it is reached from the scoped rest and the register, and gives them back, by the region's own two
    entailments. -/
def reg4 : Pipeline.RegionSeg (pcfgs (F := F)) adm (pdats m) () defs₀ 𝒱₀ L lv 4 :=
  region m 4 launch4 (W8 m) (W9 m) (fun _ _ => rfl) (fun _ _ => rfl) (fun _ _ => rfl) (fun _ _ _ => trivial)
    (body_obligation4 (V8 m)) (hin4 (V8 m)) (hout4 (V8 m)) (hF4 m) (hrest4 m)

set_option backward.isDefEq.respectTransparency.types false in
/-- Region 5: entered after the fifth host stretch, left at the last boundary. -/
def reg5 : Pipeline.RegionSeg (pcfgs (F := F)) adm (pdats m) () defs₀ 𝒱₀ L lv 5 :=
  region m 5 launch5 (W10 m) (W11 m) (fun _ _ => rfl) (fun _ _ => rfl) (fun _ _ => rfl) (fun _ _ _ => trivial)
    (body_obligation5 (V10 m)) (fun _ => .rfl) (fun _ => .rfl) (hF5 m) (hrest5 m)

/-! ## A buffer no item changes ends as launched -/

/-- A buffer that no host stretch writes, and that each region either has among none of its arrays or only reads,
    holds at the last boundary what the launch memory holds: the fold walks back through the eleven items. -/
theorem kept (c : Dev nD) (a : Ref sig .tc)
    (s0 : a ∉ hostOps0_W) (s1 : a ∉ hostOps1_W) (s3 : a ∉ hostOps3_W) (s4 : a ∉ hostOps4_W) (s5 : a ∉ hostOps5_W)
    (r0 : (∀ w, Pipeline.arrRef spec0 w ≠ a) ∨ ∃ w : Fin cfg0.W, Pipeline.arrRef spec0 w = a ∧ (cfg0.win w).isOut = false)
    (r1 : (∀ w, Pipeline.arrRef spec1 w ≠ a) ∨ ∃ w : Fin cfg1.W, Pipeline.arrRef spec1 w = a ∧ (cfg1.win w).isOut = false)
    (r2 : (∀ w, Pipeline.arrRef spec2 w ≠ a) ∨ ∃ w : Fin cfg2.W, Pipeline.arrRef spec2 w = a ∧ (cfg2.win w).isOut = false)
    (r3 : (∀ w, Pipeline.arrRef spec3 w ≠ a) ∨ ∃ w : Fin cfg3.W, Pipeline.arrRef spec3 w = a ∧ (cfg3.win w).isOut = false)
    (r4 : (∀ w, Pipeline.arrRef spec4 w ≠ a) ∨ ∃ w : Fin cfg4.W, Pipeline.arrRef spec4 w = a ∧ (cfg4.win w).isOut = false)
    (r5 : (∀ w, Pipeline.arrRef spec5 w ≠ a) ∨ ∃ w : Fin cfg5.W, Pipeline.arrRef spec5 w = a ∧ (cfg5.win w).isOut = false) :
    W11 m c (Proc.devRef .tc a) = m ((c : Thread nD τ).loc a) := by
  have e0 : W2 m c (Proc.devRef .tc a) = W1 m c (Proc.devRef .tc a) := by
    rcases r0 with h | ⟨w, rfl, hw⟩
    · exact W2_of_ne m c a h
    · exact W2_in m c w hw
  have e1 : W4 m c (Proc.devRef .tc a) = W3 m c (Proc.devRef .tc a) := by
    rcases r1 with h | ⟨w, rfl, hw⟩
    · exact W4_of_ne m c a h
    · exact W4_in m c w hw
  have e2 : W5 m c (Proc.devRef .tc a) = W4 m c (Proc.devRef .tc a) := by
    rcases r2 with h | ⟨w, rfl, hw⟩
    · exact W5_of_ne m c a h
    · exact W5_in m c w hw
  have e3 : W7 m c (Proc.devRef .tc a) = W6 m c (Proc.devRef .tc a) := by
    rcases r3 with h | ⟨w, rfl, hw⟩
    · exact W7_of_ne m c a h
    · exact W7_in m c w hw
  have e4 : W9 m c (Proc.devRef .tc a) = W8 m c (Proc.devRef .tc a) := by
    rcases r4 with h | ⟨w, rfl, hw⟩
    · exact W9_of_ne m c a h
    · exact W9_in m c w hw
  have e5 : W11 m c (Proc.devRef .tc a) = W10 m c (Proc.devRef .tc a) := by
    rcases r5 with h | ⟨w, rfl, hw⟩
    · exact W11_of_ne m c a h
    · exact W11_in m c w hw
  calc W11 m c (Proc.devRef .tc a)
    _ = W10 m c (Proc.devRef .tc a) := e5
    _ = W9 m c (Proc.devRef .tc a) := W10_of m c a s5
    _ = W8 m c (Proc.devRef .tc a) := e4
    _ = W7 m c (Proc.devRef .tc a) := W8_of m c a s4
    _ = W6 m c (Proc.devRef .tc a) := e3
    _ = W5 m c (Proc.devRef .tc a) := W6_of m c a s3
    _ = W4 m c (Proc.devRef .tc a) := e2
    _ = W3 m c (Proc.devRef .tc a) := e1
    _ = W2 m c (Proc.devRef .tc a) := W3_of m c a s1
    _ = W1 m c (Proc.devRef .tc a) := e0
    _ = W0 m c (Proc.devRef .tc a) := W1_of m c a s0
    _ = m ((c : Thread nD τ).loc a) := rfl

/-- Each argument ends as launched: no host stretch writes one, and a region that has one among its arrays reads it
    through an input window. -/
theorem W11_main_arg0 (c : Dev nD) : W11 m c (Proc.devRef .tc main_arg0) = m ((c : Thread nD τ).loc main_arg0) :=
  kept m c main_arg0 (by decide) (by decide) (by decide) (by decide) (by decide)
    (by decide) (by decide) (by decide) (by decide) (by decide) (by decide)
theorem W11_main_arg1 (c : Dev nD) : W11 m c (Proc.devRef .tc main_arg1) = m ((c : Thread nD τ).loc main_arg1) :=
  kept m c main_arg1 (by decide) (by decide) (by decide) (by decide) (by decide)
    (by decide) (by decide) (by decide) (by decide) (by decide) (by decide)
theorem W11_main_arg2 (c : Dev nD) : W11 m c (Proc.devRef .tc main_arg2) = m ((c : Thread nD τ).loc main_arg2) :=
  kept m c main_arg2 (by decide) (by decide) (by decide) (by decide) (by decide)
    (by decide) (by decide) (by decide) (by decide) (by decide) (by decide)
theorem W11_main_arg3 (c : Dev nD) : W11 m c (Proc.devRef .tc main_arg3) = m ((c : Thread nD τ).loc main_arg3) :=
  kept m c main_arg3 (by decide) (by decide) (by decide) (by decide) (by decide)
    (by decide) (by decide) (by decide) (by decide) (by decide) (by decide)
theorem W11_main_arg4 (c : Dev nD) : W11 m c (Proc.devRef .tc main_arg4) = m ((c : Thread nD τ).loc main_arg4) :=
  kept m c main_arg4 (by decide) (by decide) (by decide) (by decide) (by decide)
    (by decide) (by decide) (by decide) (by decide) (by decide) (by decide)
theorem W11_main_arg5 (c : Dev nD) : W11 m c (Proc.devRef .tc main_arg5) = m ((c : Thread nD τ).loc main_arg5) :=
  kept m c main_arg5 (by decide) (by decide) (by decide) (by decide) (by decide)
    (by decide) (by decide) (by decide) (by decide) (by decide) (by decide)
theorem W11_main_arg6 (c : Dev nD) : W11 m c (Proc.devRef .tc main_arg6) = m ((c : Thread nD τ).loc main_arg6) :=
  kept m c main_arg6 (by decide) (by decide) (by decide) (by decide) (by decide)
    (by decide) (by decide) (by decide) (by decide) (by decide) (by decide)
theorem W11_main_arg7 (c : Dev nD) : W11 m c (Proc.devRef .tc main_arg7) = m ((c : Thread nD τ).loc main_arg7) :=
  kept m c main_arg7 (by decide) (by decide) (by decide) (by decide) (by decide)
    (by decide) (by decide) (by decide) (by decide) (by decide) (by decide)
theorem W11_main_arg8 (c : Dev nD) : W11 m c (Proc.devRef .tc main_arg8) = m ((c : Thread nD τ).loc main_arg8) :=
  kept m c main_arg8 (by decide) (by decide) (by decide) (by decide) (by decide)
    (by decide) (by decide) (by decide) (by decide) (by decide) (by decide)

/-! ## @main as eleven segments, and the launch -/

/-- A host stretch as a segment over the unscoped buffers from contents `W`, left at `StableHlo.after ops (W c)`,
    the register and the absent dues riding along. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- @main's eleven items in order, each entered from the boundary the one before it leaves. -/
abbrev items : List (Pipeline.Seg (pcfgs (F := F)) adm (pdats m) () defs₀ 𝒱₀ L lv) :=
  [ .host (host hostOps0 hostOps0_sub hostOps0_fresh (W0 m)),
    .region (reg0 m),
    .host (host hostOps1 hostOps1_sub hostOps1_fresh (W2 m)),
    .region (reg1 m),
    .region (reg2 m),
    .host (host hostOps3 hostOps3_sub hostOps3_fresh (W5 m)),
    .region (reg3 m),
    .host (host hostOps4 hostOps4_sub hostOps4_fresh (W7 m)),
    .region (reg4 m),
    .host (host hostOps5 hostOps5_sub hostOps5_fresh (W9 m)),
    .region (reg5 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- Every weakly fair execution terminates, nothing faulting, with the result buffer at the last boundary's
    contents and every argument as launched. -/
theorem run_result : θ_run defs (onTc (τ := τ) (main (F := F))) ⟨m, fun _ => 0, ρ⟩ (fun r => ∀ c : Dev nD,
      r.2.mem ((c.tc : Thread nD τ).loc main_v68) = W11 m c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m) () cellOf_inj emb₁ defs₀ 𝒱₀ L lv m ρ main (items m)
    (fun c Q => by
      -- @main is the chain of its eleven items, and so is the segments' run
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        -- the last boundary, regrouped: the buffers and the register, beside the absent dues
        show (iprop(StableHlo.held (c : Thread nD τ) (Pipeline.ucRefs τ sig) (W11 m c)
            ∗ (∃ r, prngReg c r) ∗ ∃ W, owes (c : Thread nD τ) (0 : CellTallies nD τ sig Unit) W) : sProp 𝕄) ⊢ _
        iintro ⟨Hbufs, Hreg, Hdue⟩
        isplitr [Hdue]
        · isplitl [Hbufs]; · iexact Hbufs
          iexact Hreg
        iexact Hdue⟩)
    (hinit := by
      -- each core makes its first thread state from what the launch deals it
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem (((c : Thread nD τ)).1, b) = W11 m c b)
    (hfin := fun c s' => by
      -- the last thread state, read against a final state: every unscoped buffer holds the last boundary's contents
      iintro ⟨⟨Hbufs, -⟩, HSI⟩
      unfold StableHlo.held
      imodintro
      iapply (pointsTo_read_all (Pipeline.ucRefs τ sig) (fun b => (((c : Thread nD τ)).1, b)) (W11 m c) s')
      isplitl [Hbufs] <;> iassumption)
    (hQ := fun s h c =>
      ⟨h c _ (mem_uc main_v68 (by decide)),
       (h c _ (mem_uc main_arg0 (by decide))).trans (W11_main_arg0 m c),
       (h c _ (mem_uc main_arg1 (by decide))).trans (W11_main_arg1 m c),
       (h c _ (mem_uc main_arg2 (by decide))).trans (W11_main_arg2 m c),
       (h c _ (mem_uc main_arg3 (by decide))).trans (W11_main_arg3 m c),
       (h c _ (mem_uc main_arg4 (by decide))).trans (W11_main_arg4 m c),
       (h c _ (mem_uc main_arg5 (by decide))).trans (W11_main_arg5 m c),
       (h c _ (mem_uc main_arg6 (by decide))).trans (W11_main_arg6 m c),
       (h c _ (mem_uc main_arg7 (by decide))).trans (W11_main_arg7 m c),
       (h c _ (mem_uc main_arg8 (by decide))).trans (W11_main_arg8 m c)⟩)

/-- The frame: the same run, the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_result m ρ)

end Cert.KernelIdeal.Hand

end
-- ==== Proof.KI.Val0.lean ====
/- What the first linear map leaves in its product array, over the extended reals: entry (n, j) is the sum over
   the one contracted coordinate of the feature entry (n, k) times the weight entry (k, j). Each grid point writes
   back the rows 4096 t .. 4096 t + 4095, the 32 blocks cover the array, and a block's entry is the body's matrix
   product onto a zero accumulator of the point's feature block and the weight row. -/
import proofs.«410829_j31533649887385_2_alg».proof.Proof.KI.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The body's matrix product at an entry -/

/-- The product's row coordinate comes from the output's row. -/
theorem lhs0_row (i : S4096x64.Idx) (q : dot_S4096x1_S1x64_S4096x64_1_0_0_1_n_n.contr.Idx) :
    (dot_S4096x1_S1x64_S4096x64_1_0_0_1_n_n.lhsIdx i q 0).val = (i 0).val := by
  unfold DotDims.lhsIdx
  rw [dif_neg (show ¬(0 : Fin S4096x1.rank) ∈ dot_S4096x1_S1x64_S4096x64_1_0_0_1_n_n.lhsBatch by decide),
    dif_pos (show (0 : Fin S4096x1.rank) ∈ dot_S4096x1_S1x64_S4096x64_1_0_0_1_n_n.lhsNonContracting by decide)]
  rfl
theorem lhs0_contr (i : S4096x64.Idx) (q : dot_S4096x1_S1x64_S4096x64_1_0_0_1_n_n.contr.Idx) :
    (dot_S4096x1_S1x64_S4096x64_1_0_0_1_n_n.lhsIdx i q 1).val = (q ⟨0, by decide⟩).val :=
  dot_S4096x1_S1x64_S4096x64_1_0_0_1_n_n.lhsIdx_val_of_single rfl i q
theorem rhs0_contr (i : S4096x64.Idx) (q : dot_S4096x1_S1x64_S4096x64_1_0_0_1_n_n.contr.Idx) :
    (dot_S4096x1_S1x64_S4096x64_1_0_0_1_n_n.rhsIdx i q 0).val = (q ⟨0, by decide⟩).val :=
  dot_S4096x1_S1x64_S4096x64_1_0_0_1_n_n.rhsIdx_val_of_single rfl i q
theorem rhs0_col (i : S4096x64.Idx) (q : dot_S4096x1_S1x64_S4096x64_1_0_0_1_n_n.contr.Idx) :
    (dot_S4096x1_S1x64_S4096x64_1_0_0_1_n_n.rhsIdx i q 1).val = (i 1).val := by
  unfold DotDims.rhsIdx
  rw [dif_neg (show ¬(1 : Fin S1x64.rank) ∈ dot_S4096x1_S1x64_S4096x64_1_0_0_1_n_n.rhsBatch by decide),
    dif_pos (show (1 : Fin S1x64.rank) ∈ dot_S4096x1_S1x64_S4096x64_1_0_0_1_n_n.rhsNonContracting by decide)]
  rfl

/-- The body's product of a feature block and the weight row, at an entry of the block: the sum over the one
    contracted coordinate; the narrowing of the operands changes nothing over the extended reals and the
    accumulator is zero. -/
theorem pay0_apply (x : S4096x1.Idx → EReal) (w : S1x64.Idx → EReal) (p : Fin 4096) (q : Fin 64) :
    k0_pay1 (F := Ideal) x w (ix2 p q) = ∑ k : Fin 1, x (ix2 p k) * w (ix2 k q) := by
  unfold k0_pay1
  refine (Ideal.matmul_constant_zero_apply dot_S4096x1_S1x64_S4096x64_1_0_0_1_n_n none _ _ (ix2 p q)).trans ?_
  rw [← Equiv.sum_comp (contrEquiv1 dot_S4096x1_S1x64_S4096x64_1_0_0_1_n_n 1 rfl rfl).symm]
  refine Finset.sum_congr rfl fun k _ => ?_
  have hk := contrEquiv1_symm_val dot_S4096x1_S1x64_S4096x64_1_0_0_1_n_n 1 rfl rfl k
  have el : dot_S4096x1_S1x64_S4096x64_1_0_0_1_n_n.lhsIdx (ix2 p q) ((contrEquiv1 dot_S4096x1_S1x64_S4096x64_1_0_0_1_n_n 1 rfl rfl).symm k) = ix2 p k :=
    funext fun a => Fin.ext (by
      match a with
      | ⟨0, _⟩ => exact lhs0_row _ _
      | ⟨1, _⟩ => exact (lhs0_contr _ _).trans hk)
  have er : dot_S4096x1_S1x64_S4096x64_1_0_0_1_n_n.rhsIdx (ix2 p q) ((contrEquiv1 dot_S4096x1_S1x64_S4096x64_1_0_0_1_n_n 1 rfl rfl).symm k) = ix2 k q :=
    funext fun a => Fin.ext (by
      match a with
      | ⟨0, _⟩ => exact (rhs0_contr _ _).trans hk
      | ⟨1, _⟩ => exact rhs0_col _ _)
  rw [truncf_apply, truncf_apply, el, er, shapeCast_self]

-- the TensorCore's buffer contents when the region is entered, at the exact instance
variable (V : (c : Dev nD) → (b : Ref sig .tc) → Buf (Elt Ideal) ((c : Thread nD τ).loc b))

/-- The feature array, the weight array and the product array after the region, at their literal types. -/
abbrev kx0 (c : Dev nD) : S131072x1.Idx → EReal := V c main_v28
abbrev kw0 (c : Dev nD) : S1x64.Idx → EReal := V c main_arg3
abbrev ko0 (c : Dev nD) : S131072x64.Idx → EReal := (dat0 (F := Ideal) V c).arrAt 2 cfg0.N

/-! ## The blocks at a point -/

/-- Every access of the body starts at the origin of its buffer. -/
theorem origin0 : (![0, 0] : Fin 2 → Nat) = fun _ => 0 := funext fun a => by fin_cases a <;> rfl

/-- The block indices over the grid: the feature and product windows move down with the point, in their one column
    of blocks; the weight window stays on its one block. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the feature block at point t is entry (4096 t + p, k) of the feature array. -/
theorem xblk0_apply (c : Dev nD) (t : Fin cfg0.N) (p : Fin 4096) (k : Fin 1) (n : Fin 131072)
    (hn : n.val = 4096 * t.val + p.val) :
    (iblk0 (F := Ideal) V c 0 t : S4096x1.Idx → EReal) (ix2 p k) = kx0 V c (ix2 n k) := by
  obtain ⟨e0, e1, -, -, -, -⟩ := index0 t
  show V c main_v28 (((cfg0.win 0).blk t).view.emb (ix2 p k)) = V c main_v28 (ix2 n k)
  refine congrArg (V c main_v28) (funext fun a => Fin.ext ?_)
  match a with
  | ⟨0, _⟩ => show win0_0.index t (0 : Fin 2) * 4096 + 1 * p.val = n.val; rw [e0, hn]; omega
  | ⟨1, _⟩ => show win0_0.index t (1 : Fin 2) * 1 + 1 * k.val = k.val; rw [e1]; omega

/-- The weight block at every point is the weight array. -/
theorem wblk0_apply (c : Dev nD) (t : Fin cfg0.N) (k : Fin 1) (q : Fin 64) :
    (iblk0 (F := Ideal) V c 1 t : S1x64.Idx → EReal) (ix2 k q) = kw0 V c (ix2 k q) := by
  obtain ⟨-, -, e0, e1, -, -⟩ := index0 t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 1 + 1 * k.val = k.val; rw [e0]; omega
  | ⟨1, _⟩ => show win0_1.index t (1 : Fin 2) * 64 + 1 * q.val = q.val; rw [e1]; omega

/-! ## From the blocks to the array -/

/-- The product array as one function of the feature and weight arrays. -/
abbrev prod0 (x : S131072x1.Idx → EReal) (w : S1x64.Idx → EReal) : S131072x64.Idx → EReal :=
  fun i => ∑ k : Fin 1, x (ix2 (⟨(i 0).val, (i 0).isLt⟩ : Fin 131072) k) * w (ix2 k (⟨(i 1).val, (i 1).isLt⟩ : Fin 64))

/-- What point t writes back is its block of the product array: rows 4096 t .. 4096 t + 4095. -/
theorem flushed0 (c : Dev nD) (t : Fin cfg0.N) :
    (dat0 (F := Ideal) V c).flushed 2 t = ((cfg0.win 2).blk t).view.read (Elt Ideal) (prod0 (kx0 V c) (kw0 V c)) := by
  show (cfg0.win 2).cut (grid0.coords t) ((dat0 (F := Ideal) V c).after 2 t) = _
  rw [after0_2]
  unfold out0_2
  rw [View.canon_unit_zero origin0]
  simp only [View.ld_unit_zero (S := S4096x1) origin0, View.ld_unit_zero (S := S1x64) origin0]
  obtain ⟨-, -, -, -, e0, e1⟩ := index0 t
  funext j
  have hp : (j 0).val < 4096 := (j 0).isLt
  have hq : (j 1).val < 64 := (j 1).isLt
  have hj : j = ix2 (⟨(j 0).val, hp⟩ : Fin 4096) (⟨(j 1).val, hq⟩ : Fin 64) := eq_ix2 j
  have hrow : ((((cfg0.win 2).blk t).view.emb j) 0).val = 4096 * t.val + (j 0).val := by
    show win0_2.index t (0 : Fin 2) * 4096 + 1 * (j 0).val = _; rw [e0]; omega
  have hcol : ((((cfg0.win 2).blk t).view.emb j) 1).val = (j 1).val := by
    show win0_2.index t (1 : Fin 2) * 64 + 1 * (j 1).val = _; rw [e1]; omega
  show k0_pay1 (F := Ideal) (iblk0 V c 0 t) (iblk0 V c 1 t) j = prod0 (kx0 V c) (kw0 V c) (((cfg0.win 2).blk t).view.emb j)
  refine ((congrArg (k0_pay1 (F := Ideal) (iblk0 V c 0 t) (iblk0 V c 1 t)) hj).trans (pay0_apply _ _ _ _)).trans
    (Finset.sum_congr rfl fun k _ => ?_)
  exact congrArg₂ (· * ·) (xblk0_apply V c t ⟨(j 0).val, hp⟩ k _ hrow)
    ((wblk0_apply V c t k ⟨(j 1).val, hq⟩).trans (congrArg (fun q => kw0 V c (ix2 k q)) (Fin.ext hcol.symm)))

/-- Row r of the product array lies in the block of point r / 4096. -/
theorem cover0 (i : S131072x64.Idx) :
    ∃ t : Fin cfg0.N, (cfg0.win 2).flush t = true ∧ i ∈ ((cfg0.win 2).blk t).view.set := by
  have hr : (i 0).val < 131072 := (i 0).isLt
  have hc : (i 1).val < 64 := (i 1).isLt
  obtain ⟨t, ht⟩ : ∃ t : Fin cfg0.N, t.val = (i 0).val / 4096 := ⟨⟨(i 0).val / 4096, by show _ < 32; omega⟩, rfl⟩
  obtain ⟨-, -, -, -, e0, e1⟩ := index0 t
  refine ⟨t, flush0_2 t, ?_⟩
  show i ∈ ((View.whole main_v29).slice (win0_2.rect t)).set
  rw [View.set_slice_whole, Rect.mem_set_unit]
  intro a
  match a with
  | ⟨0, _⟩ =>
    show win0_2.index t (0 : Fin 2) * 4096 ≤ (i 0).val ∧ (i 0).val < win0_2.index t (0 : Fin 2) * 4096 + 4096
    rw [e0, ht]; omega
  | ⟨1, _⟩ =>
    show win0_2.index t (1 : Fin 2) * 64 ≤ (i 1).val ∧ (i 1).val < win0_2.index t (1 : Fin 2) * 64 + 64
    rw [e1]; omega

/-- The product array after the region. -/
theorem array0 (c : Dev nD) : ko0 V c = prod0 (kx0 V c) (kw0 V c) :=
  (dat0 (F := Ideal) V c).arrAt_eq_of_cover 2 (prod0 (kx0 V c) (kw0 V c)) (fun t _ => flushed0 V c t) cover0

theorem val0 (c : Dev nD) (n : Fin 131072) (j : Fin 64) :
    ko0 V c (ix2 n j) = ∑ k : Fin 1, kx0 V c (ix2 n k) * kw0 V c (ix2 k j) := by
  rw [array0]

end Cert.KernelIdeal.Hand

end
-- ==== Proof.KI.Val1.lean ====
/- What the first combine step leaves in its output array, over the extended reals: entry (n, j) is the larger of
   zero and (message (n, j) + (degree factor n squared) * feature (n, j)) + bias j. Each grid point writes back
   the rows 4096 t .. 4096 t + 4095 and the 32 blocks cover the array. -/
import proofs.«410829_j31533649887385_2_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered, at the exact instance
variable (V : (c : Dev nD) → (b : Ref sig .tc) → Buf (Elt Ideal) ((c : Thread nD τ).loc b))

/-- The feature array, the message array, the degree factors, the bias row and the output array after the region,
    at their literal types. -/
abbrev kh1 (c : Dev nD) : S131072x64.Idx → EReal := V c main_v29
abbrev ka1 (c : Dev nD) : S131072x64.Idx → EReal := V c main_v42
abbrev kd1 (c : Dev nD) : S131072x1.Idx → EReal := V c main_v27
abbrev kb1 (c : Dev nD) : S1x64.Idx → EReal := V c main_v43
abbrev ko1 (c : Dev nD) : S131072x64.Idx → EReal := (dat1 (F := Ideal) V c).arrAt 4 cfg1.N

/-! ## The payload at an index -/

/-- The offsets of a whole-block access are zero. -/
theorem hz1 : (![0, 0] : Fin 2 → Nat) = fun _ => 0 :=
  funext fun a => by match a with | ⟨0, _⟩ => rfl | ⟨1, _⟩ => rfl

/-- A column `[a, 1]` broadcast to `[a, b]` reads, at `(p, c)`, the column's entry of row `p`. -/
theorem broadcastTo_col1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at one entry of the block: the larger of zero and
    (message + (degree factor squared) * feature) + bias. -/
theorem pay1_apply (xd : Vec Ideal S4096x1 .f32) (xh xa : Vec Ideal S4096x64 .f32) (xb : Vec Ideal S1x64 .f32)
    (p : Fin 4096) (q : Fin 64) :
    (k1_pay1 (F := Ideal) xd xh xa xb) (ix2 p q)
      = max ((xa (ix2 p q) + (xd (ix2 p 0) * xd (ix2 p 0)) * xh (ix2 p q)) + xb (ix2 0 q)) 0 := by
  unfold k1_pay1
  have e1 : shapeCast S4096x1 xd shapeCasts_S4096x1_S4096x1 = xd := shapeCast_self xd _
  have e2 : shapeCast S4096x64 xa shapeCasts_S4096x64_S4096x64 = xa := shapeCast_self xa _
  have e3 : shapeCast S4096x64 xh shapeCasts_S4096x64_S4096x64 = xh := shapeCast_self xh _
  have e4 : shapeCast S1x64 xb shapeCasts_S1x64_S1x64 = xb := shapeCast_self xb _
  rw [e1, e2, e3, e4]
  show max ((xa (ix2 p q)
        + (broadcastTo S4096x64 (mulf xd xd : FVec Ideal S4096x1 .f32) broadcasts_S4096x1_S4096x64 (ix2 p q) : EReal) * xh (ix2 p q))
      + (broadcastTo S4096x64 xb broadcasts_S1x64_S4096x64 (ix2 p q) : EReal)) (Ideal.ofBits .f32 0x00000000#32) = _
  rw [broadcastTo_col1_apply (mulf xd xd : FVec Ideal S4096x1 .f32) broadcasts_S4096x1_S4096x64 p q,
    broadcastTo_1b_ab_apply xb broadcasts_S1x64_S4096x64 p q, Ideal.ofBits_zero_f32]
  rfl

/-! ## The blocks, read off the arrays -/

/-- The printed index maps over the grid: the row blocks move with the point, the bias row stays. -/
theorem idx1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of point `t`'s block is a row of the array. -/
theorem row1_lt (t : Fin cfg1.N) (p : Fin 4096) : 4096 * t.val + p.val < 131072 := by
  have ht : t.val < 32 := N_1 ▸ t.isLt
  have hp := p.isLt
  omega

/-- The feature block at point `t` is rows `4096 t ..` of the feature array. -/
theorem iblk1_0_apply (c : Dev nD) (t : Fin cfg1.N) (p : Fin 4096) (q : Fin 64) :
    (iblk1 (F := Ideal) V c 0 t : Vec Ideal S4096x64 .f32) (ix2 p q)
      = kh1 V c (ix2 ⟨4096 * t.val + p.val, row1_lt t p⟩ q) := by
  obtain ⟨e0, e1, -⟩ := idx1_facts t
  unfold iblk1
  rw [View.read_apply]
  show V c main_v29 _ = V c main_v29 _
  congr 1
  funext a
  apply Fin.ext
  match a with
  | ⟨0, _⟩ => show win1_0.index t 0 * 4096 + 1 * p.val = 4096 * t.val + p.val; rw [e0]; omega
  | ⟨1, _⟩ => show win1_0.index t 1 * 64 + 1 * q.val = q.val; rw [e1]; omega

/-- The message block at point `t` is rows `4096 t ..` of the message array. -/
theorem iblk1_1_apply (c : Dev nD) (t : Fin cfg1.N) (p : Fin 4096) (q : Fin 64) :
    (iblk1 (F := Ideal) V c 1 t : Vec Ideal S4096x64 .f32) (ix2 p q)
      = ka1 V c (ix2 ⟨4096 * t.val + p.val, row1_lt t p⟩ q) := by
  obtain ⟨-, -, e0, e1, -⟩ := idx1_facts t
  unfold iblk1
  rw [View.read_apply]
  show V c main_v42 _ = V c main_v42 _
  congr 1
  funext a
  apply Fin.ext
  match a with
  | ⟨0, _⟩ => show win1_1.index t 0 * 4096 + 1 * p.val = 4096 * t.val + p.val; rw [e0]; omega
  | ⟨1, _⟩ => show win1_1.index t 1 * 64 + 1 * q.val = q.val; rw [e1]; omega

/-- The degree-factor block at point `t` is rows `4096 t ..` of the degree-factor column. -/
theorem iblk1_2_apply (c : Dev nD) (t : Fin cfg1.N) (p : Fin 4096) :
    (iblk1 (F := Ideal) V c 2 t : Vec Ideal S4096x1 .f32) (ix2 p 0)
      = kd1 V c (ix2 ⟨4096 * t.val + p.val, row1_lt t p⟩ 0) := by
  obtain ⟨-, -, -, -, e0, e1, -⟩ := idx1_facts t
  unfold iblk1
  rw [View.read_apply]
  show V c main_v27 _ = V c main_v27 _
  congr 1
  funext a
  apply Fin.ext
  match a with
  | ⟨0, _⟩ => show win1_2.index t 0 * 4096 + 1 * p.val = 4096 * t.val + p.val; rw [e0]; omega
  | ⟨1, _⟩ => show win1_2.index t 1 * 1 + 1 * 0 = 0; rw [e1]

/-- The bias block at every point is the bias row. -/
theorem iblk1_3_apply (c : Dev nD) (t : Fin cfg1.N) (q : Fin 64) :
    (iblk1 (F := Ideal) V c 3 t : Vec Ideal S1x64 .f32) (ix2 0 q) = kb1 V c (ix2 0 q) := by
  obtain ⟨-, -, -, -, -, -, e0, e1, -⟩ := idx1_facts t
  unfold iblk1
  rw [View.read_apply]
  show V c main_v43 _ = V c main_v43 _
  congr 1
  funext a
  apply Fin.ext
  match a with
  | ⟨0, _⟩ => show win1_3.index t 0 * 1 + 1 * 0 = 0; rw [e0]
  | ⟨1, _⟩ => show win1_3.index t 1 * 64 + 1 * q.val = q.val; rw [e1]; omega

/-- An entry of the output block at point `t` sits in the output array at row `4096 t + p`. -/
theorem emb1_4 (t : Fin cfg1.N) (p : Fin 4096) (q : Fin 64) :
    (((cfg1.win 4).blk t).view.emb (ix2 p q) : S131072x64.Idx) = ix2 ⟨4096 * t.val + p.val, row1_lt t p⟩ q := by
  obtain ⟨-, -, -, -, -, -, -, -, e0, e1⟩ := idx1_facts t
  funext a
  apply Fin.ext
  match a with
  | ⟨0, _⟩ => show win1_4.index t 0 * 4096 + 1 * p.val = 4096 * t.val + p.val; rw [e0]; omega
  | ⟨1, _⟩ => show win1_4.index t 1 * 64 + 1 * q.val = q.val; rw [e1]; omega

/-! ## From the blocks to the array -/

/-- The combined array as one function of the four arrays the region is entered with. -/
def comb1 (c : Dev nD) : S131072x64.Idx → EReal := fun i =>
  max ((ka1 V c i + (kd1 V c (ix2 (i 0 : Fin 131072) 0) * kd1 V c (ix2 (i 0 : Fin 131072) 0)) * kh1 V c i)
    + kb1 V c (ix2 0 (i 1 : Fin 64))) 0

theorem comb1_apply (c : Dev nD) (n : Fin 131072) (j : Fin 64) :
    comb1 V c (ix2 n j)
      = max ((ka1 V c (ix2 n j) + (kd1 V c (ix2 n 0) * kd1 V c (ix2 n 0)) * kh1 V c (ix2 n j)) + kb1 V c (ix2 0 j)) 0 := rfl

/-- What point `t` writes back is block `t` of the combined array. -/
theorem flushed1_4_eq (c : Dev nD) (t : Fin cfg1.N) :
    (dat1 (F := Ideal) V c).flushed 4 t = ((cfg1.win 4).blk t).view.read (Elt Ideal) (comb1 V c) := by
  show (cfg1.win 4).cut (grid1.coords t) ((dat1 (F := Ideal) V c).after 4 t) = _
  rw [after1_4]
  unfold out1_4
  rw [View.canon_unit_zero hz1]
  simp only [View.ld_unit_zero (S := S4096x64) hz1, View.ld_unit_zero (S := S4096x1) hz1, View.ld_unit_zero (S := S1x64) hz1]
  funext y
  obtain ⟨p, q, rfl⟩ : ∃ (p : Fin 4096) (q : Fin 64), y = ix2 p q := ⟨y 0, y 1, eq_ix2 y⟩
  show (k1_pay1 (F := Ideal) (iblk1 V c 2 t) (iblk1 V c 0 t) (iblk1 V c 1 t) (iblk1 V c 3 t)) (ix2 p q)
    = comb1 V c (((cfg1.win 4).blk t).view.emb (ix2 p q))
  rw [emb1_4 t p q, comb1_apply]
  refine (pay1_apply (iblk1 V c 2 t) (iblk1 V c 0 t) (iblk1 V c 1 t) (iblk1 V c 3 t) p q).trans ?_
  rw [iblk1_0_apply V c t p q, iblk1_1_apply V c t p q, iblk1_2_apply V c t p, iblk1_3_apply V c t q]

/-- An index of the output array is in point `t`'s block iff each coordinate is in the block's range on its axis. -/
theorem mem_blk1_4 (t : Fin cfg1.N) (i : S131072x64.Idx) :
    i ∈ ((cfg1.win 4).blk t).view.set
      ↔ ∀ a : Fin 2, win1_4.index t a * S4096x64.size a ≤ (i a).val ∧ (i a).val < win1_4.index t a * S4096x64.size a + S4096x64.size a := by
  show i ∈ ((View.whole main_v44).slice (win1_4.rect t)).set ↔ _
  rw [View.set_slice_whole, Rect.mem_set_unit]
  exact Iff.rfl

/-- Row `r` of the output array is written back by the point `r / 4096`: the 32 blocks cover the array. -/
theorem cover1_4_arr (i : S131072x64.Idx) :
    ∃ t : Fin cfg1.N, (cfg1.win 4).flush t = true ∧ i ∈ ((cfg1.win 4).blk t).view.set := by
  have hi0 : (i 0).val < 131072 := (i 0).isLt
  have hi1 : (i 1).val < 64 := (i 1).isLt
  have hN : cfg1.N = 32 := N_1
  let t : Fin cfg1.N := ⟨(i 0).val / 4096, by rw [hN]; omega⟩
  have ht : t.val = (i 0).val / 4096 := rfl
  obtain ⟨-, -, -, -, -, -, -, -, e0, e1⟩ := idx1_facts t
  refine ⟨t, flush1_4 t, ?_⟩
  rw [mem_blk1_4]
  intro a
  match a with
  | ⟨0, _⟩ =>
    show win1_4.index t (0 : Fin 2) * 4096 ≤ (i 0).val ∧ (i 0).val < win1_4.index t (0 : Fin 2) * 4096 + 4096
    rw [e0, ht]; omega
  | ⟨1, _⟩ =>
    show win1_4.index t (1 : Fin 2) * 64 ≤ (i 1).val ∧ (i 1).val < win1_4.index t (1 : Fin 2) * 64 + 64
    rw [e1]; omega

/-- The output array after the region is the combined array. -/
theorem final1_4 (c : Dev nD) : ko1 V c = comb1 V c :=
  (dat1 (F := Ideal) V c).arrAt_eq_of_cover 4 (comb1 V c) (fun t _ => flushed1_4_eq V c t) cover1_4_arr

theorem val1 (c : Dev nD) (n : Fin 131072) (j : Fin 64) :
    ko1 V c (ix2 n j)
      = max ((ka1 V c (ix2 n j) + (kd1 V c (ix2 n 0) * kd1 V c (ix2 n 0)) * kh1 V c (ix2 n j)) + kb1 V c (ix2 0 j)) 0 := by
  rw [final1_4 V c, comb1_apply]

end Cert.KernelIdeal.Hand

end
-- ==== Proof.KI.ChainA.lean ====
/- The kernel program's buffers against the reference's stages, first layer, up to the first linear map. The host
   operations that compute the inverse square-root degrees and the edge norms are the same operations in both
   programs, applied to the same edge list, so those two arrays agree; and the first linear map's array is the
   reference's product entry by entry: one contracted coordinate, the node features laid out as one column. -/
import proofs.«410829_j31533649887385_2_alg».proof.Proof.KI.Fold
import proofs.«410829_j31533649887385_2_alg».proof.Proof.KI.Val0
import proofs.«410829_j31533649887385_2_alg».proof.Proof.KI.Val1
import proofs.«410829_j31533649887385_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The nine arguments as launched on core `c`. -/
abbrev a0 (c : Dev nD) : S131072.Idx → EReal := m ((c.tc : Thread nD τ).loc main_arg0)
abbrev a1 (c : Dev nD) : S2x4194304.Idx → BitVec 32 := m ((c.tc : Thread nD τ).loc main_arg1)
abbrev a2 (c : Dev nD) : S131072.Idx → BitVec 32 := m ((c.tc : Thread nD τ).loc main_arg2)
abbrev a3 (c : Dev nD) : S1x64.Idx → EReal := m ((c.tc : Thread nD τ).loc main_arg3)
abbrev a4 (c : Dev nD) : S64.Idx → EReal := m ((c.tc : Thread nD τ).loc main_arg4)
abbrev a5 (c : Dev nD) : S64x64.Idx → EReal := m ((c.tc : Thread nD τ).loc main_arg5)
abbrev a6 (c : Dev nD) : S64.Idx → EReal := m ((c.tc : Thread nD τ).loc main_arg6)
abbrev a7 (c : Dev nD) : S128x10.Idx → EReal := m ((c.tc : Thread nD τ).loc main_arg7)
abbrev a8 (c : Dev nD) : S10.Idx → EReal := m ((c.tc : Thread nD τ).loc main_arg8)

/-- The first layer's buffers at their boundaries, at their literal types: the inverse square-root degrees, the edge
    norms, the first linear map's array. -/
abbrev bdinv (c : Dev nD) : S131072.Idx → EReal := W1 m c main_v11
abbrev bnorm (c : Dev nD) : S4194304.Idx → EReal := W1 m c main_v26
abbrev bh1 (c : Dev nD) : S131072x64.Idx → EReal := W2 m c main_v29

/-- The inverse square-root degrees. -/
theorem K_dinv (c : Dev nD) : bdinv m c = Cert.ReferenceIdeal.Read.val_main_v11 (F := Ideal) (a1 m c) := by
  show StableHlo.after hostOps0 (W0 m c) (Proc.devRef .tc main_v11) = _
  after_results
  rfl

set_option maxHeartbeats 8000000 in
/-- The edge norms. -/
theorem K_norm (c : Dev nD) : bnorm m c = Cert.ReferenceIdeal.Read.val_main_v28 (F := Ideal) (a1 m c) := by
  show StableHlo.after hostOps0 (W0 m c) (Proc.devRef .tc main_v26) = _
  after_results
  rfl

/-- The node features laid out as one column: entry (n, k) of the column is entry n of the vector. -/
theorem x28_apply (c : Dev nD) (n : Fin 131072) (k : Fin 1) :
    (W1 m c main_v28 : S131072x1.Idx → EReal) (ix2 n k) = a0 m c (ix1 n) := by
  have e : (W1 m c main_v28 : S131072x1.Idx → EReal) = shapeCast S131072x1 (a0 m c) shapeCasts_S131072_S131072x1 := by
    show StableHlo.after hostOps0 (W0 m c) (Proc.devRef .tc main_v28) = _
    after_results
    rfl
  rw [e]
  exact shapeCast_apply (a0 m c) shapeCasts_S131072_S131072x1 (ix2 n k) (ix1 n)
    (by rw [Shape.rowMajor_val_two, Shape.rowMajor_val_one]; have := k.isLt; show n.val = n.val * 1 + k.val; omega)

/-- The first linear map. -/
theorem K_h1 (c : Dev nD) : bh1 m c = Cert.ReferenceIdeal.Read.val_main_v13 (F := Ideal) (a0 m c) (a3 m c) := by
  have hW : bh1 m c = ko0 (V1 m) c := W2_arr m c 2
  refine hW.trans (funext fun i => ?_)
  obtain ⟨n, j, rfl⟩ : ∃ n j, i = ix2 n j := ⟨i 0, i 1, eq_ix2 i⟩
  rw [val0 (V1 m) c n j, Cert.ReferenceIdeal.Read.val_main_v13_apply]
  refine Finset.sum_congr rfl fun k _ => ?_
  rw [Cert.ReferenceIdeal.Read.val_main_v12_apply]
  have e3 : (kw0 (V1 m) c : S1x64.Idx → EReal) = a3 m c := W1_of m c main_arg3 (by decide)
  have ex : kx0 (V1 m) c (ix2 n k) = a0 m c (ix1 n) := x28_apply m c n k
  rw [e3, ex]
  congr 1
  · exact congrArg (a0 m c) (funext fun a => match a with | ⟨0, _⟩ => rfl)
  · exact congrArg (a3 m c) (funext fun a => match a with | ⟨0, _⟩ => rfl | ⟨1, _⟩ => rfl)

end Cert.KernelIdeal.Hand

end
-- ==== Proof.KI.ChainAx.lean ====
/- The kernel program's buffers against the reference's stages, first layer, second half: the aggregated messages are
   the same host operations in both programs on operands already identified (the edge norms, the first linear map's
   array), and the combine step's array is the reference's first-layer output entry by entry (messages plus squared
   degree factor times feature, plus bias, the larger of that and zero). -/
import proofs.«410829_j31533649887385_2_alg».proof.Proof.KI.ChainA
import proofs.«410829_j31533649887385_2_alg».proof.Proof.KI.Val1
import proofs.«410829_j31533649887385_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The aggregated messages and the layer's output at their boundaries, at their literal types. -/
abbrev bagg1 (c : Dev nD) : S131072x64.Idx → EReal := W3 m c main_v42
abbrev bx1 (c : Dev nD) : S131072x64.Idx → EReal := W4 m c main_v44

namespace Layer1

/-- The edges' row indices after the first host stretch: the first row of the edge list, laid out as a vector. -/
theorem rows_host (c : Dev nD) : (W1 m c main_v1 : S4194304.Idx → BitVec 32)
    = Cert.ReferenceIdeal.Read.val_main_v1 (F := Ideal) (a1 m c) := by
  show StableHlo.after hostOps0 _ (Proc.devRef .tc main_v1) = _
  after_results_simp
  rfl

/-- The edges' column indices after the first host stretch: the second row of the edge list, laid out as a vector. -/
theorem cols_host (c : Dev nD) : (W1 m c main_v3 : S4194304.Idx → BitVec 32)
    = Cert.ReferenceIdeal.Read.val_main_v3 (F := Ideal) (a1 m c) := by
  show StableHlo.after hostOps0 _ (Proc.devRef .tc main_v3) = _
  after_results_simp
  rfl

/-- The column of degree factors the combine step reads is the vector of them laid out as a column. -/
theorem dinv_col (c : Dev nD) : (W1 m c main_v27 : S131072x1.Idx → EReal)
    = shapeCast S131072x1 (W1 m c main_v11 : S131072.Idx → EReal) shapeCasts_S131072_S131072x1 := by
  show StableHlo.after hostOps0 _ (Proc.devRef .tc main_v27)
    = shapeCast S131072x1 (StableHlo.after hostOps0 _ (Proc.devRef .tc main_v11)) shapeCasts_S131072_S131072x1
  after_results_simp
  rfl

/-- The aggregation of messages as one function of the edge norms, the edges' row and column indices and the feature
    array: an edge's message is its norm times the feature row at its row index (a negative index counts from the
    end), and the messages are added, from zero, into the rows at their column indices. -/
def agg1Of (nrm : S4194304.Idx → EReal) (row col : S4194304.Idx → BitVec 32) (h : S131072x64.Idx → EReal) :
    S131072x64.Idx → EReal :=
  Host.scatterAdd (F := Ideal) scatter_S131072x64_S4194304x1_S4194304x64_1_0_0_1
    (broadcastInDim S131072x64 ![] bcast_S_S131072x64 (constant (F := Ideal) S_ .f32 0x00000000#32))
    (broadcastInDim S4194304x1 ![0] bcast_S4194304_S4194304x1_0 col)
    (mulf (F := Ideal)
      (broadcastInDim S4194304x64 ![0, 1] bcast_S4194304x1_S4194304x64_0_1
        (broadcastInDim S4194304x1 ![0] bcast_S4194304_S4194304x1_0 nrm))
      (Host.gather gather_S131072x64_S4194304x1_S4194304x64_1_0_n_n_0_1_164 h
        (broadcastInDim S4194304x1 ![0] bcast_S4194304_S4194304x1_0
          (select (cmpi .slt row (broadcastInDim S4194304 ![] bcast_S_S4194304 (constantI S_ 32 0#32)))
            (addi row (broadcastInDim S4194304 ![] bcast_S_S4194304 (constantI S_ 32 131072#32))) row))))

/-- Whatever the second host stretch starts from, it leaves in the message array that function of the norms, the
    indices and the feature array it found. -/
theorem agg1_after (G : Valuation τ sig (Elt Ideal)) :
    (StableHlo.after hostOps1 G (Proc.devRef .tc main_v42) : S131072x64.Idx → EReal)
      = agg1Of (G (Proc.devRef .tc main_v26)) (G (Proc.devRef .tc main_v1)) (G (Proc.devRef .tc main_v3)) (G (Proc.devRef .tc main_v29)) := by
  after_results_simp
  rfl

/-- The kernel program's aggregated messages are that function of what the region before left. -/
theorem agg1_host (c : Dev nD) : (W3 m c main_v42 : S131072x64.Idx → EReal)
    = agg1Of (W2 m c main_v26) (W2 m c main_v1) (W2 m c main_v3) (W2 m c main_v29) :=
  agg1_after (W2 m c)

/-- The reference's aggregated messages are that function of its stages. -/
theorem agg1_ref (x0 : S131072.Idx → EReal) (x1 : S2x4194304.Idx → BitVec 32) (x3 : S1x64.Idx → EReal) :
    Cert.ReferenceIdeal.Read.val_main_v41 (F := Ideal) x0 x1 x3
      = agg1Of (Cert.ReferenceIdeal.Read.val_main_v28 (F := Ideal) x1) (Cert.ReferenceIdeal.Read.val_main_v1 (F := Ideal) x1)
          (Cert.ReferenceIdeal.Read.val_main_v3 (F := Ideal) x1) (Cert.ReferenceIdeal.Read.val_main_v13 (F := Ideal) x0 x3) := by
  unfold Cert.ReferenceIdeal.Read.val_main_v41 Cert.ReferenceIdeal.Read.val_main_v40 Cert.ReferenceIdeal.Read.val_main_v39
    Cert.ReferenceIdeal.Read.val_main_cst_8 Cert.ReferenceIdeal.Read.val_main_v38 Cert.ReferenceIdeal.Read.val_main_v37
    Cert.ReferenceIdeal.Read.val_main_v36 Cert.ReferenceIdeal.Read.val_main_v35 Cert.ReferenceIdeal.Read.val_main_v34
    Cert.ReferenceIdeal.Read.val_main_v33 Cert.ReferenceIdeal.Read.val_main_v32 Cert.ReferenceIdeal.Read.val_main_c_7
    Cert.ReferenceIdeal.Read.val_main_v31 Cert.ReferenceIdeal.Read.val_main_v30 Cert.ReferenceIdeal.Read.val_main_c_6
    Cert.ReferenceIdeal.Read.val_main_v29 agg1Of
  generalize Cert.ReferenceIdeal.Read.val_main_v28 (F := Ideal) x1 = nrm
  generalize Cert.ReferenceIdeal.Read.val_main_v1 (F := Ideal) x1 = row
  generalize Cert.ReferenceIdeal.Read.val_main_v3 (F := Ideal) x1 = col
  generalize Cert.ReferenceIdeal.Read.val_main_v13 (F := Ideal) x0 x3 = h
  rfl

/-- The norms, the indices and the feature array as the second host stretch finds them are the reference's stages. -/
theorem norm_stage (c : Dev nD) : (W2 m c main_v26 : S4194304.Idx → EReal) = Cert.ReferenceIdeal.Read.val_main_v28 (F := Ideal) (a1 m c) :=
  (W2_of_ne m c main_v26 (by decide)).trans (K_norm m c)
theorem rows_stage (c : Dev nD) : (W2 m c main_v1 : S4194304.Idx → BitVec 32) = Cert.ReferenceIdeal.Read.val_main_v1 (F := Ideal) (a1 m c) :=
  (W2_of_ne m c main_v1 (by decide)).trans (rows_host m c)
theorem cols_stage (c : Dev nD) : (W2 m c main_v3 : S4194304.Idx → BitVec 32) = Cert.ReferenceIdeal.Read.val_main_v3 (F := Ideal) (a1 m c) :=
  (W2_of_ne m c main_v3 (by decide)).trans (cols_host m c)

end Layer1

open Layer1

/-- The first layer's aggregated messages. -/
theorem K_agg1 (c : Dev nD) : bagg1 m c = Cert.ReferenceIdeal.Read.val_main_v41 (F := Ideal) (a0 m c) (a1 m c) (a3 m c) := by
  rw [agg1_ref]
  refine (agg1_host m c).trans ?_
  rw [norm_stage, rows_stage, cols_stage]
  exact congrArg (agg1Of _ _ _) (K_h1 m c)

namespace Layer1

/-! ## The combine step -/

/-- The degree factor the combine step reads for node n is the vector's entry n. -/
theorem dinv_entry (c : Dev nD) (n : Fin 131072) :
    (W3 m c main_v27 : S131072x1.Idx → EReal) (ix2 n 0) = Cert.ReferenceIdeal.Read.val_main_v11 (F := Ideal) (a1 m c) (ix1 n) := by
  have e : (W3 m c main_v27 : S131072x1.Idx → EReal) = W1 m c main_v27 :=
    (W3_of m c main_v27 (by decide)).trans (W2_of_ne m c main_v27 (by decide))
  rw [e, dinv_col, ← K_dinv m c]
  refine shapeCast_apply (bdinv m c) shapeCasts_S131072_S131072x1 (ix2 n 0) (ix1 n) ?_
  rw [Shape.rowMajor_val_one, Shape.rowMajor_val_two]
  show n.val = n.val * 1 + (0 : ℕ)
  omega

/-- Whatever the second host stretch starts from, it leaves the bias vector laid out as one row. -/
theorem bias1_after (G : Valuation τ sig (Elt Ideal)) :
    (StableHlo.after hostOps1 G (Proc.devRef .tc main_v43) : S1x64.Idx → EReal)
      = shapeCast S1x64 (G (Proc.devRef .tc main_arg4) : S64.Idx → EReal) shapeCasts_S64_S1x64 := by
  after_results_simp
  rfl

/-- The bias the combine step reads for feature j is the bias vector's entry j. -/
theorem bias1_entry (c : Dev nD) (j : Fin 64) :
    (W3 m c main_v43 : S1x64.Idx → EReal) (ix2 0 j) = a4 m c (ix1 j) := by
  have e : (W2 m c main_arg4 : S64.Idx → EReal) = a4 m c :=
    (W2_of_ne m c main_arg4 (by decide)).trans (W1_of m c main_arg4 (by decide))
  rw [show (W3 m c main_v43 : S1x64.Idx → EReal) = _ from bias1_after (W2 m c), e]
  refine shapeCast_apply (a4 m c) shapeCasts_S64_S1x64 (ix2 0 j) (ix1 j) ?_
  rw [Shape.rowMajor_val_one, Shape.rowMajor_val_two]
  show j.val = (0 : ℕ) * 64 + j.val
  omega

end Layer1

/-- The first layer's output. -/
theorem K_x1 (c : Dev nD) : bx1 m c = Cert.ReferenceIdeal.Read.val_main_v50 (F := Ideal) (a0 m c) (a1 m c) (a3 m c) (a4 m c) := by
  funext i
  obtain ⟨n, j, rfl⟩ : ∃ (n : Fin 131072) (j : Fin 64), i = ix2 n j := ⟨i 0, i 1, eq_ix2 i⟩
  have hreg : bx1 m c = ko1 (V3 m) c := W4_arr m c 4
  have hA : ka1 (V3 m) c (ix2 n j) = Cert.ReferenceIdeal.Read.val_main_v41 (F := Ideal) (a0 m c) (a1 m c) (a3 m c) (ix2 n j) :=
    congrFun (K_agg1 m c) (ix2 n j)
  have hH : kh1 (V3 m) c (ix2 n j) = Cert.ReferenceIdeal.Read.val_main_v13 (F := Ideal) (a0 m c) (a3 m c) (ix2 n j) :=
    congrFun ((W3_of m c main_v29 (by decide)).trans (K_h1 m c)) (ix2 n j)
  have hD : kd1 (V3 m) c (ix2 n 0) = Cert.ReferenceIdeal.Read.val_main_v11 (F := Ideal) (a1 m c) (ix1 n) := dinv_entry m c n
  have hB : kb1 (V3 m) c (ix2 0 j) = a4 m c (ix1 j) := bias1_entry m c j
  have id_d : Cert.ReferenceIdeal.Read.idx_main_v43 (Cert.ReferenceIdeal.Read.idx_main_v44 (ix2 n j)) = ix1 n :=
    funext fun a => match a with | ⟨0, _⟩ => rfl
  have id_b : Cert.ReferenceIdeal.Read.idx_main_v47 (Cert.ReferenceIdeal.Read.idx_main_v48 (ix2 n j)) = ix1 j :=
    funext fun a => match a with | ⟨0, _⟩ => rfl
  rw [hreg, val1 (V3 m) c n j, hA, hH, hD, hB,
    Cert.ReferenceIdeal.Read.val_main_v50_apply, Cert.ReferenceIdeal.Read.val_main_v49_apply,
    Cert.ReferenceIdeal.Read.val_main_v46_apply, Cert.ReferenceIdeal.Read.val_main_v45_apply,
    Cert.ReferenceIdeal.Read.val_main_v44_apply, Cert.ReferenceIdeal.Read.val_main_v43_apply,
    Cert.ReferenceIdeal.Read.val_main_v42_apply, Cert.ReferenceIdeal.Read.val_main_v48_apply,
    Cert.ReferenceIdeal.Read.val_main_v47_apply, Cert.ReferenceIdeal.Read.val_main_call0_v0_apply,
    Cert.ReferenceIdeal.Read.val_main_call0_cst_apply, id_d, id_b]
  show _ = max _ (Ideal.ofBits .f32 0x00000000#32)
  rw [Ideal.ofBits_zero_f32]
  rfl

end Cert.KernelIdeal.Hand

end
-- ==== Proof.KI.Val2.lean ====
/- What the second linear map leaves in its product array, over the extended reals: entry (n, j) is the sum over
   the 64 contracted coordinates of the feature entry (n, k) times the weight entry (k, j). Each grid point writes
   back the rows 4096 t .. 4096 t + 4095, the 32 blocks cover the array, and a block's entry is the body's matrix
   product onto a zero accumulator of the point's feature block and the weight matrix. -/
import proofs.«410829_j31533649887385_2_alg».proof.Proof.KI.R2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The body's matrix product at an entry -/

/-- The product's row coordinate comes from the output's row. -/
theorem lhs2_row (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
theorem lhs2_contr (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs2_contr (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs2_col (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- The body's product of a feature block and the weight matrix, at an entry of the block: the sum over the 64
    contracted coordinates; the narrowing of the operands changes nothing over the extended reals and the
    accumulator is zero. -/
theorem pay2_apply (x : S4096x64.Idx → EReal) (w : S64x64.Idx → EReal) (p : Fin 4096) (q : Fin 64) :
    k2_pay1 (F := Ideal) x w (ix2 p q) = ∑ k : Fin 64, x (ix2 p k) * w (ix2 k q) := by
  unfold k2_pay1
  refine (Ideal.matmul_constant_zero_apply dot_S4096x64_S64x64_S4096x64_1_0_0_1_n_n none _ _ (ix2 p q)).trans ?_
  rw [← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q) ((contrEquiv1 dot_S4096x64_S64x64_S4096x64_1_0_0_1_n_n 64 rfl rfl).symm k) = ix2 p k :=
    funext fun a => Fin.ext (by
      match a with
      | ⟨0, _⟩ => exact lhs2_row _ _
      | ⟨1, _⟩ => exact (lhs2_contr _ _).trans hk)
  have er : dot_S4096x64_S64x64_S4096x64_1_0_0_1_n_n.rhsIdx (ix2 p q) ((contrEquiv1 dot_S4096x64_S64x64_S4096x64_1_0_0_1_n_n 64 rfl rfl).symm k) = ix2 k q :=
    funext fun a => Fin.ext (by
      match a with
      | ⟨0, _⟩ => exact (rhs2_contr _ _).trans hk
      | ⟨1, _⟩ => exact rhs2_col _ _)
  rw [truncf_apply, truncf_apply, el, er, shapeCast_self]

-- the TensorCore's buffer contents when the region is entered, at the exact instance
variable (V : (c : Dev nD) → (b : Ref sig .tc) → Buf (Elt Ideal) ((c : Thread nD τ).loc b))

/-- The feature array, the weight array and the product array after the region, at their literal types. -/
abbrev kx2 (c : Dev nD) : S131072x64.Idx → EReal := V c main_v44
abbrev kw2 (c : Dev nD) : S64x64.Idx → EReal := V c main_arg5
abbrev ko2 (c : Dev nD) : S131072x64.Idx → EReal := (dat2 (F := Ideal) V c).arrAt 2 cfg2.N

/-! ## The blocks at a point -/

/-- Every access of the body starts at the origin of its buffer. -/
theorem origin2 : (![0, 0] : Fin 2 → Nat) = fun _ => 0 := funext fun a => by fin_cases a <;> rfl

/-- The block indices over the grid: the feature and product windows move down with the point, in their one column
    of blocks; the weight window stays on its one block. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the feature block at point t is entry (4096 t + p, k) of the feature array. -/
theorem xblk2_apply (c : Dev nD) (t : Fin cfg2.N) (p : Fin 4096) (k : Fin 64) (n : Fin 131072)
    (hn : n.val = 4096 * t.val + p.val) :
    (iblk2 (F := Ideal) V c 0 t : S4096x64.Idx → EReal) (ix2 p k) = kx2 V c (ix2 n k) := by
  obtain ⟨e0, e1, -, -, -, -⟩ := index2 t
  show V c main_v44 (((cfg2.win 0).blk t).view.emb (ix2 p k)) = V c main_v44 (ix2 n k)
  refine congrArg (V c main_v44) (funext fun a => Fin.ext ?_)
  match a with
  | ⟨0, _⟩ => show win2_0.index t (0 : Fin 2) * 4096 + 1 * p.val = n.val; rw [e0, hn]; omega
  | ⟨1, _⟩ => show win2_0.index t (1 : Fin 2) * 64 + 1 * k.val = k.val; rw [e1]; omega

/-- The weight block at every point is the weight array. -/
theorem wblk2_apply (c : Dev nD) (t : Fin cfg2.N) (k : Fin 64) (q : Fin 64) :
    (iblk2 (F := Ideal) V c 1 t : S64x64.Idx → EReal) (ix2 k q) = kw2 V c (ix2 k q) := by
  obtain ⟨-, -, e0, e1, -, -⟩ := index2 t
  show V c main_arg5 (((cfg2.win 1).blk t).view.emb (ix2 k q)) = V c main_arg5 (ix2 k q)
  refine congrArg (V c main_arg5) (funext fun a => Fin.ext ?_)
  match a with
  | ⟨0, _⟩ => show win2_1.index t (0 : Fin 2) * 64 + 1 * k.val = k.val; rw [e0]; omega
  | ⟨1, _⟩ => show win2_1.index t (1 : Fin 2) * 64 + 1 * q.val = q.val; rw [e1]; omega

/-! ## From the blocks to the array -/

/-- The product array as one function of the feature and weight arrays. -/
abbrev prod2 (x : S131072x64.Idx → EReal) (w : S64x64.Idx → EReal) : S131072x64.Idx → EReal :=
  fun i => ∑ k : Fin 64, x (ix2 (⟨(i 0).val, (i 0).isLt⟩ : Fin 131072) k) * w (ix2 k (⟨(i 1).val, (i 1).isLt⟩ : Fin 64))

/-- What point t writes back is its block of the product array: rows 4096 t .. 4096 t + 4095. -/
theorem flushed2 (c : Dev nD) (t : Fin cfg2.N) :
    (dat2 (F := Ideal) V c).flushed 2 t = ((cfg2.win 2).blk t).view.read (Elt Ideal) (prod2 (kx2 V c) (kw2 V c)) := by
  show (cfg2.win 2).cut (grid2.coords t) ((dat2 (F := Ideal) V c).after 2 t) = _
  rw [after2_2]
  unfold out2_2
  rw [View.canon_unit_zero origin2]
  simp only [View.ld_unit_zero (S := S4096x64) origin2, View.ld_unit_zero (S := S64x64) origin2]
  obtain ⟨-, -, -, -, e0, e1⟩ := index2 t
  funext j
  have hp : (j 0).val < 4096 := (j 0).isLt
  have hq : (j 1).val < 64 := (j 1).isLt
  have hj : j = ix2 (⟨(j 0).val, hp⟩ : Fin 4096) (⟨(j 1).val, hq⟩ : Fin 64) := eq_ix2 j
  have hrow : ((((cfg2.win 2).blk t).view.emb j) 0).val = 4096 * t.val + (j 0).val := by
    show win2_2.index t (0 : Fin 2) * 4096 + 1 * (j 0).val = _; rw [e0]; omega
  have hcol : ((((cfg2.win 2).blk t).view.emb j) 1).val = (j 1).val := by
    show win2_2.index t (1 : Fin 2) * 64 + 1 * (j 1).val = _; rw [e1]; omega
  show k2_pay1 (F := Ideal) (iblk2 V c 0 t) (iblk2 V c 1 t) j = prod2 (kx2 V c) (kw2 V c) (((cfg2.win 2).blk t).view.emb j)
  refine ((congrArg (k2_pay1 (F := Ideal) (iblk2 V c 0 t) (iblk2 V c 1 t)) hj).trans (pay2_apply _ _ _ _)).trans
    (Finset.sum_congr rfl fun k _ => ?_)
  exact congrArg₂ (· * ·) (xblk2_apply V c t ⟨(j 0).val, hp⟩ k _ hrow)
    ((wblk2_apply V c t k ⟨(j 1).val, hq⟩).trans (congrArg (fun q => kw2 V c (ix2 k q)) (Fin.ext hcol.symm)))

/-- Row r of the product array lies in the block of point r / 4096. -/
theorem cover2 (i : S131072x64.Idx) :
    ∃ t : Fin cfg2.N, (cfg2.win 2).flush t = true ∧ i ∈ ((cfg2.win 2).blk t).view.set := by
  have hr : (i 0).val < 131072 := (i 0).isLt
  have hc : (i 1).val < 64 := (i 1).isLt
  obtain ⟨t, ht⟩ : ∃ t : Fin cfg2.N, t.val = (i 0).val / 4096 := ⟨⟨(i 0).val / 4096, by show _ < 32; omega⟩, rfl⟩
  obtain ⟨-, -, -, -, e0, e1⟩ := index2 t
  refine ⟨t, flush2_2 t, ?_⟩
  show i ∈ ((View.whole main_v45).slice (win2_2.rect t)).set
  rw [View.set_slice_whole, Rect.mem_set_unit]
  intro a
  match a with
  | ⟨0, _⟩ =>
    show win2_2.index t (0 : Fin 2) * 4096 ≤ (i 0).val ∧ (i 0).val < win2_2.index t (0 : Fin 2) * 4096 + 4096
    rw [e0, ht]; omega
  | ⟨1, _⟩ =>
    show win2_2.index t (1 : Fin 2) * 64 ≤ (i 1).val ∧ (i 1).val < win2_2.index t (1 : Fin 2) * 64 + 64
    rw [e1]; omega

/-- The product array after the region. -/
theorem array2 (c : Dev nD) : ko2 V c = prod2 (kx2 V c) (kw2 V c) :=
  (dat2 (F := Ideal) V c).arrAt_eq_of_cover 2 (prod2 (kx2 V c) (kw2 V c)) (fun t _ => flushed2 V c t) cover2

theorem val2 (c : Dev nD) (n : Fin 131072) (j : Fin 64) :
    ko2 V c (ix2 n j) = ∑ k : Fin 64, kx2 V c (ix2 n k) * kw2 V c (ix2 k j) := by
  rw [array2]

end Cert.KernelIdeal.Hand

end
-- ==== Proof.KI.Val3.lean ====
/- What the second combine step leaves in its output array, over the extended reals: entry (n, j) is the larger of
   zero and (message (n, j) + (degree factor n squared) * feature (n, j)) + bias j. Each grid point writes back
   the rows 4096 t .. 4096 t + 4095 and the 32 blocks cover the array. -/
import proofs.«410829_j31533649887385_2_alg».proof.Proof.KI.R3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered, at the exact instance
variable (V : (c : Dev nD) → (b : Ref sig .tc) → Buf (Elt Ideal) ((c : Thread nD τ).loc b))

/-- The feature array, the message array, the degree factors, the bias row and the output array after the region,
    at their literal types. -/
abbrev kh3 (c : Dev nD) : S131072x64.Idx → EReal := V c main_v45
abbrev ka3 (c : Dev nD) : S131072x64.Idx → EReal := V c main_v58
abbrev kd3 (c : Dev nD) : S131072x1.Idx → EReal := V c main_v27
abbrev kb3 (c : Dev nD) : S1x64.Idx → EReal := V c main_v59
abbrev ko3 (c : Dev nD) : S131072x64.Idx → EReal := (dat3 (F := Ideal) V c).arrAt 4 cfg3.N

/-! ## The payload at an index -/

/-- The offsets of a whole-block access are zero. -/
theorem hz3 : (![0, 0] : Fin 2 → Nat) = fun _ => 0 :=
  funext fun a => by match a with | ⟨0, _⟩ => rfl | ⟨1, _⟩ => rfl

/-- A column `[a, 1]` broadcast to `[a, b]` reads, at `(p, c)`, the column's entry of row `p`. -/
theorem broadcastTo_col3_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at one entry of the block: the larger of zero and
    (message + (degree factor squared) * feature) + bias. -/
theorem pay3_apply (xd : Vec Ideal S4096x1 .f32) (xh xa : Vec Ideal S4096x64 .f32) (xb : Vec Ideal S1x64 .f32)
    (p : Fin 4096) (q : Fin 64) :
    (k3_pay1 (F := Ideal) xd xh xa xb) (ix2 p q)
      = max ((xa (ix2 p q) + (xd (ix2 p 0) * xd (ix2 p 0)) * xh (ix2 p q)) + xb (ix2 0 q)) 0 := by
  unfold k3_pay1
  have e1 : shapeCast S4096x1 xd shapeCasts_S4096x1_S4096x1 = xd := shapeCast_self xd _
  have e2 : shapeCast S4096x64 xa shapeCasts_S4096x64_S4096x64 = xa := shapeCast_self xa _
  have e3 : shapeCast S4096x64 xh shapeCasts_S4096x64_S4096x64 = xh := shapeCast_self xh _
  have e4 : shapeCast S1x64 xb shapeCasts_S1x64_S1x64 = xb := shapeCast_self xb _
  rw [e1, e2, e3, e4]
  show max ((xa (ix2 p q)
        + (broadcastTo S4096x64 (mulf xd xd : FVec Ideal S4096x1 .f32) broadcasts_S4096x1_S4096x64 (ix2 p q) : EReal) * xh (ix2 p q))
      + (broadcastTo S4096x64 xb broadcasts_S1x64_S4096x64 (ix2 p q) : EReal)) (Ideal.ofBits .f32 0x00000000#32) = _
  rw [broadcastTo_col3_apply (mulf xd xd : FVec Ideal S4096x1 .f32) broadcasts_S4096x1_S4096x64 p q,
    broadcastTo_1b_ab_apply xb broadcasts_S1x64_S4096x64 p q, Ideal.ofBits_zero_f32]
  rfl

/-! ## The blocks, read off the arrays -/

/-- The printed index maps over the grid: the row blocks move with the point, the bias row stays. -/
theorem idx3_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p` of point `t`'s block is a row of the array. -/
theorem row3_lt (t : Fin cfg3.N) (p : Fin 4096) : 4096 * t.val + p.val < 131072 := by
  have ht : t.val < 32 := N_3 ▸ t.isLt
  have hp := p.isLt
  omega

/-- The feature block at point `t` is rows `4096 t ..` of the feature array. -/
theorem iblk3_0_apply (c : Dev nD) (t : Fin cfg3.N) (p : Fin 4096) (q : Fin 64) :
    (iblk3 (F := Ideal) V c 0 t : Vec Ideal S4096x64 .f32) (ix2 p q)
      = kh3 V c (ix2 ⟨4096 * t.val + p.val, row3_lt t p⟩ q) := by
  obtain ⟨e0, e1, -⟩ := idx3_facts t
  unfold iblk3
  rw [View.read_apply]
  show V c main_v45 _ = V c main_v45 _
  congr 1
  funext a
  apply Fin.ext
  match a with
  | ⟨0, _⟩ => show win3_0.index t 0 * 4096 + 1 * p.val = 4096 * t.val + p.val; rw [e0]; omega
  | ⟨1, _⟩ => show win3_0.index t 1 * 64 + 1 * q.val = q.val; rw [e1]; omega

/-- The message block at point `t` is rows `4096 t ..` of the message array. -/
theorem iblk3_1_apply (c : Dev nD) (t : Fin cfg3.N) (p : Fin 4096) (q : Fin 64) :
    (iblk3 (F := Ideal) V c 1 t : Vec Ideal S4096x64 .f32) (ix2 p q)
      = ka3 V c (ix2 ⟨4096 * t.val + p.val, row3_lt t p⟩ q) := by
  obtain ⟨-, -, e0, e1, -⟩ := idx3_facts t
  unfold iblk3
  rw [View.read_apply]
  show V c main_v58 _ = V c main_v58 _
  congr 1
  funext a
  apply Fin.ext
  match a with
  | ⟨0, _⟩ => show win3_1.index t 0 * 4096 + 1 * p.val = 4096 * t.val + p.val; rw [e0]; omega
  | ⟨1, _⟩ => show win3_1.index t 1 * 64 + 1 * q.val = q.val; rw [e1]; omega

/-- The degree-factor block at point `t` is rows `4096 t ..` of the degree-factor column. -/
theorem iblk3_2_apply (c : Dev nD) (t : Fin cfg3.N) (p : Fin 4096) :
    (iblk3 (F := Ideal) V c 2 t : Vec Ideal S4096x1 .f32) (ix2 p 0)
      = kd3 V c (ix2 ⟨4096 * t.val + p.val, row3_lt t p⟩ 0) := by
  obtain ⟨-, -, -, -, e0, e1, -⟩ := idx3_facts t
  unfold iblk3
  rw [View.read_apply]
  show V c main_v27 _ = V c main_v27 _
  congr 1
  funext a
  apply Fin.ext
  match a with
  | ⟨0, _⟩ => show win3_2.index t 0 * 4096 + 1 * p.val = 4096 * t.val + p.val; rw [e0]; omega
  | ⟨1, _⟩ => show win3_2.index t 1 * 1 + 1 * 0 = 0; rw [e1]

/-- The bias block at every point is the bias row. -/
theorem iblk3_3_apply (c : Dev nD) (t : Fin cfg3.N) (q : Fin 64) :
    (iblk3 (F := Ideal) V c 3 t : Vec Ideal S1x64 .f32) (ix2 0 q) = kb3 V c (ix2 0 q) := by
  obtain ⟨-, -, -, -, -, -, e0, e1, -⟩ := idx3_facts t
  unfold iblk3
  rw [View.read_apply]
  show V c main_v59 _ = V c main_v59 _
  congr 1
  funext a
  apply Fin.ext
  match a with
  | ⟨0, _⟩ => show win3_3.index t 0 * 1 + 1 * 0 = 0; rw [e0]
  | ⟨1, _⟩ => show win3_3.index t 1 * 64 + 1 * q.val = q.val; rw [e1]; omega

/-- An entry of the output block at point `t` sits in the output array at row `4096 t + p`. -/
theorem emb3_4 (t : Fin cfg3.N) (p : Fin 4096) (q : Fin 64) :
    (((cfg3.win 4).blk t).view.emb (ix2 p q) : S131072x64.Idx) = ix2 ⟨4096 * t.val + p.val, row3_lt t p⟩ q := by
  obtain ⟨-, -, -, -, -, -, -, -, e0, e1⟩ := idx3_facts t
  funext a
  apply Fin.ext
  match a with
  | ⟨0, _⟩ => show win3_4.index t 0 * 4096 + 1 * p.val = 4096 * t.val + p.val; rw [e0]; omega
  | ⟨1, _⟩ => show win3_4.index t 1 * 64 + 1 * q.val = q.val; rw [e1]; omega

/-! ## From the blocks to the array -/

/-- The combined array as one function of the four arrays the region is entered with. -/
def comb3 (c : Dev nD) : S131072x64.Idx → EReal := fun i =>
  max ((ka3 V c i + (kd3 V c (ix2 (i 0 : Fin 131072) 0) * kd3 V c (ix2 (i 0 : Fin 131072) 0)) * kh3 V c i)
    + kb3 V c (ix2 0 (i 1 : Fin 64))) 0

theorem comb3_apply (c : Dev nD) (n : Fin 131072) (j : Fin 64) :
    comb3 V c (ix2 n j)
      = max ((ka3 V c (ix2 n j) + (kd3 V c (ix2 n 0) * kd3 V c (ix2 n 0)) * kh3 V c (ix2 n j)) + kb3 V c (ix2 0 j)) 0 := rfl

/-- What point `t` writes back is block `t` of the combined array. -/
theorem flushed3_4_eq (c : Dev nD) (t : Fin cfg3.N) :
    (dat3 (F := Ideal) V c).flushed 4 t = ((cfg3.win 4).blk t).view.read (Elt Ideal) (comb3 V c) := by
  show (cfg3.win 4).cut (grid3.coords t) ((dat3 (F := Ideal) V c).after 4 t) = _
  rw [after3_4]
  unfold out3_4
  rw [View.canon_unit_zero hz3]
  simp only [View.ld_unit_zero (S := S4096x64) hz3, View.ld_unit_zero (S := S4096x1) hz3, View.ld_unit_zero (S := S1x64) hz3]
  funext y
  obtain ⟨p, q, rfl⟩ : ∃ (p : Fin 4096) (q : Fin 64), y = ix2 p q := ⟨y 0, y 1, eq_ix2 y⟩
  show (k3_pay1 (F := Ideal) (iblk3 V c 2 t) (iblk3 V c 0 t) (iblk3 V c 1 t) (iblk3 V c 3 t)) (ix2 p q)
    = comb3 V c (((cfg3.win 4).blk t).view.emb (ix2 p q))
  rw [emb3_4 t p q, comb3_apply]
  refine (pay3_apply (iblk3 V c 2 t) (iblk3 V c 0 t) (iblk3 V c 1 t) (iblk3 V c 3 t) p q).trans ?_
  rw [iblk3_0_apply V c t p q, iblk3_1_apply V c t p q, iblk3_2_apply V c t p, iblk3_3_apply V c t q]

/-- An index of the output array is in point `t`'s block iff each coordinate is in the block's range on its axis. -/
theorem mem_blk3_4 (t : Fin cfg3.N) (i : S131072x64.Idx) :
    i ∈ ((cfg3.win 4).blk t).view.set
      ↔ ∀ a : Fin 2, win3_4.index t a * S4096x64.size a ≤ (i a).val ∧ (i a).val < win3_4.index t a * S4096x64.size a + S4096x64.size a := by
  show i ∈ ((View.whole main_v60).slice (win3_4.rect t)).set ↔ _
  rw [View.set_slice_whole, Rect.mem_set_unit]
  exact Iff.rfl

/-- Row `r` of the output array is written back by the point `r / 4096`: the 32 blocks cover the array. -/
theorem cover3_4_arr (i : S131072x64.Idx) :
    ∃ t : Fin cfg3.N, (cfg3.win 4).flush t = true ∧ i ∈ ((cfg3.win 4).blk t).view.set := by
  have hi0 : (i 0).val < 131072 := (i 0).isLt
  have hi1 : (i 1).val < 64 := (i 1).isLt
  have hN : cfg3.N = 32 := N_3
  let t : Fin cfg3.N := ⟨(i 0).val / 4096, by rw [hN]; omega⟩
  have ht : t.val = (i 0).val / 4096 := rfl
  obtain ⟨-, -, -, -, -, -, -, -, e0, e1⟩ := idx3_facts t
  refine ⟨t, flush3_4 t, ?_⟩
  rw [mem_blk3_4]
  intro a
  match a with
  | ⟨0, _⟩ =>
    show win3_4.index t (0 : Fin 2) * 4096 ≤ (i 0).val ∧ (i 0).val < win3_4.index t (0 : Fin 2) * 4096 + 4096
    rw [e0, ht]; omega
  | ⟨1, _⟩ =>
    show win3_4.index t (1 : Fin 2) * 64 ≤ (i 1).val ∧ (i 1).val < win3_4.index t (1 : Fin 2) * 64 + 64
    rw [e1]; omega

/-- The output array after the region is the combined array. -/
theorem final3_4 (c : Dev nD) : ko3 V c = comb3 V c :=
  (dat3 (F := Ideal) V c).arrAt_eq_of_cover 4 (comb3 V c) (fun t _ => flushed3_4_eq V c t) cover3_4_arr

theorem val3 (c : Dev nD) (n : Fin 131072) (j : Fin 64) :
    ko3 V c (ix2 n j)
      = max ((ka3 V c (ix2 n j) + (kd3 V c (ix2 n 0) * kd3 V c (ix2 n 0)) * kh3 V c (ix2 n j)) + kb3 V c (ix2 0 j)) 0 := by
  rw [final3_4 V c, comb3_apply]

end Cert.KernelIdeal.Hand

end
-- ==== Proof.KI.ChainB.lean ====
/- The kernel program's buffers against the reference's stages, second layer: the second linear map's array is the
   reference's product of the first layer's output with the second weight matrix (64 contracted coordinates), and the
   aggregated messages are the same host operations of it. -/
import proofs.«410829_j31533649887385_2_alg».proof.Proof.KI.ChainAx
import proofs.«410829_j31533649887385_2_alg».proof.Proof.KI.Val2
import proofs.«410829_j31533649887385_2_alg».proof.Proof.KI.Val3
import proofs.«410829_j31533649887385_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The second layer's buffers at their boundaries, at their literal types. -/
abbrev bh2 (c : Dev nD) : S131072x64.Idx → EReal := W5 m c main_v45
abbrev bagg2 (c : Dev nD) : S131072x64.Idx → EReal := W6 m c main_v58

/-- The weight matrix of the second linear map is the argument as launched: no item before the second linear map
    writes it. -/
theorem w5_eq (c : Dev nD) : (W4 m c main_arg5 : S64x64.Idx → EReal) = a5 m c := by
  show W4 m c (Proc.devRef .tc main_arg5) = _
  rw [W4_of_ne m c main_arg5 (by decide), W3_of m c main_arg5 (by decide), W2_of_ne m c main_arg5 (by decide),
    W1_of m c main_arg5 (by decide)]

/-- The second linear map: entry (n, j) of its array is the sum over the 64 contracted coordinates k of the first
    layer's output at (n, k) times the weight at (k, j), and the reference's product reads the same two entries. -/
theorem K_h2 (c : Dev nD) : bh2 m c = Cert.ReferenceIdeal.Read.val_main_v51 (F := Ideal) (a0 m c) (a1 m c) (a3 m c) (a4 m c) (a5 m c) := by
  funext i
  obtain ⟨n, j, rfl⟩ : ∃ (n : Fin 131072) (j : Fin 64), i = ix2 n j := ⟨i 0, i 1, eq_ix2 i⟩
  have hW : bh2 m c = ko2 (V4 m) c := W5_arr m c 2
  have hx : kx2 (V4 m) c = Cert.ReferenceIdeal.Read.val_main_v50 (F := Ideal) (a0 m c) (a1 m c) (a3 m c) (a4 m c) := K_x1 m c
  have hw : kw2 (V4 m) c = a5 m c := w5_eq m c
  refine (congrFun hW (ix2 n j)).trans ?_
  refine (val2 (V4 m) c n j).trans ?_
  rw [Cert.ReferenceIdeal.Read.val_main_v51_apply, hx, hw]
  refine Finset.sum_congr rfl fun k _ => ?_
  have el : Cert.ReferenceIdeal.Read.lidx_main_v51 (ix2 n j) k = ix2 n k := funext fun a => by
    match a with
    | ⟨0, _⟩ => rfl
    | ⟨1, _⟩ => rfl
  have er : Cert.ReferenceIdeal.Read.ridx_main_v51 (ix2 n j) k = ix2 k j := funext fun a => by
    match a with
    | ⟨0, _⟩ => rfl
    | ⟨1, _⟩ => rfl
  rw [el, er]

/-- The edge list's first row, as the first host stretch slices and flattens it, is the reference's. -/
theorem row1_eq (c : Dev nD) : (W1 m c main_v1 : S4194304.Idx → BitVec 32) = Cert.ReferenceIdeal.Read.val_main_v1 (F := Ideal) (a1 m c) := by
  show StableHlo.after hostOps0 _ (Proc.devRef .tc main_v1) = _
  after_results
  rfl
/-- The edge list's second row likewise. -/
theorem col1_eq (c : Dev nD) : (W1 m c main_v3 : S4194304.Idx → BitVec 32) = Cert.ReferenceIdeal.Read.val_main_v3 (F := Ideal) (a1 m c) := by
  show StableHlo.after hostOps0 _ (Proc.devRef .tc main_v3) = _
  after_results
  rfl

/-- Nothing between the first host stretch and the third writes the two rows or the edge norms. -/
theorem row5_eq (c : Dev nD) : (W5 m c main_v1 : S4194304.Idx → BitVec 32) = Cert.ReferenceIdeal.Read.val_main_v1 (F := Ideal) (a1 m c) := by
  refine Eq.trans ?_ (row1_eq m c)
  show W5 m c (Proc.devRef .tc main_v1) = W1 m c (Proc.devRef .tc main_v1)
  rw [W5_of_ne m c main_v1 (by decide), W4_of_ne m c main_v1 (by decide), W3_of m c main_v1 (by decide), W2_of_ne m c main_v1 (by decide)]
theorem col5_eq (c : Dev nD) : (W5 m c main_v3 : S4194304.Idx → BitVec 32) = Cert.ReferenceIdeal.Read.val_main_v3 (F := Ideal) (a1 m c) := by
  refine Eq.trans ?_ (col1_eq m c)
  show W5 m c (Proc.devRef .tc main_v3) = W1 m c (Proc.devRef .tc main_v3)
  rw [W5_of_ne m c main_v3 (by decide), W4_of_ne m c main_v3 (by decide), W3_of m c main_v3 (by decide), W2_of_ne m c main_v3 (by decide)]
theorem norm5_eq (c : Dev nD) : (W5 m c main_v26 : S4194304.Idx → EReal) = Cert.ReferenceIdeal.Read.val_main_v28 (F := Ideal) (a1 m c) := by
  refine Eq.trans ?_ (K_norm m c)
  show W5 m c (Proc.devRef .tc main_v26) = W1 m c (Proc.devRef .tc main_v26)
  rw [W5_of_ne m c main_v26 (by decide), W4_of_ne m c main_v26 (by decide), W3_of m c main_v26 (by decide), W2_of_ne m c main_v26 (by decide)]

/-- The reference computes the edge norms a second time for the second layer, by the same operations of the same
    arrays: the two stages are one term of the edge list. -/
theorem ref_norm_again (x1 : S2x4194304.Idx → BitVec 32) :
    Cert.ReferenceIdeal.Read.val_main_v66 (F := Ideal) x1 = Cert.ReferenceIdeal.Read.val_main_v28 (F := Ideal) x1 := rfl

/-- The second layer's aggregated messages: the third host stretch gathers the second linear map's rows at the
    normalised row indices, scales them by the edge norms and adds them up at the column indices; the reference does the
    same operations to the same arrays. -/
theorem K_agg2 (c : Dev nD) : bagg2 m c = Cert.ReferenceIdeal.Read.val_main_v79 (F := Ideal) (a0 m c) (a1 m c) (a3 m c) (a4 m c) (a5 m c) := by
  have e1 := row5_eq m c
  have e3 := col5_eq m c
  have e26 := norm5_eq m c
  have e45 : (W5 m c main_v45 : S131072x64.Idx → EReal) = _ := K_h2 m c
  show StableHlo.after hostOps3 (W5 m c) (Proc.devRef .tc main_v58) = _
  after_results_simp
  rw [e3, e26, e45, e1]
  simp only [Cert.ReferenceIdeal.Read.val_main_v79, Cert.ReferenceIdeal.Read.val_main_v77,
    Cert.ReferenceIdeal.Read.val_main_cst_15, Cert.ReferenceIdeal.Read.val_main_v78, Cert.ReferenceIdeal.Read.val_main_v76,
    Cert.ReferenceIdeal.Read.val_main_v75, Cert.ReferenceIdeal.Read.val_main_v67, Cert.ReferenceIdeal.Read.val_main_v74,
    Cert.ReferenceIdeal.Read.val_main_v73, Cert.ReferenceIdeal.Read.val_main_v72, Cert.ReferenceIdeal.Read.val_main_v69,
    Cert.ReferenceIdeal.Read.val_main_v68, Cert.ReferenceIdeal.Read.val_main_c_13, Cert.ReferenceIdeal.Read.val_main_v71,
    Cert.ReferenceIdeal.Read.val_main_v70, Cert.ReferenceIdeal.Read.val_main_c_14]
  rw [ref_norm_again]
  rfl

end Cert.KernelIdeal.Hand

end
-- ==== Proof.KI.ChainBx.lean ====
/- The kernel program's buffers against the reference's stages, second layer, second half: the second combine step's
   array is the reference's second-layer output entry by entry (messages plus squared degree factor times feature,
   plus bias, the larger of that and zero). -/
import proofs.«410829_j31533649887385_2_alg».proof.Proof.KI.ChainB
import proofs.«410829_j31533649887385_2_alg».proof.Proof.KI.Val3
import proofs.«410829_j31533649887385_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The second layer's output at its boundary, at its literal type. -/
abbrev bx2 (c : Dev nD) : S131072x64.Idx → EReal := W7 m c main_v60

namespace Layer2

/-- Host operations run one list after another are the two lists run as one. -/
theorem after_append_x {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih _

/-- The first host stretch ends with the two layouts as one column: of the inverse square-root degrees and of the
    node features. -/
theorem hostOps0_split : (hostOps0 (F := Ideal) : List (HloOp τ sig (Elt Ideal)))
    = hostOps0.take 35 ++ [StableHlo.reshape main_v11 main_v27 rfl shapeCasts_S131072_S131072x1,
        StableHlo.reshape main_arg0 main_v28 rfl shapeCasts_S131072_S131072x1] := rfl

/-- The degree factors as a column: the first host stretch lays the inverse square-root degrees out as one column. -/
theorem dcol1_eq (c : Dev nD) : (W1 m c main_v27 : S131072x1.Idx → EReal)
    = shapeCast S131072x1 (bdinv m c) shapeCasts_S131072_S131072x1 := by
  show StableHlo.after hostOps0 (W0 m c) (Proc.devRef .tc main_v27)
    = shapeCast S131072x1 (StableHlo.after hostOps0 (W0 m c) (Proc.devRef .tc main_v11)) shapeCasts_S131072_S131072x1
  rw [hostOps0_split, after_append_x]
  generalize StableHlo.after (List.take 35 hostOps0) (W0 m c) = G
  after_results
  rfl

/-- No item between the first host stretch and the second combine step writes that column (the first combine step
    reads it), so the step finds the reference's inverse square-root degrees in it: entry (n, 0) is the degree factor
    of node n. -/
theorem dcol6_apply (c : Dev nD) (n : Fin 131072) :
    (W6 m c main_v27 : S131072x1.Idx → EReal) (ix2 n 0)
      = Cert.ReferenceIdeal.Read.val_main_v11 (F := Ideal) (a1 m c) (ix1 n) := by
  have e : (W6 m c main_v27 : S131072x1.Idx → EReal) = W1 m c main_v27 := by
    show W6 m c (Proc.devRef .tc main_v27) = W1 m c (Proc.devRef .tc main_v27)
    rw [W6_of m c main_v27 (by decide), W5_of_ne m c main_v27 (by decide)]
    refine (W4_in m c 2 (by decide)).trans ?_
    show W3 m c (Proc.devRef .tc main_v27) = _
    rw [W3_of m c main_v27 (by decide), W2_of_ne m c main_v27 (by decide)]
  rw [e, dcol1_eq m c, K_dinv m c]
  exact shapeCast_apply _ shapeCasts_S131072_S131072x1 (ix2 n 0) (ix1 n)
    (by rw [Shape.rowMajor_val_two, Shape.rowMajor_val_one]; show n.val = n.val * 1 + 0; omega)

/-- The second bias as a row: the third host stretch lays the argument, as launched, out as one row; entry (0, j)
    is the bias of column j. -/
theorem bias6_apply (c : Dev nD) (j : Fin 64) :
    (W6 m c main_v59 : S1x64.Idx → EReal) (ix2 0 j) = a6 m c (ix1 j) := by
  have e6 : (W5 m c main_arg6 : S64.Idx → EReal) = a6 m c := by
    show W5 m c (Proc.devRef .tc main_arg6) = _
    rw [W5_of_ne m c main_arg6 (by decide), W4_of_ne m c main_arg6 (by decide), W3_of m c main_arg6 (by decide),
      W2_of_ne m c main_arg6 (by decide), W1_of m c main_arg6 (by decide)]
  have e : (W6 m c main_v59 : S1x64.Idx → EReal) = shapeCast S1x64 (W5 m c main_arg6 : S64.Idx → EReal) shapeCasts_S64_S1x64 := by
    show StableHlo.after hostOps3 (W5 m c) (Proc.devRef .tc main_v59) = _
    after_results
    rfl
  rw [e, e6]
  exact shapeCast_a_1a_apply (a6 m c) shapeCasts_S64_S1x64 0 j

/-- The third host stretch does not write the second linear map's array. -/
theorem h2_6_eq (c : Dev nD) : (W6 m c main_v45 : S131072x64.Idx → EReal)
    = Cert.ReferenceIdeal.Read.val_main_v51 (F := Ideal) (a0 m c) (a1 m c) (a3 m c) (a4 m c) (a5 m c) := by
  refine Eq.trans ?_ (K_h2 m c)
  show W6 m c (Proc.devRef .tc main_v45) = W5 m c (Proc.devRef .tc main_v45)
  rw [W6_of m c main_v45 (by decide)]

end Layer2

open Layer2

/-- The second layer's output. -/
theorem K_x2 (c : Dev nD) : bx2 m c = Cert.ReferenceIdeal.Read.val_main_v88 (F := Ideal) (a0 m c) (a1 m c) (a3 m c) (a4 m c) (a5 m c) (a6 m c) := by
  funext i
  obtain ⟨n, j, rfl⟩ : ∃ (n : Fin 131072) (j : Fin 64), i = ix2 n j := ⟨i 0, i 1, eq_ix2 i⟩
  have hW : bx2 m c = ko3 (V6 m) c := W7_arr m c 4
  have ha : ka3 (V6 m) c = Cert.ReferenceIdeal.Read.val_main_v79 (F := Ideal) (a0 m c) (a1 m c) (a3 m c) (a4 m c) (a5 m c) := K_agg2 m c
  have hh : kh3 (V6 m) c = Cert.ReferenceIdeal.Read.val_main_v51 (F := Ideal) (a0 m c) (a1 m c) (a3 m c) (a4 m c) (a5 m c) := h2_6_eq m c
  have hd : kd3 (V6 m) c (ix2 n 0) = Cert.ReferenceIdeal.Read.val_main_v11 (F := Ideal) (a1 m c) (ix1 n) := dcol6_apply m c n
  have hb : kb3 (V6 m) c (ix2 0 j) = a6 m c (ix1 j) := bias6_apply m c j
  refine (congrFun hW (ix2 n j)).trans ?_
  refine (val3 (V6 m) c n j).trans ?_
  rw [ha, hh, hd, hb]
  rw [Cert.ReferenceIdeal.Read.val_main_v88_apply, Cert.ReferenceIdeal.Read.val_main_v87_apply,
    Cert.ReferenceIdeal.Read.val_main_v84_apply, Cert.ReferenceIdeal.Read.val_main_v83_apply,
    Cert.ReferenceIdeal.Read.val_main_v82_apply, Cert.ReferenceIdeal.Read.val_main_v81_apply,
    Cert.ReferenceIdeal.Read.val_main_v80_apply, Cert.ReferenceIdeal.Read.val_main_v86_apply,
    Cert.ReferenceIdeal.Read.val_main_v85_apply, Cert.ReferenceIdeal.Read.val_main_call1_v0_apply,
    Cert.ReferenceIdeal.Read.val_main_call1_cst_apply]
  have i1 : Cert.ReferenceIdeal.Read.idx_main_v81 (Cert.ReferenceIdeal.Read.idx_main_v82 (ix2 n j)) = ix1 n := funext fun a => by
    match a with
    | ⟨0, _⟩ => rfl
  have i2 : Cert.ReferenceIdeal.Read.idx_main_v85 (Cert.ReferenceIdeal.Read.idx_main_v86 (ix2 n j)) = ix1 j := funext fun a => by
    match a with
    | ⟨0, _⟩ => rfl
  rw [i1, i2]
  show _ = max _ (Ideal.ofBits .f32 0x00000000#32)
  rw [Ideal.ofBits_zero_f32]
  rfl

end Cert.KernelIdeal.Hand

end
-- ==== Proof.KI.Val4Lib.lean ====
/- The sum algebra of the pooling reduction, over abstract functions. The 131072 nodes are sixteen blocks of
   8192 nodes; a one-hot entry times a value is the value or zero; running sums that start from zero and add one
   block's filtered sum per point end, after the sixteenth point, at the filtered sum over all nodes. -/
import Mathlib.Data.EReal.Operations
import Mathlib.Algebra.BigOperators.Fin
import Mathlib.Algebra.BigOperators.Group.Finset.Basic

noncomputable section

namespace Cert.KernelIdeal.Hand.Pool4

open scoped BigOperators

/-- Node `k` of block `t`: the blocks are consecutive runs of 8192 nodes. -/
def nodeAt (t : Fin 16) (k : Fin 8192) : Fin 131072 := ⟨8192 * t.val + k.val, by omega⟩

theorem nodeAt_val (t : Fin 16) (k : Fin 8192) : (nodeAt t k).val = 8192 * t.val + k.val := rfl

/-- Every node is exactly one block's node. -/
def blockEquiv : Fin 16 × Fin 8192 ≃ Fin 131072 where
  toFun p := nodeAt p.1 p.2
  invFun q := (⟨q.val / 8192, by omega⟩, ⟨q.val % 8192, by omega⟩)
  left_inv p := by
    obtain ⟨t, k⟩ := p
    refine Prod.ext (Fin.ext ?_) (Fin.ext ?_)
    · show (8192 * t.val + k.val) / 8192 = t.val
      omega
    · show (8192 * t.val + k.val) % 8192 = k.val
      omega
  right_inv q := Fin.ext (by
    show 8192 * (q.val / 8192) + q.val % 8192 = q.val
    omega)

/-- A sum over the nodes is the sum over the blocks of the sums over each block's nodes. -/
theorem sum_nodes_eq_blocks {M : Type*} [AddCommMonoid M] (f : Fin 131072 → M) :
    ∑ q, f q = ∑ t : Fin 16, ∑ k : Fin 8192, f (nodeAt t k) := by
  rw [← Equiv.sum_comp blockEquiv f, Fintype.sum_prod_type]
  rfl

/-- A one-hot entry times a value: the value where the entry is one, zero elsewhere (whatever the value, an
    infinite one included). -/
theorem onehot_mul (c : Prop) [Decidable c] (y : EReal) : (if c then (1 : EReal) else 0) * y = if c then y else 0 := by
  split
  · exact one_mul y
  · exact zero_mul y

/-- One block's part of the filtered sum. -/
def blockSum (p : Fin 131072 → Prop) [DecidablePred p] (x : Fin 131072 → EReal) (t : Fin 16) : EReal :=
  ∑ k : Fin 8192, if p (nodeAt t k) then x (nodeAt t k) else 0

/-- The blocks' parts add up to the filtered sum over all nodes. -/
theorem sum_blockSum (p : Fin 131072 → Prop) [DecidablePred p] (x : Fin 131072 → EReal) :
    ∑ t : Fin 16, blockSum p x t = ∑ q ∈ Finset.univ.filter p, x q := by
  rw [Finset.sum_filter, sum_nodes_eq_blocks]
  rfl

/-- Running sums that start at zero plus the first block's part and add the next block's part at every later
    point are, after the sixteenth point, the filtered sum over all nodes. -/
theorem filtered_sum_of_rec (p : Fin 131072 → Prop) [DecidablePred p] (x : Fin 131072 → EReal)
    (a : (n : ℕ) → n < 16 → EReal)
    (h0 : a 0 (by decide) = 0 + blockSum p x ⟨0, by decide⟩)
    (hs : ∀ (n : ℕ) (hn : n + 1 < 16), a (n + 1) hn = a n (Nat.lt_of_succ_lt hn) + blockSum p x ⟨n + 1, hn⟩) :
    a 15 (by decide) = ∑ q ∈ Finset.univ.filter p, x q := by
  have inv : ∀ (n : ℕ) (hn : n < 16),
      a n hn = ∑ t ∈ Finset.range (n + 1), if h : t < 16 then blockSum p x ⟨t, h⟩ else 0 := by
    intro n
    induction n with
    | zero =>
      intro hn
      rw [Finset.sum_range_one, dif_pos (by decide : 0 < 16), h0, zero_add]
    | succ n ih =>
      intro hn
      rw [Finset.sum_range_succ, ← ih (Nat.lt_of_succ_lt hn), dif_pos hn, hs n hn]
  rw [inv 15 (by decide), ← sum_blockSum p x, ← Fin.sum_univ_eq_sum_range (fun t => if h : t < 16 then blockSum p x ⟨t, h⟩ else 0) 16]
  refine Finset.sum_congr rfl fun t _ => ?_
  rw [dif_pos t.isLt]

end Cert.KernelIdeal.Hand.Pool4

end
-- ==== Proof.KI.Val4.lean ====
/- What the pooling reduction leaves in its two output arrays, over the extended reals. The pooled sums' entry
   (g, j) for j < 64 is the sum of the first layer's feature (n, j) over the nodes n whose graph id is g, and
   for j >= 64 the same for the second layer's feature (n, j - 64); the counts' entry g is the number of such
   nodes. A point's one-hot row for graph g has a one exactly at the nodes of the block whose id is g, so its
   product with a feature block is the sum of the block's rows with id g, and the sixteen blocks partition the
   nodes; the first point starts the running sums from zero and the last point's copies are what is written back. -/
import proofs.«410829_j31533649887385_2_alg».proof.Proof.KI.R4
import proofs.«410829_j31533649887385_2_alg».proof.Proof.KI.Val4Lib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered, at the exact instance
variable (V : (c : Dev nD) → (b : Ref sig .tc) → Buf (Elt Ideal) ((c : Thread nD τ).loc b))

/-- The graph ids, the two layers' feature arrays and the two output arrays after the region, at their literal
    types. -/
abbrev kid4 (c : Dev nD) : S1x131072.Idx → BitVec 32 := V c main_v61
abbrev kx4 (c : Dev nD) : S131072x64.Idx → EReal := V c main_v44
abbrev ky4 (c : Dev nD) : S131072x64.Idx → EReal := V c main_v60
abbrev ks4 (c : Dev nD) : S64x128.Idx → EReal := (dat4 (F := Ideal) V c).arrAt 3 cfg4.N
abbrev kc4 (c : Dev nD) : S64x1.Idx → EReal := (dat4 (F := Ideal) V c).arrAt 4 cfg4.N

/-- The nodes whose graph id is `g` (an id outside 0..63 belongs to no graph). -/
def nodesOf (c : Dev nD) (g : Fin 64) : Finset (Fin 131072) :=
  Finset.univ.filter fun n => kid4 V c (ix2 0 n) = BitVec.ofNat 32 g.val

namespace Pool4

/-! ## The one-hot block at an index -/

/-- The word of a comparison "is equal", widened and converted: one where the words are equal, zero elsewhere. -/
theorem onehot_word (x y : BitVec 32) :
    (FloatOps.sitofp (F := Ideal) .f32 ((IntOp.cmpi .eq x y).setWidth 32) : EReal) = if y = x then 1 else 0 := by
  by_cases h : y = x
  · subst h
    rw [if_pos rfl]
    have e : IntOp.cmpi .eq y y = 1#1 := by simp [IntOp.cmpi]
    rw [e]
    show (((1#1 : BitVec 1).setWidth 32).toInt : ℝ) = (1 : EReal)
    have e2 : ((1#1 : BitVec 1).setWidth 32).toInt = 1 := by decide
    rw [e2]; simp
  · rw [if_neg h]
    have e : IntOp.cmpi .eq x y = 0#1 := by
      have hb : (x == y) = false := beq_eq_false_iff_ne.mpr fun e => h e.symm
      simp [IntOp.cmpi, hb]
    rw [e]
    show (((0#1 : BitVec 1).setWidth 32).toInt : ℝ) = (0 : EReal)
    have e2 : ((0#1 : BitVec 1).setWidth 32).toInt = 0 := by decide
    rw [e2]; simp

/-- Entry (g, k) of a point's one-hot block: one where the block's id k is the word g, zero elsewhere. -/
theorem onehot4_apply (b : Vec Ideal S1x8192 .i32) (g : Fin 64) (k : Fin 8192) :
    k4_pay5 (F := Ideal) b (ix2 g k) = if b (ix2 0 k) = BitVec.ofNat 32 g.val then (1 : EReal) else 0 := by
  unfold k4_pay5
  dsimp only
  refine Eq.trans ?_ (onehot_word (BitVec.ofNat 32 g.val) (b (ix2 0 k)))
  show FloatOps.sitofp (F := Ideal) .f32 ((IntOp.cmpi .eq (iota .tc S64x8192 32 [0] iota_S64x8192_d0_w32 (ix2 g k))
      (broadcastTo S64x8192 (shapeCast S1x8192 b shapeCasts_S1x8192_S1x8192) broadcasts_S1x8192_S64x8192 (ix2 g k))).setWidth 32) = _
  rw [iota_single_apply, shapeCast_self, broadcastTo_1b_ab_apply]

/-! ## A one-hot product at an index -/

theorem lhs4_0 (i : S64x64.Idx) (q : dot_S64x8192_S8192x64_S64x64_1_0_0_1_n_n.contr.Idx) :
    (dot_S64x8192_S8192x64_S64x64_1_0_0_1_n_n.lhsIdx i q 0).val = (i 0).val := by
  unfold DotDims.lhsIdx
  rw [dif_neg (show ¬(0 : Fin S64x8192.rank) ∈ dot_S64x8192_S8192x64_S64x64_1_0_0_1_n_n.lhsBatch by decide), dif_pos (show (0 : Fin S64x8192.rank) ∈ dot_S64x8192_S8192x64_S64x64_1_0_0_1_n_n.lhsNonContracting by decide)]
  rfl
theorem lhs4_1 (i : S64x64.Idx) (q : dot_S64x8192_S8192x64_S64x64_1_0_0_1_n_n.contr.Idx) :
    (dot_S64x8192_S8192x64_S64x64_1_0_0_1_n_n.lhsIdx i q 1).val = (q ⟨0, by decide⟩).val :=
  dot_S64x8192_S8192x64_S64x64_1_0_0_1_n_n.lhsIdx_val_of_single rfl i q
theorem rhs4_0 (i : S64x64.Idx) (q : dot_S64x8192_S8192x64_S64x64_1_0_0_1_n_n.contr.Idx) :
    (dot_S64x8192_S8192x64_S64x64_1_0_0_1_n_n.rhsIdx i q 0).val = (q ⟨0, by decide⟩).val :=
  dot_S64x8192_S8192x64_S64x64_1_0_0_1_n_n.rhsIdx_val_of_single rfl i q
theorem rhs4_1 (i : S64x64.Idx) (q : dot_S64x8192_S8192x64_S64x64_1_0_0_1_n_n.contr.Idx) :
    (dot_S64x8192_S8192x64_S64x64_1_0_0_1_n_n.rhsIdx i q 1).val = (i 1).val := by
  unfold DotDims.rhsIdx
  rw [dif_neg (show ¬(1 : Fin S8192x64.rank) ∈ dot_S64x8192_S8192x64_S64x64_1_0_0_1_n_n.rhsBatch by decide), dif_pos (show (1 : Fin S8192x64.rank) ∈ dot_S64x8192_S8192x64_S64x64_1_0_0_1_n_n.rhsNonContracting by decide)]
  rfl

/-- The block product onto zero, at (g, j): the sum over the block's 8192 rows of the left factor's entry (g, k)
    times the right factor's entry (k, j). -/
theorem mm4_apply (A : FVec Ideal S64x8192 .bf16) (B : FVec Ideal S8192x64 .bf16) (g j : Fin 64) :
    FloatOps.matmul dot_S64x8192_S8192x64_S64x64_1_0_0_1_n_n none A B (constant (F := Ideal) S64x64 .f32 0x00000000#32) (ix2 g j)
      = ∑ k : Fin 8192, A (ix2 g k) * B (ix2 k j) := by
  rw [Ideal.matmul_constant_zero_apply, ← Equiv.sum_comp (ValueIdx.contrEquiv1 dot_S64x8192_S8192x64_S64x64_1_0_0_1_n_n 8192 rfl rfl).symm]
  refine Finset.sum_congr rfl fun k _ => ?_
  have hk := ValueIdx.contrEquiv1_symm_val dot_S64x8192_S8192x64_S64x64_1_0_0_1_n_n 8192 rfl rfl k
  have el : dot_S64x8192_S8192x64_S64x64_1_0_0_1_n_n.lhsIdx (ix2 g j) ((ValueIdx.contrEquiv1 dot_S64x8192_S8192x64_S64x64_1_0_0_1_n_n 8192 rfl rfl).symm k) = ix2 g k := funext fun a => Fin.ext (by
    match a with
    | ⟨0, _⟩ => exact lhs4_0 _ _
    | ⟨1, _⟩ => exact (lhs4_1 _ _).trans hk)
  have er : dot_S64x8192_S8192x64_S64x64_1_0_0_1_n_n.rhsIdx (ix2 g j) ((ValueIdx.contrEquiv1 dot_S64x8192_S8192x64_S64x64_1_0_0_1_n_n 8192 rfl rfl).symm k) = ix2 k j := funext fun a => Fin.ext (by
    match a with
    | ⟨0, _⟩ => exact (rhs4_0 _ _).trans hk
    | ⟨1, _⟩ => exact rhs4_1 _ _)
  rw [el, er]

/-- The first layer's update at (g, j): the running sum there plus the sum of the block's feature rows (k, j)
    over the rows k whose id is g. -/
theorem pay7_apply (b : Vec Ideal S1x8192 .i32) (acc : Vec Ideal S64x64 .f32) (x : Vec Ideal S8192x64 .f32) (g j : Fin 64) :
    k4_pay7 (F := Ideal) b acc x (ix2 g j)
      = acc (ix2 g j) + ∑ k : Fin 8192, if b (ix2 0 k) = BitVec.ofNat 32 g.val then x (ix2 k j) else 0 := by
  unfold k4_pay7 k4_pay6
  dsimp only
  rw [shapeCast_self, shapeCast_self]
  refine congrArg (acc (ix2 g j) + ·) ?_
  refine (mm4_apply _ _ g j).trans ?_
  refine Finset.sum_congr rfl fun k _ => ?_
  refine Eq.trans ?_ (onehot_mul _ _)
  exact congrArg (· * x (ix2 k j)) (onehot4_apply b g k)

/-- The second layer's update likewise. -/
theorem pay8_apply (b : Vec Ideal S1x8192 .i32) (acc : Vec Ideal S64x64 .f32) (x : Vec Ideal S8192x64 .f32) (g j : Fin 64) :
    k4_pay8 (F := Ideal) b acc x (ix2 g j)
      = acc (ix2 g j) + ∑ k : Fin 8192, if b (ix2 0 k) = BitVec.ofNat 32 g.val then x (ix2 k j) else 0 := by
  unfold k4_pay8 k4_pay6
  dsimp only
  rw [shapeCast_self, shapeCast_self]
  refine congrArg (acc (ix2 g j) + ·) ?_
  refine (mm4_apply _ _ g j).trans ?_
  refine Finset.sum_congr rfl fun k _ => ?_
  refine Eq.trans ?_ (onehot_mul _ _)
  exact congrArg (· * x (ix2 k j)) (onehot4_apply b g k)

/-! ## The counts' update at an index -/

/-- The lane sum of a 64 x 8192 block, at row g: the sum of the row's 8192 entries. -/
theorem reduce4_apply (src : FVec Ideal S64x8192 .f32) (hφ : FKind.Formats .f32)
    (hacc : (0x00000000#32 : BitVec FTy.f32.bits) = FKind.add.neutral .f32 hφ) (g : Fin 64) :
    multiReduction (F := Ideal) .add [1] S64 src 0x00000000#32 reduces_S64x8192_S64 hφ hacc (ix1 g) = ∑ k : Fin 8192, src (ix2 g k) := by
  refine (Ideal.multiReduction_add_single src 0x00000000#32 reduces_S64x8192_S64 hφ hacc (ix1 g)).trans ?_
  refine Finset.sum_congr rfl fun k _ => ?_
  exact congrArg src (funext fun a => Fin.ext (by
    match a with
    | ⟨0, _⟩ => rfl
    | ⟨1, _⟩ => rfl))

/-- The counts' update at g: the running count there plus the number of the block's rows whose id is g. -/
theorem pay9_apply (b : Vec Ideal S1x8192 .i32) (acc : Vec Ideal S64x1 .f32) (g : Fin 64) :
    k4_pay1 (F := Ideal) (k4_pay9 (F := Ideal) b acc) (ix2 g 0)
      = acc (ix2 g 0) + ∑ k : Fin 8192, if b (ix2 0 k) = BitVec.ofNat 32 g.val then (1 : EReal) else 0 := by
  unfold k4_pay1 k4_pay9
  dsimp only
  rw [shapeCast_self]
  refine congrArg (acc (ix2 g 0) + ·) ?_
  refine (shapeCast_apply _ shapeCasts_S64_S64x1 (ix2 g 0) (ix1 g) ?_).trans ?_
  · rw [Shape.rowMajor_val_two, Shape.rowMajor_val_one]
    show g.val = g.val * 1 + 0
    omega
  refine (reduce4_apply _ _ _ g).trans ?_
  exact Finset.sum_congr rfl fun k _ => onehot4_apply b g k

/-! ## The cleared sums -/

theorem zero4_1_apply (g j : Fin 64) : (zero4 (F := Ideal)).1 (ix2 g j) = 0 := by
  show k4_pay2 (F := Ideal) (ix2 g j) = 0
  unfold k4_pay2
  rw [shapeCast_self]
  exact Ideal.ofBits_zero_f32
theorem zero4_2_apply (g j : Fin 64) : (zero4 (F := Ideal)).2.1 (ix2 g j) = 0 := by
  show k4_pay3 (F := Ideal) (ix2 g j) = 0
  unfold k4_pay3
  rw [shapeCast_self]
  exact Ideal.ofBits_zero_f32
theorem zero4_3_apply (g : Fin 64) : (zero4 (F := Ideal)).2.2 (ix2 g 0) = 0 := by
  show k4_pay4 (F := Ideal) (ix2 g 0) = 0
  unfold k4_pay4
  rw [shapeCast_self]
  exact Ideal.ofBits_zero_f32

/-! ## The windows' blocks as parts of the arrays -/

theorem N4' : cfg4.N = 16 := N_4

/-- A grid point as a block number. -/
abbrev blkNo (t : Fin cfg4.N) : Fin 16 := ⟨t.val, N4' ▸ t.isLt⟩

theorem idx_facts4 : ∀ t : Fin cfg4.N,
    (win4_0.index t 0 = 0 ∧ win4_0.index t 1 = t.val) ∧ (win4_1.index t 0 = t.val ∧ win4_1.index t 1 = 0)
      ∧ (win4_2.index t 0 = t.val ∧ win4_2.index t 1 = 0) :=
  (by decide +kernel : ∀ t : Fin grid4.N,
    (win4_0.index t 0 = 0 ∧ win4_0.index t 1 = t.val) ∧ (win4_1.index t 0 = t.val ∧ win4_1.index t 1 = 0)
      ∧ (win4_2.index t 0 = t.val ∧ win4_2.index t 1 = 0))

/-- The id block at point t: ids of the nodes 8192 t .. 8192 t + 8191. -/
theorem iblk4_0_apply (c : Dev nD) (t : Fin cfg4.N) (k : Fin 8192) :
    (iblk4 (F := Ideal) V c 0 t : Vec Ideal S1x8192 .i32) (ix2 0 k) = kid4 V c (ix2 0 (nodeAt (blkNo t) k)) := by
  have hi := (idx_facts4 t).1
  unfold iblk4
  rw [View.read_apply]
  show V c main_v61 _ = V c main_v61 _
  congr 1
  funext a
  apply Fin.ext
  match a with
  | ⟨0, _⟩ => show win4_0.index t 0 * 1 + 1 * 0 = 0; rw [hi.1]
  | ⟨1, _⟩ => show win4_0.index t 1 * 8192 + 1 * k.val = 8192 * t.val + k.val; rw [hi.2]; omega

/-- The first layer's feature block at point t: rows 8192 t .. 8192 t + 8191. -/
theorem iblk4_1_apply (c : Dev nD) (t : Fin cfg4.N) (k : Fin 8192) (j : Fin 64) :
    (iblk4 (F := Ideal) V c 1 t : Vec Ideal S8192x64 .f32) (ix2 k j) = kx4 V c (ix2 (nodeAt (blkNo t) k) j) := by
  have hi := (idx_facts4 t).2.1
  unfold iblk4
  rw [View.read_apply]
  show V c main_v44 _ = V c main_v44 _
  congr 1
  funext a
  apply Fin.ext
  match a with
  | ⟨0, _⟩ => show win4_1.index t 0 * 8192 + 1 * k.val = 8192 * t.val + k.val; rw [hi.1]; omega
  | ⟨1, _⟩ => show win4_1.index t 1 * 64 + 1 * j.val = j.val; rw [hi.2]; omega

/-- The second layer's feature block likewise. -/
theorem iblk4_2_apply (c : Dev nD) (t : Fin cfg4.N) (k : Fin 8192) (j : Fin 64) :
    (iblk4 (F := Ideal) V c 2 t : Vec Ideal S8192x64 .f32) (ix2 k j) = ky4 V c (ix2 (nodeAt (blkNo t) k) j) := by
  have hi := (idx_facts4 t).2.2
  unfold iblk4
  rw [View.read_apply]
  show V c main_v60 _ = V c main_v60 _
  congr 1
  funext a
  apply Fin.ext
  match a with
  | ⟨0, _⟩ => show win4_2.index t 0 * 8192 + 1 * k.val = 8192 * t.val + k.val; rw [hi.1]; omega
  | ⟨1, _⟩ => show win4_2.index t 1 * 64 + 1 * j.val = j.val; rw [hi.2]; omega

/-! ## The output blocks at an index -/

/-- Columns 0..63 of the pooled sums' block are the first layer's sums. -/
theorem out4_3_lo (a1 a2 : Vec Ideal S64x64 .f32) (g j : Fin 64) :
    out4_3 (F := Ideal) a1 a2 (ix2 g ⟨j.val, by omega⟩) = a1 (ix2 g j) := by
  unfold out4_3
  rw [View.canon_cons_of_not_mem]
  · have e : (ix2 g (⟨j.val, by omega⟩ : Fin 128) : S64x128.Idx) = r4_lo.emb (ix2 g j) := funext fun a => Fin.ext (by
      match a with
      | ⟨0, _⟩ => show g.val = 0 + 1 * g.val; omega
      | ⟨1, _⟩ => show j.val = 0 + 1 * j.val; omega)
    rw [e]
    exact View.canon_cons_emb r4_lo a1 [] (ix2 g j)
  · rw [Rect.mem_set_unit]
    intro h
    have h1 : (64 : ℕ) ≤ j.val := (h 1).1
    omega

/-- Columns 64..127 are the second layer's sums. -/
theorem out4_3_hi (a1 a2 : Vec Ideal S64x64 .f32) (g j : Fin 64) :
    out4_3 (F := Ideal) a1 a2 (ix2 g ⟨64 + j.val, by omega⟩) = a2 (ix2 g j) := by
  unfold out4_3
  have e : (ix2 g (⟨64 + j.val, by omega⟩ : Fin 128) : S64x128.Idx) = r4_hi.emb (ix2 g j) := funext fun a => Fin.ext (by
    match a with
    | ⟨0, _⟩ => show g.val = 0 + 1 * g.val; omega
    | ⟨1, _⟩ => show 64 + j.val = 64 + 1 * j.val; omega)
  rw [e]
  exact View.canon_cons_emb r4_hi a2 _ (ix2 g j)

/-- The counts' block is the running counts. -/
theorem out4_4_eq (ac : Vec Ideal S64x1 .f32) : out4_4 (F := Ideal) ac = ac := by
  unfold out4_4
  exact View.canon_unit_zero (funext fun a => by fin_cases a <;> rfl) _ ac

/-! ## The arrays after the region: the last point's blocks -/

/-- The last point. -/
abbrev l4 : Fin cfg4.N := ⟨15, by rw [N4']; decide⟩

/-- The one write-back of the pooled sums, at the last point, writes the whole block: block (0, 0) of the
    64 x 128 array is the array. -/
theorem flushed4_3 (c : Dev nD) (t : Fin cfg4.N) (hf : (cfg4.win 3).flush t = true) :
    (dat4 (F := Ideal) V c).flushed 3 t
      = ((cfg4.win 3).blk t).view.read (Elt Ideal) (out4_3 (accs V c 15 l4.isLt).1 (accs V c 15 l4.isLt).2.1) := by
  have hN : cfg4.N = 16 := N_4
  have h1 : t.val = 15 := by have := (flush4_3 t).mp hf; have := t.isLt; omega
  obtain rfl : t = l4 := Fin.ext h1
  show (cfg4.win 3).cut (grid4.coords l4) ((dat4 V c).after 3 l4) = _
  rw [after4_3]
  have hz' : (fun a => win4_3.index l4 a * main_v62_0.ty.shape.size a) = fun _ => 0 := funext fun a => by fin_cases a <;> decide +kernel
  exact (Memref.read_access_unit_zero (Elt Ideal) main_v62_0 hz' (fun a => by rw [congrFun hz' a]; simp) _).symm

theorem flushed4_4 (c : Dev nD) (t : Fin cfg4.N) (hf : (cfg4.win 4).flush t = true) :
    (dat4 (F := Ideal) V c).flushed 4 t
      = ((cfg4.win 4).blk t).view.read (Elt Ideal) (out4_4 (accs V c 15 l4.isLt).2.2) := by
  have hN : cfg4.N = 16 := N_4
  have h1 : t.val = 15 := by have := (flush4_4 t).mp hf; have := t.isLt; omega
  obtain rfl : t = l4 := Fin.ext h1
  show (cfg4.win 4).cut (grid4.coords l4) ((dat4 V c).after 4 l4) = _
  rw [after4_4]
  have hz' : (fun a => win4_4.index l4 a * main_v62_1.ty.shape.size a) = fun _ => 0 := funext fun a => by fin_cases a <;> decide +kernel
  exact (Memref.read_access_unit_zero (Elt Ideal) main_v62_1 hz' (fun a => by rw [congrFun hz' a]; simp) _).symm

/-- So the pooled sums' array ends holding the last point's block. -/
theorem final4_3 (c : Dev nD) :
    ks4 V c = out4_3 (accs V c 15 l4.isLt).1 (accs V c 15 l4.isLt).2.1 :=
  (dat4 (F := Ideal) V c).arrAt_eq_of_cover 3 _ (flushed4_3 V c) fun i =>
    ⟨l4, (flush4_3 l4).mpr rfl, by
      show i ∈ ((View.whole main_v62_0).slice (win4_3.rect l4)).set
      rw [View.set_slice_whole, Rect.mem_set_unit]
      intro a
      have h0 : (i 0 : Nat) < 64 := (i 0).isLt
      have h1 : (i 1 : Nat) < 128 := (i 1).isLt
      match a with
      | ⟨0, _⟩ =>
        show win4_3.index l4 0 * win4_3.size 0 ≤ (i 0 : Nat) ∧ (i 0 : Nat) < win4_3.index l4 0 * win4_3.size 0 + win4_3.xsize (grid4.coords l4) 0
        rw [show win4_3.index l4 0 * win4_3.size 0 = 0 from by decide +kernel, show win4_3.xsize (grid4.coords l4) 0 = 64 from by decide +kernel]
        omega
      | ⟨1, _⟩ =>
        show win4_3.index l4 1 * win4_3.size 1 ≤ (i 1 : Nat) ∧ (i 1 : Nat) < win4_3.index l4 1 * win4_3.size 1 + win4_3.xsize (grid4.coords l4) 1
        rw [show win4_3.index l4 1 * win4_3.size 1 = 0 from by decide +kernel, show win4_3.xsize (grid4.coords l4) 1 = 128 from by decide +kernel]
        omega⟩

/-- and the counts' array likewise. -/
theorem final4_4 (c : Dev nD) : kc4 V c = out4_4 (accs V c 15 l4.isLt).2.2 :=
  (dat4 (F := Ideal) V c).arrAt_eq_of_cover 4 _ (flushed4_4 V c) fun i =>
    ⟨l4, (flush4_4 l4).mpr rfl, by
      show i ∈ ((View.whole main_v62_1).slice (win4_4.rect l4)).set
      rw [View.set_slice_whole, Rect.mem_set_unit]
      intro a
      have h0 : (i 0 : Nat) < 64 := (i 0).isLt
      have h1 : (i 1 : Nat) < 1 := (i 1).isLt
      match a with
      | ⟨0, _⟩ =>
        show win4_4.index l4 0 * win4_4.size 0 ≤ (i 0 : Nat) ∧ (i 0 : Nat) < win4_4.index l4 0 * win4_4.size 0 + win4_4.xsize (grid4.coords l4) 0
        rw [show win4_4.index l4 0 * win4_4.size 0 = 0 from by decide +kernel, show win4_4.xsize (grid4.coords l4) 0 = 64 from by decide +kernel]
        omega
      | ⟨1, _⟩ =>
        show win4_4.index l4 1 * win4_4.size 1 ≤ (i 1 : Nat) ∧ (i 1 : Nat) < win4_4.index l4 1 * win4_4.size 1 + win4_4.xsize (grid4.coords l4) 1
        rw [show win4_4.index l4 1 * win4_4.size 1 = 0 from by decide +kernel, show win4_4.xsize (grid4.coords l4) 1 = 1 from by decide +kernel]
        omega⟩

end Pool4

open Pool4

/-! ## The running sums are the filtered sums: the three readings -/

theorem val4_lo (c : Dev nD) (g : Fin 64) (j : Fin 64) :
    ks4 V c (ix2 g ⟨j.val, by omega⟩) = ∑ n ∈ nodesOf V c g, kx4 V c (ix2 n j) := by
  rw [final4_3 V c, out4_3_lo]
  unfold nodesOf
  refine filtered_sum_of_rec (fun q : Fin 131072 => kid4 V c (ix2 0 q) = BitVec.ofNat 32 g.val) (fun q => kx4 V c (ix2 q j))
    (fun n hn => (accs (F := Ideal) V c n (hn.trans_eq N4'.symm)).1 (ix2 g j)) ?_ ?_
  · show k4_pay7 (F := Ideal) _ (zero4 (F := Ideal)).1 _ (ix2 g j) = _
    refine (pay7_apply _ _ _ g j).trans ?_
    rw [zero4_1_apply]
    refine congrArg (0 + ·) ?_
    unfold blockSum
    refine Finset.sum_congr rfl fun k _ => ?_
    rw [iblk4_0_apply, iblk4_1_apply]
  · intro n hn
    show k4_pay7 (F := Ideal) _ (accs (F := Ideal) V c n _).1 _ (ix2 g j) = _
    refine (pay7_apply _ _ _ g j).trans ?_
    refine congrArg ((accs (F := Ideal) V c n _).1 (ix2 g j) + ·) ?_
    unfold blockSum
    refine Finset.sum_congr rfl fun k _ => ?_
    rw [iblk4_0_apply, iblk4_1_apply]

theorem val4_hi (c : Dev nD) (g : Fin 64) (j : Fin 64) :
    ks4 V c (ix2 g ⟨64 + j.val, by omega⟩) = ∑ n ∈ nodesOf V c g, ky4 V c (ix2 n j) := by
  rw [final4_3 V c, out4_3_hi]
  unfold nodesOf
  refine filtered_sum_of_rec (fun q : Fin 131072 => kid4 V c (ix2 0 q) = BitVec.ofNat 32 g.val) (fun q => ky4 V c (ix2 q j))
    (fun n hn => (accs (F := Ideal) V c n (hn.trans_eq N4'.symm)).2.1 (ix2 g j)) ?_ ?_
  · show k4_pay8 (F := Ideal) _ (zero4 (F := Ideal)).2.1 _ (ix2 g j) = _
    refine (pay8_apply _ _ _ g j).trans ?_
    rw [zero4_2_apply]
    refine congrArg (0 + ·) ?_
    unfold blockSum
    refine Finset.sum_congr rfl fun k _ => ?_
    rw [iblk4_0_apply, iblk4_2_apply]
  · intro n hn
    show k4_pay8 (F := Ideal) _ (accs (F := Ideal) V c n _).2.1 _ (ix2 g j) = _
    refine (pay8_apply _ _ _ g j).trans ?_
    refine congrArg ((accs (F := Ideal) V c n _).2.1 (ix2 g j) + ·) ?_
    unfold blockSum
    refine Finset.sum_congr rfl fun k _ => ?_
    rw [iblk4_0_apply, iblk4_2_apply]

theorem val4_cnt (c : Dev nD) (g : Fin 64) :
    kc4 V c (ix2 g 0) = ∑ n ∈ nodesOf V c g, (1 : EReal) := by
  rw [final4_4 V c, out4_4_eq]
  unfold nodesOf
  refine filtered_sum_of_rec (fun q : Fin 131072 => kid4 V c (ix2 0 q) = BitVec.ofNat 32 g.val) (fun _ => (1 : EReal))
    (fun n hn => (accs (F := Ideal) V c n (hn.trans_eq N4'.symm)).2.2 (ix2 g 0)) ?_ ?_
  · show k4_pay1 (F := Ideal) (k4_pay9 (F := Ideal) _ (zero4 (F := Ideal)).2.2) (ix2 g 0) = _
    refine (pay9_apply _ _ g).trans ?_
    rw [zero4_3_apply]
    refine congrArg (0 + ·) ?_
    unfold blockSum
    refine Finset.sum_congr rfl fun k _ => ?_
    rw [iblk4_0_apply]
  · intro n hn
    show k4_pay1 (F := Ideal) (k4_pay9 (F := Ideal) _ (accs (F := Ideal) V c n _).2.2) (ix2 g 0) = _
    refine (pay9_apply _ _ g).trans ?_
    refine congrArg ((accs (F := Ideal) V c n _).2.2 (ix2 g 0) + ·) ?_
    unfold blockSum
    refine Finset.sum_congr rfl fun k _ => ?_
    rw [iblk4_0_apply]

end Cert.KernelIdeal.Hand

end
-- ==== Proof.KI.ChainC.lean ====
/- The kernel program's buffers against the reference's stages, pooling. The pooled sums: the reference scatters the
   rows of the two layers' outputs, side by side, into their graph's row, which entry by entry is the sum over the
   nodes of a graph of one layer's feature; the counts likewise with ones. -/
import proofs.«410829_j31533649887385_2_alg».proof.Proof.KI.ChainBx
import proofs.«410829_j31533649887385_2_alg».proof.Proof.KI.Val4
import proofs.«410829_j31533649887385_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The dimension numbers of a scatter of the rows of an [N, C] array into the rows of a [G, C] array, the row chosen
    by a column [N, 1] of start indices. -/
abbrev rowScatDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

section RowScat
variable {G N C w : Nat} (wf : ScatterDims.WF ⟨2, ![G, C]⟩ ⟨2, ![N, 1]⟩ ⟨2, ![N, C]⟩ [1] [0] [0] 1)
  (idx : IVec ⟨2, ![N, 1]⟩ w) (j : (⟨2, ![N, C]⟩ : Shape).Idx)

/-- The start index of update row `n` is read at `(n, 0)`. -/
theorem rowScat_start0 :
    (rowScatDims G N C wf).start j idx 0 = (idx (ix2 (⟨(j 0).val, idx2_lt0 j⟩ : Fin N) (0 : Fin 1))).toInt := by
  unfold ScatterDims.start
  rw [dif_pos (show (0 : Fin 2) ∈ (rowScatDims G N C wf).scatterDimsToOperandDims from List.mem_singleton.mpr rfl)]
  have hsi : (rowScatDims G N C wf).siIdx j ⟨List.idxOf (0 : Fin 2) (rowScatDims G N C wf).scatterDimsToOperandDims,
      List.idxOf_lt_length_iff.2 (List.mem_singleton.mpr rfl)⟩ = ix2 (⟨(j 0).val, idx2_lt0 j⟩ : Fin N) (0 : Fin 1) := by
    funext b; refine Fin.ext ?_
    match b with
    | ⟨0, _⟩ => rfl
    | ⟨1, _⟩ => rfl
  rw [hsi]

theorem rowScat_start1 : (rowScatDims G N C wf).start j idx 1 = 0 := by
  unfold ScatterDims.start
  rw [dif_neg (show ¬ (1 : Fin 2) ∈ (rowScatDims G N C wf).scatterDimsToOperandDims from
    fun h => Nat.one_ne_zero (congrArg Fin.val (List.mem_singleton.mp h)))]

theorem rowScat_window0 : (rowScatDims G N C wf).window j 0 = 0 := by
  unfold ScatterDims.window
  rw [dif_neg (show ¬ (0 : Fin 2) ∈ (rowScatDims G N C wf).sKept from
    fun h => by
      have h2 := (List.mem_filter.1 h).2
      simp at h2)]

theorem rowScat_window1 : (rowScatDims G N C wf).window j 1 = (j 1).val := by
  unfold ScatterDims.window
  rw [dif_pos (show (1 : Fin 2) ∈ (rowScatDims G N C wf).sKept from
    List.mem_filter.2 ⟨List.mem_finRange _, by simp⟩)]
  rfl

/-- Update `(n, col)` lands at `(g, col')` exactly when row `n`'s start index, read as an integer, is `g` and the
    columns agree: an index outside the rows is dropped. -/
theorem rowScat_resultIdx (i : (⟨2, ![G, C]⟩ : Shape).Idx) :
    (rowScatDims G N C wf).resultIdx? j idx = some i
      ↔ (idx (ix2 (⟨(j 0).val, idx2_lt0 j⟩ : Fin N) (0 : Fin 1))).toInt = ((i 0).val : Int) ∧ (j 1).val = (i 1).val := by
  have h0 : (rowScatDims G N C wf).start j idx 0 + ((rowScatDims G N C wf).window j 0 : Int)
      = (idx (ix2 (⟨(j 0).val, idx2_lt0 j⟩ : Fin N) (0 : Fin 1))).toInt := by
    rw [rowScat_start0, rowScat_window0]; simp
  have h1 : (rowScatDims G N C wf).start j idx 1 + ((rowScatDims G N C wf).window j 1 : Int) = ((j 1).val : Int) := by
    rw [rowScat_start1, rowScat_window1]; simp
  have hi0 : (i 0).val < G := idx2_lt0 i
  have hi1 : (i 1).val < C := idx2_lt1 i
  have hj1 : (j 1).val < C := idx2_lt1 j
  unfold ScatterDims.resultIdx?
  constructor
  · intro h
    split at h
    · next hc =>
      have e := Option.some.inj h
      have e0 := congrArg (fun f => (f 0).val) e
      have e1 := congrArg (fun f => (f 1).val) e
      have c0 := hc 0
      have c1 := hc 1
      simp only [h0] at e0 c0
      simp only [h1] at e1 c1
      constructor
      · have : ((idx (ix2 (⟨(j 0).val, idx2_lt0 j⟩ : Fin N) (0 : Fin 1))).toInt).toNat = (i 0).val := e0
        omega
      · have : (((j 1).val : Int)).toNat = (i 1).val := e1
        omega
    · exact absurd h (by simp)
  · rintro ⟨e0, e1⟩
    have hc : ∀ a, 0 ≤ (rowScatDims G N C wf).start j idx a + ((rowScatDims G N C wf).window j a : Int)
        ∧ (rowScatDims G N C wf).start j idx a + ((rowScatDims G N C wf).window j a : Int)
          < ((⟨2, ![G, C]⟩ : Shape).size a : Int) := by
      intro a
      match a with
      | ⟨0, _⟩ =>
        show 0 ≤ (rowScatDims G N C wf).start j idx 0 + ((rowScatDims G N C wf).window j 0 : Int)
          ∧ (rowScatDims G N C wf).start j idx 0 + ((rowScatDims G N C wf).window j 0 : Int) < (G : Int)
        rw [h0, e0]; omega
      | ⟨1, _⟩ =>
        show 0 ≤ (rowScatDims G N C wf).start j idx 1 + ((rowScatDims G N C wf).window j 1 : Int)
          ∧ (rowScatDims G N C wf).start j idx 1 + ((rowScatDims G N C wf).window j 1 : Int) < (C : Int)
        rw [h1]; omega
    rw [dif_pos hc]
    congr 1
    funext a
    refine Fin.ext ?_
    match a with
    | ⟨0, _⟩ =>
      show ((rowScatDims G N C wf).start j idx 0 + ((rowScatDims G N C wf).window j 0 : Int)).toNat = (i 0).val
      rw [h0, e0]; simp
    | ⟨1, _⟩ =>
      show ((rowScatDims G N C wf).start j idx 1 + ((rowScatDims G N C wf).window j 1 : Int)).toNat = (i 1).val
      rw [h1]; omega

end RowScat

/-- The dimension numbers of a scatter of the entries of an [N] vector into a [G] vector, the entry chosen by a
    column [N, 1] of start indices. -/
abbrev vecScatDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

section VecScat
variable {G N w : Nat} (wf : ScatterDims.WF ⟨1, ![G]⟩ ⟨2, ![N, 1]⟩ ⟨1, ![N]⟩ [] [0] [0] 1)
  (idx : IVec ⟨2, ![N, 1]⟩ w) (j : (⟨1, ![N]⟩ : Shape).Idx)

theorem vecScat_start0 :
    (vecScatDims G N wf).start j idx 0 = (idx (ix2 (⟨(j 0).val, (j 0).isLt⟩ : Fin N) (0 : Fin 1))).toInt := by
  unfold ScatterDims.start
  rw [dif_pos (show (0 : Fin 1) ∈ (vecScatDims G N wf).scatterDimsToOperandDims from List.mem_singleton.mpr rfl)]
  have hsi : (vecScatDims G N wf).siIdx j ⟨List.idxOf (0 : Fin 1) (vecScatDims G N wf).scatterDimsToOperandDims,
      List.idxOf_lt_length_iff.2 (List.mem_singleton.mpr rfl)⟩ = ix2 (⟨(j 0).val, (j 0).isLt⟩ : Fin N) (0 : Fin 1) := by
    funext b; refine Fin.ext ?_
    match b with
    | ⟨0, _⟩ => rfl
    | ⟨1, _⟩ => rfl
  rw [hsi]

theorem vecScat_window0 : (vecScatDims G N wf).window j 0 = 0 := by
  unfold ScatterDims.window
  rw [dif_neg (show ¬ (0 : Fin 1) ∈ (vecScatDims G N wf).sKept from
    fun h => by
      have h2 := (List.mem_filter.1 h).2
      simp at h2)]

/-- Update `n` lands at `g` exactly when its start index, read as an integer, is `g`. -/
theorem vecScat_resultIdx (i : (⟨1, ![G]⟩ : Shape).Idx) :
    (vecScatDims G N wf).resultIdx? j idx = some i
      ↔ (idx (ix2 (⟨(j 0).val, (j 0).isLt⟩ : Fin N) (0 : Fin 1))).toInt = ((i 0).val : Int) := by
  have h0 : (vecScatDims G N wf).start j idx 0 + ((vecScatDims G N wf).window j 0 : Int)
      = (idx (ix2 (⟨(j 0).val, (j 0).isLt⟩ : Fin N) (0 : Fin 1))).toInt := by
    rw [vecScat_start0, vecScat_window0]; simp
  have hi0 : (i 0).val < G := (i 0).isLt
  unfold ScatterDims.resultIdx?
  constructor
  · intro h
    split at h
    · next hc =>
      have e := Option.some.inj h
      have e0 := congrArg (fun f => (f 0).val) e
      have c0 := hc 0
      simp only [h0] at e0 c0
      have : ((idx (ix2 (⟨(j 0).val, (j 0).isLt⟩ : Fin N) (0 : Fin 1))).toInt).toNat = (i 0).val := e0
      omega
    · exact absurd h (by simp)
  · intro e0
    have hc : ∀ a, 0 ≤ (vecScatDims G N wf).start j idx a + ((vecScatDims G N wf).window j a : Int)
        ∧ (vecScatDims G N wf).start j idx a + ((vecScatDims G N wf).window j a : Int)
          < ((⟨1, ![G]⟩ : Shape).size a : Int) := by
      intro a
      match a with
      | ⟨0, _⟩ =>
        show 0 ≤ (vecScatDims G N wf).start j idx 0 + ((vecScatDims G N wf).window j 0 : Int)
          ∧ (vecScatDims G N wf).start j idx 0 + ((vecScatDims G N wf).window j 0 : Int) < (G : Int)
        rw [h0, e0]; omega
    rw [dif_pos hc]
    congr 1
    funext a
    refine Fin.ext ?_
    match a with
    | ⟨0, _⟩ =>
      show ((vecScatDims G N wf).start j idx 0 + ((vecScatDims G N wf).window j 0 : Int)).toNat = (i 0).val
      rw [h0, e0]; simp

end VecScat

/-- A sum over the indices `(n, col')` of a rank-2 array with `n` in a set of rows and `col' = col` is the sum over
    those rows at column `col`. -/
theorem sum_filter_rows_col {M : Type*} [AddCommMonoid M] {n0 n1 : Nat} (P : Fin n0 → Prop) [DecidablePred P]
    (col : Fin n1) (f : (⟨2, ![n0, n1]⟩ : Shape).Idx → M)
    [DecidablePred fun j : (⟨2, ![n0, n1]⟩ : Shape).Idx => P (⟨(j 0).val, idx2_lt0 j⟩ : Fin n0) ∧ (j 1).val = col.val] :
    ∑ j ∈ Finset.univ.filter (fun j : (⟨2, ![n0, n1]⟩ : Shape).Idx =>
        P (⟨(j 0).val, idx2_lt0 j⟩ : Fin n0) ∧ (j 1).val = col.val), f j
      = ∑ n ∈ Finset.univ.filter P, f (ix2 n col) := by
  rw [Finset.sum_filter, sum_idx2, Finset.sum_filter]
  refine Finset.sum_congr rfl fun a _ => ?_
  by_cases hP : P a
  · rw [if_pos hP, Finset.sum_eq_single col]
    · rw [if_pos ⟨hP, rfl⟩]
    · intro b _ hb
      rw [if_neg]
      rintro ⟨_, e⟩
      exact hb (Fin.ext e)
    · intro h; exact absurd (Finset.mem_univ _) h
  · rw [if_neg hP]
    refine Finset.sum_eq_zero fun b _ => ?_
    rw [if_neg]
    rintro ⟨h, _⟩
    exact hP h

/-- A 32-bit word read as a signed integer is `g < 64` exactly when it is the word of `g`. -/
theorem toInt_eq_small_iff (x : BitVec 32) (g : Fin 64) : x.toInt = (g.val : Int) ↔ x = BitVec.ofNat 32 g.val := by
  have hg := g.isLt
  have hx := x.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    split <;> omega

/-- The accumulating row scatter at Ideal, read at `(g, col)`: the operand's entry plus the sum, over the update rows
    whose start index is `g`, of the row's entry in column `col`. -/
theorem rowScatAdd_apply {G N C w : Nat} (wf : ScatterDims.WF ⟨2, ![G, C]⟩ ⟨2, ![N, 1]⟩ ⟨2, ![N, C]⟩ [1] [0] [0] 1)
    (x : (⟨2, ![G, C]⟩ : Shape).Idx → EReal) (idx : IVec ⟨2, ![N, 1]⟩ w) (upd : (⟨2, ![N, C]⟩ : Shape).Idx → EReal)
    (g : Fin G) (col : Fin C) :
    Ideal.hostScatterAdd (rowScatDims G N C wf) x idx upd (ix2 g col)
      = x (ix2 g col) + ∑ n ∈ Finset.univ.filter (fun n : Fin N => (idx (ix2 n (0 : Fin 1))).toInt = (g.val : Int)),
          upd (ix2 n col) := by
  unfold Ideal.hostScatterAdd
  congr 1
  rw [Finset.filter_congr (fun j _ => rowScat_resultIdx wf idx j (ix2 g col))]
  exact sum_filter_rows_col (fun n : Fin N => (idx (ix2 n (0 : Fin 1))).toInt = (g.val : Int)) col upd

/-- The accumulating vector scatter at Ideal, read at `g`. -/
theorem vecScatAdd_apply {G N w : Nat} (wf : ScatterDims.WF ⟨1, ![G]⟩ ⟨2, ![N, 1]⟩ ⟨1, ![N]⟩ [] [0] [0] 1)
    (x : (⟨1, ![G]⟩ : Shape).Idx → EReal) (idx : IVec ⟨2, ![N, 1]⟩ w) (upd : (⟨1, ![N]⟩ : Shape).Idx → EReal)
    (g : Fin G) :
    Ideal.hostScatterAdd (vecScatDims G N wf) x idx upd (ix1 g)
      = x (ix1 g) + ∑ n ∈ Finset.univ.filter (fun n : Fin N => (idx (ix2 n (0 : Fin 1))).toInt = (g.val : Int)),
          upd (ix1 n) := by
  unfold Ideal.hostScatterAdd
  congr 1
  rw [Finset.filter_congr (fun j _ => vecScat_resultIdx wf idx j (ix1 g))]
  rw [Finset.sum_filter, Finset.sum_filter]
  refine (Equiv.sum_comp (⟨fun n : Fin N => (ix1 n : (⟨1, ![N]⟩ : Shape).Idx), fun j => j 0,
    fun n => rfl, fun j => (eq_ix1 j).symm⟩ : Fin N ≃ (⟨1, ![N]⟩ : Shape).Idx) _).symm.trans ?_
  rfl

variable (m : (ℓ : Loc nD τ sig) → Buf (Elt Ideal) ℓ)

/-- The pooling's buffers at their boundary, at their literal types. -/
abbrev bsums (c : Dev nD) : S64x128.Idx → EReal := W9 m c main_v62_0
abbrev bcnts (c : Dev nD) : S64x1.Idx → EReal := W9 m c main_v62_1

/-- The pooling region's output arrays are what its value lemmas speak of. -/
theorem bsums_eq (c : Dev nD) : bsums m c = ks4 (V8 m) c := W9_arr m c 3
theorem bcnts_eq (c : Dev nD) : bcnts m c = kc4 (V8 m) c := W9_arr m c 4

/-- The graph ids are not touched before the pooling region. -/
theorem arg2_W7 (c : Dev nD) : (W7 m c main_arg2 : S131072.Idx → BitVec 32) = a2 m c := by
  show W7 m c (Proc.devRef .tc main_arg2) = _
  rw [W7_of_ne m c main_arg2 (by decide)]
  show W6 m c main_arg2 = _
  rw [W6_of m c main_arg2 (by decide)]
  show W5 m c (Proc.devRef .tc main_arg2) = _
  rw [W5_of_ne m c main_arg2 (by decide)]
  show W4 m c (Proc.devRef .tc main_arg2) = _
  rw [W4_of_ne m c main_arg2 (by decide)]
  show W3 m c main_arg2 = _
  rw [W3_of m c main_arg2 (by decide)]
  show W2 m c (Proc.devRef .tc main_arg2) = _
  rw [W2_of_ne m c main_arg2 (by decide)]
  show W1 m c main_arg2 = _
  rw [W1_of m c main_arg2 (by decide)]

/-- The graph ids entering the pooling region are the third argument as a row. -/
theorem kid4_eq (c : Dev nD) :
    kid4 (V8 m) c = shapeCast S1x131072 (a2 m c) shapeCasts_S131072_S1x131072 := by
  show StableHlo.after hostOps4 _ (Proc.devRef .tc main_v61) = _
  after_results
  funext i
  show shapeCast S1x131072 (W7 m c main_arg2 : S131072.Idx → BitVec 32) shapeCasts_S131072_S1x131072 i = _
  rw [arg2_W7]

/-- The first layer's output enters the pooling region as the combine step left it. -/
theorem kx4_eq (c : Dev nD) : kx4 (V8 m) c = bx1 m c := by
  show W8 m c main_v44 = _
  rw [W8_of m c main_v44 (by decide)]
  show W7 m c (Proc.devRef .tc main_v44) = _
  rw [W7_of_ne m c main_v44 (by decide)]
  show W6 m c main_v44 = _
  rw [W6_of m c main_v44 (by decide)]
  exact W5_in m c 0 rfl

/-- The second layer's output enters the pooling region as the combine step left it. -/
theorem ky4_eq (c : Dev nD) : ky4 (V8 m) c = bx2 m c := by
  show W8 m c main_v60 = _
  rw [W8_of m c main_v60 (by decide)]

/-- The nodes of graph `g`, read off the third argument. -/
theorem nodesOf_eq (c : Dev nD) (g : Fin 64) :
    nodesOf (V8 m) c g = Finset.univ.filter (fun n : Fin 131072 => a2 m c (ix1 n) = BitVec.ofNat 32 g.val) := by
  unfold nodesOf
  refine Finset.filter_congr fun n _ => ?_
  rw [kid4_eq, shapeCast_a_1a_apply]

section Reference
variable (x0 : S131072.Idx → EReal) (x1 : S2x4194304.Idx → BitVec 32) (x2 : S131072.Idx → BitVec 32)
  (x3 : S1x64.Idx → EReal) (x4 : S64.Idx → EReal) (x5 : S64x64.Idx → EReal) (x6 : S64.Idx → EReal)

/-- The reference's column of start indices at row `n` is the graph id of node `n`. -/
theorem ref_ids_apply (n : Fin 131072) :
    Cert.ReferenceIdeal.Read.val_main_v91 (F := Ideal) x2 (ix2 n (0 : Fin 1)) = x2 (ix1 n) := by
  rw [Cert.ReferenceIdeal.Read.val_main_v91_apply]
  congr 1
  funext a
  match a with
  | ⟨0, _⟩ => rfl

theorem ref_ids_apply' (n : Fin 131072) :
    Cert.ReferenceIdeal.Read.val_main_v95 (F := Ideal) x2 (ix2 n (0 : Fin 1)) = x2 (ix1 n) := by
  rw [Cert.ReferenceIdeal.Read.val_main_v95_apply]
  congr 1
  funext a
  match a with
  | ⟨0, _⟩ => rfl

/-- The reference's pooled sums at `(g, col)`: the sum over the nodes of graph `g` of the joined features' column. -/
theorem ref_sums_apply (g : Fin 64) (col : Fin 128) :
    Cert.ReferenceIdeal.Read.val_main_v92 (F := Ideal) x0 x1 x2 x3 x4 x5 x6 (ix2 g col)
      = ∑ n ∈ Finset.univ.filter (fun n : Fin 131072 => x2 (ix1 n) = BitVec.ofNat 32 g.val),
          Cert.ReferenceIdeal.Read.val_main_v89 (F := Ideal) x0 x1 x3 x4 x5 x6 (ix2 n col) := by
  unfold Cert.ReferenceIdeal.Read.val_main_v92
  generalize Cert.ReferenceIdeal.Read.val_main_v89 (F := Ideal) x0 x1 x3 x4 x5 x6 = U
  refine (rowScatAdd_apply (Cert.ReferenceIdeal.scatter_S64x128_S131072x1_S131072x128_1_0_0_1).wf
    (Cert.ReferenceIdeal.Read.val_main_v90 (F := Ideal)) (Cert.ReferenceIdeal.Read.val_main_v91 (F := Ideal) x2)
    U g col).trans ?_
  rw [show Cert.ReferenceIdeal.Read.val_main_v90 (F := Ideal) (ix2 g col) = 0 from
    (Cert.ReferenceIdeal.Read.val_main_v90_apply (F := Ideal) _).trans Ideal.ofBits_zero_f32, zero_add]
  refine Finset.sum_congr (Finset.filter_congr fun n _ => ?_) fun _ _ => rfl
  rw [ref_ids_apply]
  exact toInt_eq_small_iff _ g

/-- The joined features' low columns are the first layer's output. -/
theorem ref_cat_lo (n : Fin 131072) (j : Fin 64) :
    Cert.ReferenceIdeal.Read.val_main_v89 (F := Ideal) x0 x1 x3 x4 x5 x6 (ix2 n (⟨j.val, by omega⟩ : Fin 128))
      = Cert.ReferenceIdeal.Read.val_main_v50 (F := Ideal) x0 x1 x3 x4 (ix2 n j) := by
  unfold Cert.ReferenceIdeal.Read.val_main_v89
  generalize Cert.ReferenceIdeal.Read.val_main_v50 (F := Ideal) x0 x1 x3 x4 = A
  generalize Cert.ReferenceIdeal.Read.val_main_v88 (F := Ideal) x0 x1 x3 x4 x5 x6 = B
  exact concatenate_pair_apply_left (t := Cert.ReferenceIdeal.S131072x128) (s₁ := Cert.ReferenceIdeal.S131072x64)
    (s₂ := Cert.ReferenceIdeal.S131072x64) (1 : Fin 2) A B
    Cert.ReferenceIdeal.Facts₀.concatenates_S131072x64_S131072x64_S131072x128_d1
    (ix2 n (⟨j.val, by omega⟩ : Fin 128)) rfl (ix2 n j)
    (fun b => match b with | ⟨0, _⟩ => rfl | ⟨1, _⟩ => rfl)

/-- The joined features' high columns are the second layer's output. -/
theorem ref_cat_hi (n : Fin 131072) (j : Fin 64) :
    Cert.ReferenceIdeal.Read.val_main_v89 (F := Ideal) x0 x1 x3 x4 x5 x6 (ix2 n (⟨64 + j.val, by omega⟩ : Fin 128))
      = Cert.ReferenceIdeal.Read.val_main_v88 (F := Ideal) x0 x1 x3 x4 x5 x6 (ix2 n j) := by
  unfold Cert.ReferenceIdeal.Read.val_main_v89
  generalize Cert.ReferenceIdeal.Read.val_main_v50 (F := Ideal) x0 x1 x3 x4 = A
  generalize Cert.ReferenceIdeal.Read.val_main_v88 (F := Ideal) x0 x1 x3 x4 x5 x6 = B
  exact concatenate_pair_apply_right (t := Cert.ReferenceIdeal.S131072x128) (s₁ := Cert.ReferenceIdeal.S131072x64)
    (s₂ := Cert.ReferenceIdeal.S131072x64) (1 : Fin 2) A B
    Cert.ReferenceIdeal.Facts₀.concatenates_S131072x64_S131072x64_S131072x128_d1
    (ix2 n (⟨64 + j.val, by omega⟩ : Fin 128)) rfl rfl (ix2 n j)
    (fun b hb => match b, hb with | ⟨0, _⟩, _ => rfl | ⟨1, _⟩, hb => absurd rfl hb)
    (by show j.val + 64 = 64 + j.val; omega)

/-- The reference's counts at `g`: the number of nodes of graph `g`. -/
theorem ref_cnts_apply (g : Fin 64) :
    Cert.ReferenceIdeal.Read.val_main_v96 (F := Ideal) x2 (ix1 g)
      = ∑ n ∈ Finset.univ.filter (fun n : Fin 131072 => x2 (ix1 n) = BitVec.ofNat 32 g.val), (1 : EReal) := by
  unfold Cert.ReferenceIdeal.Read.val_main_v96
  refine (vecScatAdd_apply (Cert.ReferenceIdeal.scatter_S64_S131072x1_S131072_n_0_0_1).wf
    (Cert.ReferenceIdeal.Read.val_main_v94 (F := Ideal)) (Cert.ReferenceIdeal.Read.val_main_v95 (F := Ideal) x2)
    (Cert.ReferenceIdeal.Read.val_main_v93 (F := Ideal)) g).trans ?_
  rw [show Cert.ReferenceIdeal.Read.val_main_v94 (F := Ideal) (ix1 g) = 0 from
    (Cert.ReferenceIdeal.Read.val_main_v94_apply (F := Ideal) _).trans Ideal.ofBits_zero_f32, zero_add]
  refine Finset.sum_congr (Finset.filter_congr fun n _ => ?_) fun n _ => ?_
  · rw [ref_ids_apply']
    exact toInt_eq_small_iff _ g
  · exact (Cert.ReferenceIdeal.Read.val_main_v93_apply (F := Ideal) _).trans Ideal.ofBits_one_f32

end Reference

theorem lo_col_lt (j : Fin 64) : j.val < 128 := Nat.lt_of_lt_of_le j.isLt (by decide)
theorem hi_col_lt (j : Fin 64) : 64 + j.val < 128 := by have := j.isLt; omega

/-- The pooled sums. -/
theorem K_sums (c : Dev nD) : bsums m c
    = Cert.ReferenceIdeal.Read.val_main_v92 (F := Ideal) (a0 m c) (a1 m c) (a2 m c) (a3 m c) (a4 m c) (a5 m c) (a6 m c) := by
  funext i
  obtain ⟨g, col, rfl⟩ : ∃ (g : Fin 64) (col : Fin 128), i = ix2 g col :=
    ⟨⟨(i 0).val, idx2_lt0 i⟩, ⟨(i 1).val, idx2_lt1 i⟩, eq_ix2 i⟩
  rw [ref_sums_apply, bsums_eq]
  by_cases h : col.val < 64
  · obtain ⟨j, rfl⟩ : ∃ j : Fin 64, col = ⟨j.val, lo_col_lt j⟩ := ⟨⟨col.val, h⟩, rfl⟩
    rw [val4_lo (V8 m) c g j, nodesOf_eq, kx4_eq, K_x1]
    exact Finset.sum_congr rfl fun n _ => (ref_cat_lo _ _ _ _ _ _ n j).symm
  · obtain ⟨j, rfl⟩ : ∃ j : Fin 64, col = ⟨64 + j.val, hi_col_lt j⟩ :=
      ⟨⟨col.val - 64, by have := col.isLt; omega⟩, Fin.ext (by show col.val = 64 + (col.val - 64); omega)⟩
    rw [val4_hi (V8 m) c g j, nodesOf_eq, ky4_eq, K_x2]
    exact Finset.sum_congr rfl fun n _ => (ref_cat_hi _ _ _ _ _ _ n j).symm

/-- The counts: the kernel keeps them as a column, the reference as a vector. -/
theorem K_cnts (c : Dev nD) (g : Fin 64) : bcnts m c (ix2 g 0) = Cert.ReferenceIdeal.Read.val_main_v96 (F := Ideal) (a2 m c) (ix1 g) := by
  rw [ref_cnts_apply, bcnts_eq, val4_cnt (V8 m) c g, nodesOf_eq]

end Cert.KernelIdeal.Hand

end
-- ==== Proof.KI.Val5.lean ====
/- What the linear head leaves in the result array, over the extended reals: entry (g, o) is the sum over the 128
   pooled coordinates of the pooled entry (g, k) times the weight entry (k, o), plus the bias entry o. The one
   grid point writes the whole array back. -/
import proofs.«410829_j31533649887385_2_alg».proof.Proof.KI.R5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The body's matrix product and bias at an entry -/

/-- The product's row coordinate comes from the output's row. -/
theorem lhs5_row (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide),
    dif_pos (show (0 : Fin S64x128.rank) ∈ dot_S64x128_S128x10_S64x10_1_0_0_1_n_n.lhsNonContracting by decide)]
  rfl
theorem lhs5_contr (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
theorem rhs5_contr (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
theorem rhs5_col (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide),
    dif_pos (show (1 : Fin S128x10.rank) ∈ dot_S64x128_S128x10_S64x10_1_0_0_1_n_n.rhsNonContracting by decide)]
  rfl

/-- The matrix product of the pooled block and the weight block onto a zero accumulator, at an entry: the sum over
    the 128 contracted coordinates; the narrowing of the operands changes nothing over the extended reals. -/
theorem dot5_apply (xp : S64x128.Idx → EReal) (xw : S128x10.Idx → EReal) (g : Fin 64) (o : Fin 10) :
    (matmul (F := Ideal) dot_S64x128_S128x10_S64x10_1_0_0_1_n_n none
        (truncf .bf16 (shapeCast S64x128 xp shapeCasts_S64x128_S64x128 : FVec Ideal S64x128 .f32) bitsLt_bf16_f32)
        (truncf .bf16 (xw : FVec Ideal S128x10 .f32) bitsLt_bf16_f32)
        (constant S64x10 .f32 0x00000000#32) : FVec Ideal S64x10 .f32) (ix2 g o)
      = ∑ k : Fin 128, xp (ix2 g k) * xw (ix2 k o) := by
  refine (Ideal.matmul_constant_zero_apply dot_S64x128_S128x10_S64x10_1_0_0_1_n_n none _ _ (ix2 g o)).trans ?_
  rw [← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx (ix2 g o) ((contrEquiv1 dot_S64x128_S128x10_S64x10_1_0_0_1_n_n 128 rfl rfl).symm k) = ix2 g k :=
    funext fun a => Fin.ext (by
      match a with
      | ⟨0, _⟩ => exact lhs5_row _ _
      | ⟨1, _⟩ => exact (lhs5_contr _ _).trans hk)
  have er : dot_S64x128_S128x10_S64x10_1_0_0_1_n_n.rhsIdx (ix2 g o) ((contrEquiv1 dot_S64x128_S128x10_S64x10_1_0_0_1_n_n 128 rfl rfl).symm k) = ix2 k o :=
    funext fun a => Fin.ext (by
      match a with
      | ⟨0, _⟩ => exact (rhs5_contr _ _).trans hk
      | ⟨1, _⟩ => exact rhs5_col _ _)
  rw [truncf_apply, truncf_apply, el, er, shapeCast_self]

/-- The bias row repeated down the 64 rows, at an entry: the bias entry of that column. -/
theorem bias5_apply (xb : S1x10.Idx → EReal) (g : Fin 64) (o : Fin 10) :
    (broadcastTo S64x10 (shapeCast S1x10 xb shapeCasts_S1x10_S1x10) broadcasts_S1x10_S64x10 : S64x10.Idx → EReal) (ix2 g o)
      = xb (ix2 0 o) := by
  rw [shapeCast_self]
  refine broadcastTo_apply xb broadcasts_S1x10_S64x10 (ix2 g o) (ix2 0 o) fun a => ?_
  match a with
  | ⟨0, _⟩ => rfl
  | ⟨1, _⟩ => rfl

/-- The body's result at an entry of the block: the product's sum plus the bias entry. -/
theorem pay5_apply (xp : S64x128.Idx → EReal) (xw : S128x10.Idx → EReal) (xb : S1x10.Idx → EReal) (g : Fin 64) (o : Fin 10) :
    k5_pay1 (F := Ideal) xp xw xb (ix2 g o) = (∑ k : Fin 128, xp (ix2 g k) * xw (ix2 k o)) + xb (ix2 0 o) := by
  unfold k5_pay1
  exact congrArg₂ (· + ·) (dot5_apply xp xw g o) (bias5_apply xb g o)

-- the TensorCore's buffer contents when the region is entered, at the exact instance
variable (V : (c : Dev nD) → (b : Ref sig .tc) → Buf (Elt Ideal) ((c : Thread nD τ).loc b))

/-- The pooled array, the head's weights, its bias row and the result array after the region, at their literal types. -/
abbrev kp5 (c : Dev nD) : S64x128.Idx → EReal := V c main_v66
abbrev kw5 (c : Dev nD) : S128x10.Idx → EReal := V c main_arg7
abbrev kb5 (c : Dev nD) : S1x10.Idx → EReal := V c main_v67
abbrev ko5 (c : Dev nD) : S64x10.Idx → EReal := (dat5 (F := Ideal) V c).arrAt 3 cfg5.N

/-! ## The blocks at the one point -/

/-- Every access of the body starts at the origin of its buffer. -/
theorem origin5 : (![0, 0] : Fin 2 → Nat) = fun _ => 0 := funext fun a => by fin_cases a <;> rfl

/-- Every window of the region is its whole array: all block indices are zero. -/
theorem index5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- The pooled block is the pooled array. -/
theorem pblk5_apply (c : Dev nD) (t : Fin cfg5.N) (g : Fin 64) (k : Fin 128) :
    (iblk5 (F := Ideal) V c 0 t : S64x128.Idx → EReal) (ix2 g k) = kp5 V c (ix2 g k) := by
  obtain ⟨e0, e1, -⟩ := index5 t
  show V c main_v66 (((cfg5.win 0).blk t).view.emb (ix2 g k)) = V c main_v66 (ix2 g k)
  refine congrArg (V c main_v66) (funext fun a => Fin.ext ?_)
  match a with
  | ⟨0, _⟩ => show win5_0.index t (0 : Fin 2) * 64 + 1 * g.val = g.val; rw [e0]; omega
  | ⟨1, _⟩ => show win5_0.index t (1 : Fin 2) * 128 + 1 * k.val = k.val; rw [e1]; omega

/-- The weight block is the weight array. -/
theorem wblk5_apply (c : Dev nD) (t : Fin cfg5.N) (k : Fin 128) (o : Fin 10) :
    (iblk5 (F := Ideal) V c 1 t : S128x10.Idx → EReal) (ix2 k o) = kw5 V c (ix2 k o) := by
  obtain ⟨-, -, e0, e1, -⟩ := index5 t
  show V c main_arg7 (((cfg5.win 1).blk t).view.emb (ix2 k o)) = V c main_arg7 (ix2 k o)
  refine congrArg (V c main_arg7) (funext fun a => Fin.ext ?_)
  match a with
  | ⟨0, _⟩ => show win5_1.index t (0 : Fin 2) * 128 + 1 * k.val = k.val; rw [e0]; omega
  | ⟨1, _⟩ => show win5_1.index t (1 : Fin 2) * 10 + 1 * o.val = o.val; rw [e1]; omega

/-- The bias block is the bias row. -/
theorem bblk5_apply (c : Dev nD) (t : Fin cfg5.N) (z : Fin 1) (o : Fin 10) :
    (iblk5 (F := Ideal) V c 2 t : S1x10.Idx → EReal) (ix2 z o) = kb5 V c (ix2 z o) := by
  obtain ⟨-, -, -, -, e0, e1, -⟩ := index5 t
  show V c main_v67 (((cfg5.win 2).blk t).view.emb (ix2 z o)) = V c main_v67 (ix2 z o)
  refine congrArg (V c main_v67) (funext fun a => Fin.ext ?_)
  match a with
  | ⟨0, _⟩ => show win5_2.index t (0 : Fin 2) * 1 + 1 * z.val = z.val; rw [e0]; omega
  | ⟨1, _⟩ => show win5_2.index t (1 : Fin 2) * 10 + 1 * o.val = o.val; rw [e1]; omega

/-! ## From the one block to the array -/

/-- The result array as one function of the pooled array, the weights and the bias row. -/
abbrev head5 (p : S64x128.Idx → EReal) (w : S128x10.Idx → EReal) (b : S1x10.Idx → EReal) : S64x10.Idx → EReal :=
  fun i => (∑ k : Fin 128, p (ix2 (⟨(i 0).val, (i 0).isLt⟩ : Fin 64) k) * w (ix2 k (⟨(i 1).val, (i 1).isLt⟩ : Fin 10)))
    + b (ix2 (0 : Fin 1) (⟨(i 1).val, (i 1).isLt⟩ : Fin 10))

/-- What the one point writes back is the whole result array. -/
theorem flushed5 (c : Dev nD) (t : Fin cfg5.N) :
    (dat5 (F := Ideal) V c).flushed 3 t
      = ((cfg5.win 3).blk t).view.read (Elt Ideal) (head5 (kp5 V c) (kw5 V c) (kb5 V c)) := by
  show (cfg5.win 3).cut (grid5.coords t) ((dat5 (F := Ideal) V c).after 3 t) = _
  rw [after5_3]
  unfold out5_3
  rw [View.canon_unit_zero origin5]
  simp only [View.ld_unit_zero (S := S64x128) origin5, View.ld_unit_zero (S := S128x10) origin5,
    View.ld_unit_zero (S := S1x10) origin5]
  obtain ⟨-, -, -, -, -, -, e0, e1⟩ := index5 t
  funext j
  have hg : (j 0).val < 64 := (j 0).isLt
  have ho : (j 1).val < 10 := (j 1).isLt
  have hj : j = ix2 (⟨(j 0).val, hg⟩ : Fin 64) (⟨(j 1).val, ho⟩ : Fin 10) := eq_ix2 j
  have hrow : ((((cfg5.win 3).blk t).view.emb j) 0).val = (j 0).val := by
    show win5_3.index t (0 : Fin 2) * 64 + 1 * (j 0).val = _; rw [e0]; omega
  have hcol : ((((cfg5.win 3).blk t).view.emb j) 1).val = (j 1).val := by
    show win5_3.index t (1 : Fin 2) * 10 + 1 * (j 1).val = _; rw [e1]; omega
  show k5_pay1 (F := Ideal) (iblk5 V c 0 t) (iblk5 V c 1 t) (iblk5 V c 2 t) j
    = head5 (kp5 V c) (kw5 V c) (kb5 V c) (((cfg5.win 3).blk t).view.emb j)
  refine ((congrArg (k5_pay1 (F := Ideal) (iblk5 V c 0 t) (iblk5 V c 1 t) (iblk5 V c 2 t)) hj).trans
    (pay5_apply _ _ _ _ _)).trans ?_
  have hr : (⟨(j 0).val, hg⟩ : Fin 64) = ⟨((((cfg5.win 3).blk t).view.emb j) 0).val, by rw [hrow]; exact hg⟩ := Fin.ext hrow.symm
  have hc : (⟨(j 1).val, ho⟩ : Fin 10) = ⟨((((cfg5.win 3).blk t).view.emb j) 1).val, by rw [hcol]; exact ho⟩ := Fin.ext hcol.symm
  refine congrArg₂ (· + ·) (Finset.sum_congr rfl fun k _ => ?_) ?_
  · exact congrArg₂ (· * ·) ((pblk5_apply V c t _ k).trans (congrArg (fun r => kp5 V c (ix2 r k)) hr))
      ((wblk5_apply V c t k _).trans (congrArg (fun q => kw5 V c (ix2 k q)) hc))
  · exact (bblk5_apply V c t 0 _).trans (congrArg (fun q => kb5 V c (ix2 (0 : Fin 1) q)) hc)

/-- The one point's block is the whole result array. -/
theorem cover5 (i : S64x10.Idx) :
    ∃ t : Fin cfg5.N, (cfg5.win 3).flush t = true ∧ i ∈ ((cfg5.win 3).blk t).view.set := by
  have hr : (i 0).val < 64 := (i 0).isLt
  have hc : (i 1).val < 10 := (i 1).isLt
  obtain ⟨t, ht⟩ : ∃ t : Fin cfg5.N, t.val = 0 := ⟨⟨0, by show 0 < 1; omega⟩, rfl⟩
  obtain ⟨-, -, -, -, -, -, e0, e1⟩ := index5 t
  refine ⟨t, flush5_3 t, ?_⟩
  show i ∈ ((View.whole main_v68).slice (win5_3.rect t)).set
  rw [View.set_slice_whole, Rect.mem_set_unit]
  intro a
  match a with
  | ⟨0, _⟩ =>
    show win5_3.index t (0 : Fin 2) * 64 ≤ (i 0).val ∧ (i 0).val < win5_3.index t (0 : Fin 2) * 64 + 64
    rw [e0]; omega
  | ⟨1, _⟩ =>
    show win5_3.index t (1 : Fin 2) * 10 ≤ (i 1).val ∧ (i 1).val < win5_3.index t (1 : Fin 2) * 10 + 10
    rw [e1]; omega

/-- The result array after the region. -/
theorem array5 (c : Dev nD) : ko5 V c = head5 (kp5 V c) (kw5 V c) (kb5 V c) :=
  (dat5 (F := Ideal) V c).arrAt_eq_of_cover 3 (head5 (kp5 V c) (kw5 V c) (kb5 V c)) (fun t _ => flushed5 V c t) cover5

theorem val5 (c : Dev nD) (g : Fin 64) (o : Fin 10) :
    ko5 V c (ix2 g o) = (∑ k : Fin 128, kp5 V c (ix2 g k) * kw5 V c (ix2 k o)) + kb5 V c (ix2 0 o) := by
  rw [array5]

end Cert.KernelIdeal.Hand

end
-- ==== Proof.KI.ChainD.lean ====
/- The kernel program's buffers against the reference's stages, the pooled means and the head: the division of the
   pooled sums by the larger of count and one is the same host operation in both programs (the kernel broadcasts a
   column of counts, the reference a vector of them through a column), and the head's array is the reference's
   product with the head's weights plus its bias, entry by entry. -/
import proofs.«410829_j31533649887385_2_alg».proof.Proof.KI.ChainC
import proofs.«410829_j31533649887385_2_alg».proof.Proof.KI.Val5
import proofs.«410829_j31533649887385_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The pooled means and the result at their boundaries, at their literal types. -/
abbrev bpool (c : Dev nD) : S64x128.Idx → EReal := W10 m c main_v66
abbrev bres (c : Dev nD) : S64x10.Idx → EReal := W11 m c main_v68

/-! ## The pooled means -/

/-- The pooled means as the last host stretch leaves them: the pooled sums divided by the column of counts, each raised
    to at least one, repeated along the 128 features. -/
theorem pool_host (c : Dev nD) : bpool m c
    = Host.divf (F := Ideal) (W9 m c main_v62_0 : S64x128.Idx → EReal)
        (broadcastInDim S64x128 ![0, 1] bcast_S64x1_S64x128_0_1
          (maximumf (F := Ideal) (W9 m c main_v62_1 : S64x1.Idx → EReal)
            (broadcastInDim S64x1 ![] bcast_S_S64x1 (constant (F := Ideal) S_ .f32 0x3F800000#32)))) := by
  show StableHlo.after hostOps5 _ (Proc.devRef .tc main_v66) = _
  after_results

/-- The kernel program's divisor at an entry: the larger of the count of the row's graph and one. -/
theorem divisor_kernel (cnt : S64x1.Idx → EReal) (g : Fin 64) (f : Fin 128) :
    (broadcastInDim S64x128 ![0, 1] bcast_S64x1_S64x128_0_1
        (maximumf (F := Ideal) cnt (broadcastInDim S64x1 ![] bcast_S_S64x1 (constant (F := Ideal) S_ .f32 0x3F800000#32)))
      : S64x128.Idx → EReal) (ix2 g f)
      = FloatOps.maximumf (F := Ideal) (φ := .f32) (cnt (ix2 g 0)) (FloatOps.ofBits .f32 0x3F800000#32) := by
  refine (broadcastInDim_apply _ bcast_S64x1_S64x128_0_1 _ (ix2 g f) (ix2 g 0) (fun a => ?_)).trans ?_
  · match a with
    | ⟨0, _⟩ => show g.val = if (64 : Nat) = 1 then 0 else g.val; rw [if_neg (by decide)]
    | ⟨1, _⟩ => show 0 = if (1 : Nat) = 1 then 0 else f.val; rw [if_pos rfl]
  · show FloatOps.maximumf (F := Ideal) (φ := .f32) (cnt (ix2 g 0)) _ = _
    exact congrArg (FloatOps.maximumf (F := Ideal) (φ := .f32) (cnt (ix2 g 0)))
      (broadcastInDim_apply _ bcast_S_S64x1 (constant (F := Ideal) S_ .f32 0x3F800000#32) (ix2 g 0) (fun a => a.elim0) (fun a => a.elim0))

/-- The reference's divisor at an entry: the same, of its vector of counts. -/
theorem divisor_ref (x2 : S131072.Idx → BitVec 32) (g : Fin 64) (f : Fin 128) :
    Cert.ReferenceIdeal.Read.val_main_v100 (F := Ideal) x2 (ix2 g f)
      = FloatOps.maximumf (F := Ideal) (φ := .f32) (Cert.ReferenceIdeal.Read.val_main_v96 (F := Ideal) x2 (ix1 g)) (FloatOps.ofBits .f32 0x3F800000#32) := by
  rw [Cert.ReferenceIdeal.Read.val_main_v100_apply, Cert.ReferenceIdeal.Read.val_main_v99_apply,
    Cert.ReferenceIdeal.Read.val_main_v98_apply, Cert.ReferenceIdeal.Read.val_main_v97_apply,
    Cert.ReferenceIdeal.Read.val_main_cst_19_apply]
  have e : Cert.ReferenceIdeal.Read.idx_main_v99 (Cert.ReferenceIdeal.Read.idx_main_v100 (ix2 g f)) = ix1 g :=
    funext fun a => match a with | ⟨0, _⟩ => rfl
  rw [e]

/-- The pooled means. -/
theorem K_pool (c : Dev nD) : bpool m c
    = Cert.ReferenceIdeal.Read.val_main_v101 (F := Ideal) (a0 m c) (a1 m c) (a2 m c) (a3 m c) (a4 m c) (a5 m c) (a6 m c) := by
  funext i
  obtain ⟨g, f, rfl⟩ : ∃ (g : Fin 64) (f : Fin 128), i = ix2 g f := ⟨i 0, i 1, eq_ix2 i⟩
  rw [pool_host, Cert.ReferenceIdeal.Read.val_main_v101_apply]
  show FloatOps.hostDivf (F := Ideal) (φ := .f32) ((W9 m c main_v62_0 : S64x128.Idx → EReal) (ix2 g f)) _ = _
  refine congrArg₂ (FloatOps.hostDivf (F := Ideal) (φ := .f32)) (congrFun (K_sums m c) (ix2 g f)) ?_
  exact (divisor_kernel _ g f).trans
    ((congrArg (fun z => FloatOps.maximumf (F := Ideal) (φ := .f32) z (FloatOps.ofBits .f32 0x3F800000#32)) (K_cnts m c g)).trans
      (divisor_ref (a2 m c) g f).symm)

/-! ## The head -/

/-- The head's weights reach the last region as launched: no item before it writes them. -/
theorem head_weights (c : Dev nD) : (W10 m c main_arg7 : S128x10.Idx → EReal) = a7 m c :=
  (W10_of m c main_arg7 (by decide)).trans <| (W9_of_ne m c main_arg7 (by decide)).trans <|
    (W8_of m c main_arg7 (by decide)).trans <| (W7_of_ne m c main_arg7 (by decide)).trans <|
    (W6_of m c main_arg7 (by decide)).trans <| (W5_of_ne m c main_arg7 (by decide)).trans <|
    (W4_of_ne m c main_arg7 (by decide)).trans <| (W3_of m c main_arg7 (by decide)).trans <|
    (W2_of_ne m c main_arg7 (by decide)).trans (W1_of m c main_arg7 (by decide))

/-- The head's bias vector is as launched when the last host stretch reads it. -/
theorem head_bias_arg (c : Dev nD) : (W9 m c main_arg8 : S10.Idx → EReal) = a8 m c :=
  (W9_of_ne m c main_arg8 (by decide)).trans <|
    (W8_of m c main_arg8 (by decide)).trans <| (W7_of_ne m c main_arg8 (by decide)).trans <|
    (W6_of m c main_arg8 (by decide)).trans <| (W5_of_ne m c main_arg8 (by decide)).trans <|
    (W4_of_ne m c main_arg8 (by decide)).trans <| (W3_of m c main_arg8 (by decide)).trans <|
    (W2_of_ne m c main_arg8 (by decide)).trans (W1_of m c main_arg8 (by decide))

/-- The bias row the last region reads: the bias vector laid out as one row. -/
theorem head_bias_row (c : Dev nD) : (W10 m c main_v67 : S1x10.Idx → EReal)
    = shapeCast S1x10 (W9 m c main_arg8 : S10.Idx → EReal) shapeCasts_S10_S1x10 := by
  show StableHlo.after hostOps5 _ (Proc.devRef .tc main_v67) = _
  after_results
  rfl

/-- The bias row at an entry is the bias vector's entry of that column. -/
theorem head_bias_apply (c : Dev nD) (o : Fin 10) :
    (W10 m c main_v67 : S1x10.Idx → EReal) (ix2 0 o) = a8 m c (ix1 o) := by
  rw [head_bias_row, head_bias_arg]
  refine shapeCast_apply (a8 m c) shapeCasts_S10_S1x10 (ix2 0 o) (ix1 o) ?_
  rw [Shape.rowMajor_val_one, Shape.rowMajor_val_two]
  show o.val = (0 : ℕ) * 10 + o.val
  omega

/-- The result. -/
theorem K_res (c : Dev nD) : bres m c
    = Cert.ReferenceIdeal.Read.val_main_v105 (F := Ideal) (a0 m c) (a1 m c) (a2 m c) (a3 m c) (a4 m c) (a5 m c) (a6 m c) (a7 m c) (a8 m c) := by
  funext i
  obtain ⟨g, o, rfl⟩ : ∃ (g : Fin 64) (o : Fin 10), i = ix2 g o := ⟨i 0, i 1, eq_ix2 i⟩
  have hreg : bres m c = ko5 (V10 m) c := W11_arr m c 3
  rw [hreg, val5 (V10 m) c g o, Cert.ReferenceIdeal.Read.val_main_v105_apply, Cert.ReferenceIdeal.Read.val_main_v102_apply,
    Cert.ReferenceIdeal.Read.val_main_v104_apply, Cert.ReferenceIdeal.Read.val_main_v103_apply]
  have el : ∀ k : Fin 128, Cert.ReferenceIdeal.Read.lidx_main_v102 (ix2 g o) k = ix2 g k :=
    fun k => funext fun a => match a with | ⟨0, _⟩ => rfl | ⟨1, _⟩ => rfl
  have er : ∀ k : Fin 128, Cert.ReferenceIdeal.Read.ridx_main_v102 (ix2 g o) k = ix2 k o :=
    fun k => funext fun a => match a with | ⟨0, _⟩ => rfl | ⟨1, _⟩ => rfl
  have eb : Cert.ReferenceIdeal.Read.idx_main_v103 (Cert.ReferenceIdeal.Read.idx_main_v104 (ix2 g o)) = ix1 o :=
    funext fun a => match a with | ⟨0, _⟩ => rfl
  rw [eb]
  show (∑ k : Fin 128, kp5 (V10 m) c (ix2 g k) * kw5 (V10 m) c (ix2 k o)) + kb5 (V10 m) c (ix2 0 o) = _ + _
  refine congrArg₂ (· + ·) (Finset.sum_congr rfl fun k _ => ?_) (head_bias_apply m c o)
  rw [el k, er k]
  exact congrArg₂ (· * ·) (congrFun (K_pool m c) (ix2 g k)) (congrFun (head_weights m c) (ix2 k o))

end Cert.KernelIdeal.Hand

end
-- ==== Proof.lean ====
/- The certificate of the graph network's forward pass against its reference. Both programs compute, over the
   extended reals, the same function of the nine arguments: inverse square-root degrees from the edge list, two
   layers of (linear map, normalised neighbour sum plus self term plus bias, clipped at zero), the per-graph means
   of the two layers' outputs side by side, and a linear head. The kernel program runs the linear maps, the combine
   steps, the pooling sums and the head as six kernel regions between stretches of host operations; the reference
   runs everything as host operations. The kernel program's run ends with every buffer at the fold of its eleven
   items from the launch memory; stage by stage that fold is the reference's stage (the host stretches are the same
   operations, each region's array is the reference's stage entry by entry), so the two results are one array.
   The three frames: the kernel program's, at the word level and at the exact level, is its run with the result
   dropped; the reference's is its run with the result dropped. The one idealization, a narrowing to 16 bits and back
   of a block of zeros and ones, is the identity on the extended reals. -/
import proofs.«410829_j31533649887385_2_alg».proof.Defs
import proofs.«410829_j31533649887385_2_alg».proof.Proof.Gen.Kernel
import proofs.«410829_j31533649887385_2_alg».proof.Proof.Gen.KernelIdeal
import proofs.«410829_j31533649887385_2_alg».proof.Proof.Gen.ReferenceIdeal
import proofs.«410829_j31533649887385_2_alg».proof.Proof.Gen.Pre_finite_inputs
import proofs.«410829_j31533649887385_2_alg».proof.Proof.Gen.ReferenceIdeal.Run
import proofs.«410829_j31533649887385_2_alg».proof.Proof.Gen.ReferenceIdeal.Read
import proofs.«410829_j31533649887385_2_alg».proof.Proof.K.Launch
import proofs.«410829_j31533649887385_2_alg».proof.Proof.KI.Launch
import proofs.«410829_j31533649887385_2_alg».proof.Proof.KI.ChainD
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ => Cert.Kernel.Hand.frame (F := Bits) m ρ

/-- The exact program likewise. -/
theorem frame_ki : Cert.frame_KernelIdeal := fun m ρ _ => Cert.KernelIdeal.Hand.frame (F := Ideal) m ρ

/-- The reference likewise: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the exact program: widening back a narrowed block is the identity on the extended reals, and
    the rounding through 16 bits at the word level. -/
theorem preserves : Cert.preserves_Kernel_KernelIdeal :=
  IdealRules.truncf_extf.statement Cert.KernelIdeal.S64x8192 .f32 .bf16

/-- From memories agreeing on the arguments both programs end with the same result array: the exact program's result
    buffer is the last boundary's contents, which is the reference's last stage of the same arguments. -/
theorem algebraic : Cert.algebraic_KernelIdeal_ReferenceIdeal := by
  intro m ρ m' ρ' _ hagree
  refine ⟨fun c => Cert.KernelIdeal.Hand.W11 m c (Proc.devRef .tc Cert.KernelIdeal.main_v68),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v105_eq m' c, h0, h1, h2, h3, h4, h5, h6, h7, h8]
  exact (Cert.KernelIdeal.Hand.K_res m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
